-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part5 {F : FTy → Type} [FloatOps F] (main_v82 : IVec S_ 1) (main_v84 : IVec S2x500000 1) : IVec S_ 1 :=
  let main_c_33 : IVec S_ 1 := constantI S_ 1 1#1
  let main_v85 : IVec S_ 1 := (fun x v => Host.reduce IntOp.andi x v reducesTo_S2x500000_S_d0_1 h_S_) main_v84 main_c_33
  let main_v86 : IVec S_ 1 := andi main_v82 main_v85
  main_v86

def fn_part4 {F : FTy → Type} [FloatOps F] (main_arg1 : IVec S2x500000 32) (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294867296#32
  let main_v79 : IVec S2x500000 32 := broadcastInDim S2x500000 ![] bcast_S_S2x500000 main_c_30
  let main_v80 : IVec S2x500000 1 := cmpi .sge main_arg1 main_v79
  let main_c_31 : IVec S_ 1 := constantI S_ 1 1#1
  let main_v81 : IVec S_ 1 := (fun x v => Host.reduce IntOp.andi x v reducesTo_S2x500000_S_d0_1 h_S_) main_v80 main_c_31
  let main_v82 : IVec S_ 1 := andi main_v78 main_v81
  let main_c_32 : IVec S_ 32 := constantI S_ 32 100000#32
  let main_v83 : IVec S2x500000 32 := broadcastInDim S2x500000 ![] bcast_S_S2x500000 main_c_32
  let main_v84 : IVec S2x500000 1 := cmpi .slt main_arg1 main_v83
  fn_part5 (F := F) main_v82 main_v84

def fn_part3 {F : FTy → Type} [FloatOps F] (main_arg1 : IVec S2x500000 32) (main_arg12 : FVec F S128 .f32) (main_arg13 : FVec F S128 .f32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_arg16 main_v63 main_v67

def fn_part2 {F : FTy → Type} [FloatOps F] (main_arg1 : IVec S2x500000 32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_arg15 main_arg16 main_v48 main_v49 main_v50

def fn_part1 {F : FTy → Type} [FloatOps F] (main_arg1 : IVec S2x500000 32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S100000x128 .f32) (main_arg1 : IVec S2x500000 32) (main_arg2 : FVec F S500000x128 .f32) (main_arg3 : FVec F S384x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S1x128 : Shape := ⟨2, ![1, 128]⟩
abbrev S5000x128 : Shape := ⟨2, ![5000, 128]⟩
abbrev S5000x1 : Shape := ⟨2, ![5000, 1]⟩
abbrev S5000x384 : Shape := ⟨2, ![5000, 384]⟩
abbrev S5000 : Shape := ⟨1, ![5000]⟩

abbrev nBuf : Space → Nat
  | .hbm => 83
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x128, .f32⟩
  | .hbm, ⟨3, _⟩ => ⟨S384x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1x500000, .i32⟩
  | .hbm, ⟨18, _⟩ => ⟨S500000, .i32⟩
  | .hbm, ⟨19, _⟩ => ⟨S1x500000, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S1, .i32⟩
  | .hbm, ⟨30, _⟩ => ⟨S_, .i32⟩
  | .hbm, ⟨31, _⟩ => ⟨S500000x1, .i32⟩
  | .hbm, ⟨32, _⟩ => ⟨S500000x1, .i1⟩
  | .hbm, ⟨33, _⟩ => ⟨S1x1, .i32⟩
  | .hbm, ⟨34, _⟩ => ⟨S500000x1, .i32⟩
  | .hbm, ⟨35, _⟩ => ⟨S500000x1, .i1⟩
  | .hbm, ⟨36, _⟩ => ⟨S500000x1, .i1⟩
  | .hbm, ⟨37, _⟩ => ⟨S_, .i1⟩
  | .hbm, ⟨38, _⟩ => ⟨S500000, .i1⟩
  | .hbm, ⟨39, _⟩ => ⟨S500000x128, .f32⟩
  | .hbm, ⟨40, _⟩ => ⟨S500000x128, .i1⟩
  | .hbm, ⟨41, _⟩ => ⟨S_, .f32⟩
  | .hbm, ⟨42, _⟩ => ⟨S500000x128, .f32⟩
  | .hbm, ⟨43, _⟩ => ⟨S500000x128, .f32⟩
  | .hbm, ⟨44, _⟩ => ⟨S_, .i32⟩
  | .hbm, ⟨45, _⟩ => ⟨S500000, .i32⟩
  | .hbm, ⟨46, _⟩ => ⟨S500000, .i1⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S500000, .i32⟩
  | .hbm, ⟨51, _⟩ => ⟨S500000x1, .i32⟩
  | .hbm, ⟨52, _⟩ => ⟨S1, .i32⟩
  | .hbm, ⟨53, _⟩ => ⟨S_, .i32⟩
  | .hbm, ⟨54, _⟩ => ⟨S500000x1, .i32⟩
  | .hbm, ⟨55, _⟩ => ⟨S500000x1, .i1⟩
  | .hbm, ⟨56, _⟩ => ⟨S1x1, .i32⟩
  | .hbm, ⟨57, _⟩ => ⟨S500000x1, .i32⟩
  | .hbm, ⟨58, _⟩ => ⟨S500000x1, .i1⟩
  | .hbm, ⟨59, _⟩ => ⟨S500000x1, .i1⟩
  | .hbm, ⟨60, _⟩ => ⟨S_, .i1⟩
  | .hbm, ⟨61, _⟩ => ⟨S500000, .i1⟩
  | .hbm, ⟨62, _⟩ => ⟨S500000x128, .f32⟩
  | .hbm, ⟨63, _⟩ => ⟨S500000x128, .i1⟩
  | .hbm, ⟨64, _⟩ => ⟨S_, .f32⟩
  | .hbm, ⟨65, _⟩ => ⟨S500000x128, .f32⟩
  | .hbm, ⟨66, _⟩ => ⟨S500000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x1, .f32⟩
  | .hbm, ⟨77, _⟩ => ⟨S384x128, .bf16⟩
  | .hbm, ⟨78, _⟩ => ⟨S128x128, .bf16⟩
  | .hbm, ⟨79, _⟩ => ⟨S128x128, .bf16⟩
  | .hbm, ⟨80, _⟩ => ⟨S128x1, .bf16⟩
  | .hbm, ⟨81, _⟩ => ⟨S500000x1, .f32⟩
  | .hbm, ⟨82, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S384x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x1, .bf16⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5000x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  shapeCasts_S128_S1x128 : S128.ShapeCasts S1x128
  shapeCasts_S1_S1x1 : S1.ShapeCasts S1x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x128_S5000x384_d1 : Shape.Concatenates [S5000x128, S5000x128, S5000x128] S5000x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S5000x384_S384x128_S5000x128_1_0_0_1_n_n_wf : DotDims.WF S5000x384 S384x128 S5000x128 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x1.size a ≤ S500000x1.size a
  hwx0_17 : ∀ i : grid0.Coords, EltTy.bits .f32 = 32 ∨ (Rect.block (s := S500000x1) S5000x1.size (cc0_transform_17 i) (hinb0_17 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v20) S5000x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x128 : Shape := ⟨2, ![500000, 128]⟩
abbrev S384x128 : Shape := ⟨2, ![384, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S100000x128, .f32⟩
  | 1 => ⟨S2x500000, .i32⟩
  | 2 => ⟨S500000x128, .f32⟩
  | 3 => ⟨S384x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S1x500000, .i32⟩
  | 18 => ⟨S500000, .i32⟩
  | 19 => ⟨S1x500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S500000x384, .f32⟩
  | 40 => ⟨S500000x128, .f32⟩
  | 41 => ⟨S1x128, .f32⟩
  | 42 => ⟨S500000x128, .f32⟩
  | 43 => ⟨S500000x128, .f32⟩
  | 44 => ⟨S_, .f32⟩
  | 45 => ⟨S500000, .f32⟩
  | 46 => ⟨S500000x1, .f32⟩
  | 47 => ⟨S_, .f32⟩
  | 48 => ⟨S500000x1, .f32⟩
  | 49 => ⟨S500000x1, .f32⟩
  | 50 => ⟨S500000x128, .f32⟩
  | 51 => ⟨S500000x128, .f32⟩
  | 52 => ⟨S500000x128, .f32⟩
  | 53 => ⟨S_, .f32⟩
  | 54 => ⟨S500000, .f32⟩
  | 55 => ⟨S500000x1, .f32⟩
  | 56 => ⟨S_, .f32⟩
  | 57 => ⟨S500000x1, .f32⟩
  | 58 => ⟨S500000x1, .f32⟩
  | 59 => ⟨S500000x128, .f32⟩
  | 60 => ⟨S500000x128, .f32⟩
  | 61 => ⟨S_, .f32⟩
  | 62 => ⟨S500000x1, .f32⟩
  | 63 => ⟨S500000x1, .f32⟩
  | 64 => ⟨S500000x1, .f32⟩
  | 65 => ⟨S500000x128, .f32⟩
  | 66 => ⟨S500000x128, .f32⟩
  | 67 => ⟨S1x128, .f32⟩
  | 68 => ⟨S500000x128, .f32⟩
  | 69 => ⟨S500000x128, .f32⟩
  | 70 => ⟨S1x128, .f32⟩
  | 71 => ⟨S500000x128, .f32⟩
  | 72 => ⟨S500000x128, .f32⟩
  | 73 => ⟨S_, .f32⟩
  | 74 => ⟨S500000x128, .f32⟩
  | 75 => ⟨S500000x128, .f32⟩
  | 76 => ⟨S500000x128, .f32⟩
  | 77 => ⟨S1x128, .f32⟩
  | 78 => ⟨S500000x128, .f32⟩
  | 79 => ⟨S500000x128, .f32⟩
  | 80 => ⟨S_, .f32⟩
  | 81 => ⟨S500000, .f32⟩
  | 82 => ⟨S500000x1, .f32⟩
  | 83 => ⟨S_, .f32⟩
  | 84 => ⟨S500000x1, .f32⟩
  | 85 => ⟨S500000x1, .f32⟩
  | 86 => ⟨S500000x128, .f32⟩
  | 87 => ⟨S500000x128, .f32⟩
  | 88 => ⟨S500000x128, .f32⟩
  | 89 => ⟨S_, .f32⟩
  | 90 => ⟨S500000, .f32⟩
  | 91 => ⟨S500000x1, .f32⟩
  | 92 => ⟨S_, .f32⟩
  | 93 => ⟨S500000x1, .f32⟩
  | 94 => ⟨S500000x1, .f32⟩
  | 95 => ⟨S500000x128, .f32⟩
  | 96 => ⟨S500000x128, .f32⟩
  | 97 => ⟨S_, .f32⟩
  | 98 => ⟨S500000x1, .f32⟩
  | 99 => ⟨S500000x1, .f32⟩
  | 100 => ⟨S500000x1, .f32⟩
  | 101 => ⟨S500000x128, .f32⟩
  | 102 => ⟨S500000x128, .f32⟩
  | 103 => ⟨S1x128, .f32⟩
  | 104 => ⟨S500000x128, .f32⟩
  | 105 => ⟨S500000x128, .f32⟩
  | 106 => ⟨S1x128, .f32⟩
  | 107 => ⟨S500000x128, .f32⟩
  | 108 => ⟨S500000x128, .f32⟩
  | 109 => ⟨S_, .f32⟩
  | 110 => ⟨S500000x128, .f32⟩
  | 111 => ⟨S500000x128, .f32⟩
  | 112 => ⟨S500000x128, .f32⟩
  | 113 => ⟨S1x128, .f32⟩
  | 114 => ⟨S500000x128, .f32⟩
  | 115 => ⟨S500000x128, .f32⟩
  | 116 => ⟨S_, .f32⟩
  | 117 => ⟨S500000, .f32⟩
  | 118 => ⟨S500000x1, .f32⟩
  | 119 => ⟨S_, .f32⟩
  | 120 => ⟨S500000x1, .f32⟩
  | 121 => ⟨S500000x1, .f32⟩
  | 122 => ⟨S500000x128, .f32⟩
  | 123 => ⟨S500000x128, .f32⟩
  | 124 => ⟨S500000x128, .f32⟩
  | 125 => ⟨S_, .f32⟩
  | 126 => ⟨S500000, .f32⟩
  | 127 => ⟨S500000x1, .f32⟩
  | _ => ⟨S100000x128, .f32⟩

abbrev hbmTy0_1 (i : Nat) : BufTy := match i % 128 with
  | 0 => ⟨S_, .f32⟩
  | 1 => ⟨S500000x1, .f32⟩
  | 2 => ⟨S500000x1, .f32⟩
  | 3 => ⟨S500000x128, .f32⟩
  | 4 => ⟨S500000x128, .f32⟩
  | 5 => ⟨S_, .f32⟩
  | 6 => ⟨S500000x1, .f32⟩
  | 7 => ⟨S500000x1, .f32⟩
  | 8 => ⟨S500000x1, .f32⟩
  | 9 => ⟨S500000x128, .f32⟩
  | 10 => ⟨S500000x128, .f32⟩
  | 11 => ⟨S1x128, .f32⟩
  | 12 => ⟨S500000x128, .f32⟩
  | 13 => ⟨S500000x128, .f32⟩
  | 14 => ⟨S1x128, .f32⟩
  | 15 => ⟨S500000x128, .f32⟩
  | 16 => ⟨S500000x128, .f32⟩
  | 17 => ⟨S_, .f32⟩
  | 18 => ⟨S500000x128, .f32⟩
  | 19 => ⟨S500000x128, .f32⟩
  | 20 => ⟨S500000x1, .f32⟩
  | 21 => ⟨S1x1, .f32⟩
  | 22 => ⟨S500000x1, .f32⟩
  | 23 => ⟨S500000x1, .f32⟩
  | 24 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call0_cst : Ref sig .tc := ⟨.hbm, 73, rfl⟩
abbrev main_call0_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call1_cst : Ref sig .tc := ⟨.hbm, 109, rfl⟩
abbrev main_call1_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_cst_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call2_cst : Ref sig .tc := ⟨.hbm, 145, rfl⟩
abbrev main_call2_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  What both programs compute for one edge. Three rows of 128 features — the source node's, the destination node's and the
  edge's own — are laid side by side into a row of 384; that row goes through three layers, each an affine map followed
  by a layer normalisation over the 128 lanes (mean and variance as sums divided by 128, the reciprocal root of the variance plus
  epsilon, a scale and a shift) and a rectifier; a last affine map sends the 128 lanes to one number.
  A node's row is found as NumPy finds it: a negative index counts from the end, and the position is then held inside the table.
-/
import Idealize.ShloMosaic.PureOps.Ideal
import Idealize.ShloMosaic.Lib.ValueIdx

noncomputable section

namespace Cert.EdgeMlp

open Idealize.ShloMosaic Idealize.ShloMosaic.ValueIdx

/-! ## One row through the layers -/

/-- The divisor 128 and the normalisation's epsilon, as the f32 words both programs carry; neither is ever evaluated. -/
abbrev c128 : EReal := Ideal.ofBits .f32 0x43000000#32
abbrev cEps : EReal := Ideal.ofBits .f32 0x3727C5AC#32

/-- The mean of a row of 128 lanes: their sum divided by 128. -/
def mean128 (z : Fin 128 → EReal) : EReal := Ideal.div (∑ k, z k) c128

/-- A row with its mean taken off each lane. -/
def centred (z : Fin 128 → EReal) (j : Fin 128) : EReal := z j - mean128 z

/-- Layer normalisation of a row — each centred lane times the reciprocal root of (variance + epsilon) — scaled by `g`,
    shifted by `be`, and rectified. -/
def lnRelu (g be z : Fin 128 → EReal) (j : Fin 128) : EReal :=
  max (centred z j * Ideal.rsqrt (mean128 (fun k => centred z k * centred z k) + cEps) * g j + be j) 0

/-- An affine map of a row: lane `j` is the row against column `j` of the weights, plus the bias. -/
def affine {K N : ℕ} (W : Fin K → Fin N → EReal) (b : Fin N → EReal) (h : Fin K → EReal) (j : Fin N) : EReal :=
  (∑ k, h k * W k j) + b j

/-- Three rows of 128 laid side by side. -/
def cat3 (a b c : Fin 128 → EReal) (k : Fin 384) : EReal :=
  if h : k.val < 128 then a ⟨k.val, h⟩
  else if h' : k.val < 256 then b ⟨k.val - 128, by omega⟩
  else c ⟨k.val - 256, by omega⟩

/-- The weights, biases, scales and shifts of the four maps. -/
structure Params where
  W0 : Fin 384 → Fin 128 → EReal
  b0 : Fin 128 → EReal
  g0 : Fin 128 → EReal
  be0 : Fin 128 → EReal
  W1 : Fin 128 → Fin 128 → EReal
  b1 : Fin 128 → EReal
  g1 : Fin 128 → EReal
  be1 : Fin 128 → EReal
  W2 : Fin 128 → Fin 128 → EReal
  b2 : Fin 128 → EReal
  g2 : Fin 128 → EReal
  be2 : Fin 128 → EReal
  W3 : Fin 128 → Fin 1 → EReal
  b3 : Fin 1 → EReal

/-- The three hidden rows and the edge's number. -/
def hidden0 (P : Params) (xs xd e : Fin 128 → EReal) : Fin 128 → EReal := lnRelu P.g0 P.be0 (affine P.W0 P.b0 (cat3 xs xd e))
def hidden1 (P : Params) (h : Fin 128 → EReal) : Fin 128 → EReal := lnRelu P.g1 P.be1 (affine P.W1 P.b1 h)
def hidden2 (P : Params) (h : Fin 128 → EReal) : Fin 128 → EReal := lnRelu P.g2 P.be2 (affine P.W2 P.b2 h)
def edgeOut (P : Params) (xs xd e : Fin 128 → EReal) : EReal :=
  affine P.W3 P.b3 (hidden2 P (hidden1 P (hidden0 P xs xd e))) 0

/-! ## Which row of the node table an index names -/

/-- An index as NumPy reads it: a negative one counts from the end of the 100000 rows. -/
def wrap (i : BitVec 32) : BitVec 32 := Scalar.select (IntOp.cmpi .slt i 0#32) (IntOp.addi i 100000#32) i

/-- The row a (wrapped) index names: read signed, held inside the table. -/
def rowOf (w : BitVec 32) : Fin 100000 := ⟨min w.toInt.toNat 99999, by omega⟩

/-- An index inside NumPy's range for 100000 rows names, after the wrap, a row without any holding. -/
def InRange (i : BitVec 32) : Prop := -100000 ≤ i.toInt ∧ i.toInt < 100000

/-! ## The whole result -/

/-- The parameters as the argument arrays hold them. -/
def paramsOf (a3 : (⟨2, ![384, 128]⟩ : Shape).Idx → EReal) (a4 a5 a6 : (⟨1, ![128]⟩ : Shape).Idx → EReal)
    (a7 : (⟨2, ![128, 128]⟩ : Shape).Idx → EReal) (a8 a9 a10 : (⟨1, ![128]⟩ : Shape).Idx → EReal)
    (a11 : (⟨2, ![128, 128]⟩ : Shape).Idx → EReal) (a12 a13 a14 : (⟨1, ![128]⟩ : Shape).Idx → EReal)
    (a15 : (⟨2, ![128, 1]⟩ : Shape).Idx → EReal) (a16 : (⟨1, ![1]⟩ : Shape).Idx → EReal) : Params where
  W0 k j := a3 (ix2 k j)
  b0 j := a4 (ix1 j)
  g0 j := a5 (ix1 j)
  be0 j := a6 (ix1 j)
  W1 k j := a7 (ix2 k j)
  b1 j := a8 (ix1 j)
  g1 j := a9 (ix1 j)
  be1 j := a10 (ix1 j)
  W2 k j := a11 (ix2 k j)
  b2 j := a12 (ix1 j)
  g2 j := a13 (ix1 j)
  be2 j := a14 (ix1 j)
  W3 k j := a15 (ix2 k j)
  b3 j := a16 (ix1 j)

/-- The same parameters as the kernel's blocks hold them: the weights as matrices, each vector as a `[1, 128]` row
    (the last bias as a `[1, 1]` block). -/
def blockParams (w0 : (⟨2, ![384, 128]⟩ : Shape).Idx → EReal) (b0 g0 be0 : (⟨2, ![1, 128]⟩ : Shape).Idx → EReal)
    (w1 : (⟨2, ![128, 128]⟩ : Shape).Idx → EReal) (b1 g1 be1 : (⟨2, ![1, 128]⟩ : Shape).Idx → EReal)
    (w2 : (⟨2, ![128, 128]⟩ : Shape).Idx → EReal) (b2 g2 be2 : (⟨2, ![1, 128]⟩ : Shape).Idx → EReal)
    (w3 : (⟨2, ![128, 1]⟩ : Shape).Idx → EReal) (b3 : (⟨2, ![1, 1]⟩ : Shape).Idx → EReal) : Params where
  W0 k j := w0 (ix2 k j)
  b0 j := b0 (ix2 (0 : Fin 1) j)
  g0 j := g0 (ix2 (0 : Fin 1) j)
  be0 j := be0 (ix2 (0 : Fin 1) j)
  W1 k j := w1 (ix2 k j)
  b1 j := b1 (ix2 (0 : Fin 1) j)
  g1 j := g1 (ix2 (0 : Fin 1) j)
  be1 j := be1 (ix2 (0 : Fin 1) j)
  W2 k j := w2 (ix2 k j)
  b2 j := b2 (ix2 (0 : Fin 1) j)
  g2 j := g2 (ix2 (0 : Fin 1) j)
  be2 j := be2 (ix2 (0 : Fin 1) j)
  W3 k j := w3 (ix2 k j)
  b3 j := b3 (ix2 (0 : Fin 1) j)

/-- Edge `e`'s number from the node table `x`, the two index rows `ei`, the edges' own rows `ed` and the parameters. -/
def edgeValue (P : Params) (x : (⟨2, ![100000, 128]⟩ : Shape).Idx → EReal) (ei : (⟨2, ![2, 500000]⟩ : Shape).Idx → BitVec 32)
    (ed : (⟨2, ![500000, 128]⟩ : Shape).Idx → EReal) (e : Fin 500000) : EReal :=
  edgeOut P (fun k => x (ix2 (rowOf (wrap (ei (ix2 (0 : Fin 2) e)))) k))
    (fun k => x (ix2 (rowOf (wrap (ei (ix2 (1 : Fin 2) e)))) k)) (fun k => ed (ix2 e k))

/-- THE RESULT ARRAY: one number per edge. -/
def result (P : Params) (x : (⟨2, ![100000, 128]⟩ : Shape).Idx → EReal) (ei : (⟨2, ![2, 500000]⟩ : Shape).Idx → BitVec 32)
    (ed : (⟨2, ![500000, 128]⟩ : Shape).Idx → EReal) : (⟨1, ![500000]⟩ : Shape).Idx → EReal :=
  fun i => edgeValue P x ei ed ⟨(i 0).val, (i 0).isLt⟩

theorem result_ix1 (P : Params) (x : (⟨2, ![100000, 128]⟩ : Shape).Idx → EReal) (ei : (⟨2, ![2, 500000]⟩ : Shape).Idx → BitVec 32)
    (ed : (⟨2, ![500000, 128]⟩ : Shape).Idx → EReal) (e : Fin 500000) : result P x ei ed (ix1 e) = edgeValue P x ei ed e := rfl

end Cert.EdgeMlp
-- ==== Proof.LibMatrixRead.lean ====
/-
  Layout operations of matrices read at an index given by coordinates, for the forms Lib/ValueLayout.lean leaves out:
  a vector made a column (`[a] → [a, 1]`), a column spread over the lanes (`[a, 1] → [a, b]`), three matrices of equal
  height laid side by side read at a column, and the rows of a matrix taken by an index column (`x[idx]` of a
  matrix: a gather with the first axis collapsed and start-indexed, the second an offset axis taken whole).
  Nothing here names a program.
-/
import Idealize.ShloMosaic.Lib.ValueLayout
import Idealize.ShloMosaic.Lib.StableHlo.Predicate

namespace Cert.MatrixRead

open Idealize.ShloMosaic Idealize.ShloMosaic.ValueIdx

variable {α : Type}

/-- The one coordinate of a rank-1 index is below the extent. -/
theorem idx1_lt {n : ℕ} (j : (⟨1, ![n]⟩ : Shape).Idx) : (j 0).val < n := (j 0).isLt

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Three matrices side by side -/

/-- Three `[n, 128]` matrices laid side by side along the second axis read, at `(r, k)`, the piece whose span of 128 columns
    holds `k`, at `k` less the columns before it. -/
theorem concat3_128_apply {n : ℕ} (x₁ x₂ x₃ : (⟨2, ![n, 128]⟩ : Shape).Idx → α)
    (h : Shape.Concatenates (([⟨⟨2, ![n, 128]⟩, x₁⟩, ⟨⟨2, ![n, 128]⟩, x₂⟩, ⟨⟨2, ![n, 128]⟩, x₃⟩] :
      List ((s : Shape) × (s.Idx → α))).map (·.1)) ⟨2, ![n, 384]⟩ 1)
    (r : Fin n) (k : Fin 384) :
    concatenate ⟨2, ![n, 384]⟩ 1 [⟨⟨2, ![n, 128]⟩, x₁⟩, ⟨⟨2, ![n, 128]⟩, x₂⟩, ⟨⟨2, ![n, 128]⟩, x₃⟩] h (ix2 r k)
      = if h1 : k.val < 128 then x₁ (ix2 r ⟨k.val, h1⟩)
        else if h2 : k.val < 256 then x₂ (ix2 r ⟨k.val - 128, by omega⟩)
        else x₃ (ix2 r ⟨k.val - 256, by have := k.isLt; omega⟩) := by
  have hk := k.isLt
  split
  · next h1 =>
    refine concatenate_apply_piece (1 : Fin 2) _ h (ix2 r k) 0 (by simp) ⟨2, ![n, 128]⟩ x₁ rfl rfl 0 rfl
      (ix2 r ⟨k.val, h1⟩) (fun b hb => ?_) ?_
    · match b with
      | ⟨0, _⟩ => rfl
      | ⟨1, _⟩ => exact absurd rfl hb
    · show 0 + k.val = k.val
      omega
  · next h1 =>
    split
    · next h2 =>
      refine concatenate_apply_piece (1 : Fin 2) _ h (ix2 r k) 1 (by simp) ⟨2, ![n, 128]⟩ x₂ rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega
    · next h2 =>
      refine concatenate_apply_piece (1 : Fin 2) _ h (ix2 r k) 2 (by simp) ⟨2, ![n, 128]⟩ x₃ rfl rfl 256 rfl
        (ix2 r ⟨k.val - 256, by omega⟩) (fun b hb => ?_) ?_
      · match b with
        | ⟨0, _⟩ => rfl
        | ⟨1, _⟩ => exact absurd rfl hb
      · show 256 + (k.val - 256) = k.val
        omega

/-! ## The rows of a matrix taken by an index column -/

/-- The gather that is `x[idx]` of an `[N, C]` matrix by an `[n, 1]` column of indices (first operand axis collapsed and
    start-indexed, the second an offset axis, the index vector on axis 1: the printed dimension numbers, each by `rfl`)
    reads, for result position `(p, c)`, operand ROW `idx[p]` read signed and held inside `0 … N - 1` … -/
theorem gather_rows_axis0 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (0 : Fin 2)).val = min (idx (ix2 p (0 : Fin 1))).toInt.toNat (N - 1) := by
  have hsl : d.sliceSizes 0 = 1 := d.slice_collapsed 0 (by rw [hcoll]; exact List.mem_singleton.mpr rfl)
  have hk : (0 : Fin 2) ∉ d.sKept := by rw [GatherDims.mem_sKept, hcoll]; simp
  obtain ⟨offD, collD, obD, sibD, simD, ivd, sl, wf⟩ := d
  simp only at hoff hcoll hob hsim hivd hsl
  subst hoff hcoll hob hsim hivd
  simp only [GatherDims.operandIdx, GatherDims.start, GatherDims.batchCoord, GatherDims.offCoord]
  simp only [GatherDims.mem_sKept, List.mem_singleton, List.not_mem_nil, dite_true, dite_false, not_true_eq_false, false_and, hsl, Nat.add_zero, List.append_nil, ↓reduceDIte]
  rw [dif_neg hk, Nat.add_zero]
  show min (idx _).toInt.toNat (N - 1) = _
  congr 4
  funext b
  apply Fin.ext
  match b with
  | ⟨0, _⟩ => rfl
  | ⟨1, _⟩ => rfl

/-- A one-element list read at any valid position is its element. -/
theorem getElem_singleton_any {β : Type} (b : β) (k : ℕ) (h : k < [b].length) : [b][k]'h = b := by
  have hk : k = 0 := by simpa using h
  subst hk; rfl

/-- … and operand COLUMN `c`: the offset axis is taken whole and nothing is added to it. -/
theorem gather_rows_axis1 {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (c : Fin C) :
    (d.operandIdx (ix2 p c) idx (1 : Fin 2)).val = c.val := by
  have hk : (1 : Fin 2) ∈ d.sKept := by rw [GatherDims.mem_sKept, hcoll, hob]; simp
  have hm : (1 : Fin 2) ∉ d.startIndexMap := by rw [hsim]; simp
  have hb : (1 : Fin 2) ∉ d.operandBatchingDims := by rw [hob]; simp
  obtain ⟨offD, collD, obD, sibD, simD, ivd, sl, wf⟩ := d
  simp only at hoff hcoll hob hsim hivd
  subst hoff hcoll hob hsim hivd
  simp only [GatherDims.operandIdx, GatherDims.start, GatherDims.batchCoord, GatherDims.offCoord]
  rw [dif_neg hm, dif_neg hb, dif_pos hk]
  simp only [Nat.zero_add]
  rw [getElem_singleton_any]
  rfl

/-- So the gathered matrix at `(p, c)` is the table at (the held row `idx[p]`, `c`): jnp's `x[idx]` with out-of-range
    positions held at the nearest row. -/
theorem gather_rows_apply {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  apply Fin.ext
  match a with
  | ⟨0, _⟩ => exact gather_rows_axis0 d hoff hcoll hob hsim hivd idx p c
  | ⟨1, _⟩ => exact gather_rows_axis1 d hoff hcoll hob hsim hivd idx p c

end Cert.MatrixRead
-- ==== Proof.KLayers.lean ====
/-
  The kernel body's arithmetic on one block of 5000 edges, read one edge at a time: row `r` of the block's result is the
  edge's number (`Cert.EdgeMlp.edgeOut`) of row `r` of the three feature blocks and the parameter blocks.

  The body is three layers and a last affine map. A layer is: the block against a weight matrix (into a zero accumulator, so a
  plain sum over the contraction index), plus the bias row spread over the rows; then the normalisation over the 128 lanes of
  each row (the row's mean as its lane sum divided by 128, the mean taken off, the mean of the squares plus epsilon, its
  reciprocal root, the scale row and the shift row), and the rectifier. Each of these pieces is named once below and read at an
  index `(r, j)`; the body's five generated terms are compositions of the pieces, and row `r` of a composition is the
  composition of the rows. A change of float format on the way into a product is the identity here.
-/
import proofs.«400990_j30305289240589_1_alg».proof.Proof.Gen.KernelIdeal.Skeleton
import proofs.«400990_j30305289240589_1_alg».proof.Proof.Spec
import proofs.«400990_j30305289240589_1_alg».proof.Proof.LibMatrixRead
import Idealize.ShloMosaic.PureOps.Ideal.Laws
import Idealize.ShloMosaic.Lib.ValueIdx
import Idealize.ShloMosaic.Lib.ValueLayout

noncomputable section

namespace Cert.KernelIdeal.Layers

open Idealize.ShloMosaic Idealize.ShloMosaic.ValueIdx Cert.KernelIdeal Cert.KernelIdeal.Gen Cert.EdgeMlp Cert.MatrixRead

/-! ### The product `dot_S5000x384_S384x128_S5000x128_1_0_0_1_n_n` read at an index -/

theorem lhs_mm0_0 (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
theorem lhs_mm0_1 (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q
theorem rhs_mm0_0 (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q
theorem rhs_mm0_1 (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- Into a zero accumulator the product at `(r, j)` is row `r` of the left operand against column `j` of the right. -/
theorem mm0_apply (h : FVec Ideal S5000x384 .bf16) (W : FVec Ideal S384x128 .bf16) (r : Fin 5000) (j : Fin 128) :
    matmul dot_S5000x384_S384x128_S5000x128_1_0_0_1_n_n none h W (constant (F := Ideal) S5000x128 .f32 0x00000000#32) (ix2 r j)
      = ∑ k : Fin 384, h (ix2 r k) * W (ix2 k j) := by
  refine (Ideal.matmul_constant_zero_apply dot_S5000x384_S384x128_S5000x128_1_0_0_1_n_n none h W (ix2 r j)).trans ?_
  rw [← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx (ix2 r j) ((ValueIdx.contrEquiv1 dot_S5000x384_S384x128_S5000x128_1_0_0_1_n_n 384 rfl rfl).symm k) = ix2 r k := funext fun a => Fin.ext (by
    match a with
    | ⟨0, _⟩ => exact lhs_mm0_0 _ _
    | ⟨1, _⟩ => exact (lhs_mm0_1 _ _).trans hk)
  have er : dot_S5000x384_S384x128_S5000x128_1_0_0_1_n_n.rhsIdx (ix2 r j) ((ValueIdx.contrEquiv1 dot_S5000x384_S384x128_S5000x128_1_0_0_1_n_n 384 rfl rfl).symm k) = ix2 k j := funext fun a => Fin.ext (by
    match a with
    | ⟨0, _⟩ => exact (rhs_mm0_0 _ _).trans hk
    | ⟨1, _⟩ => exact rhs_mm0_1 _ _)
  rw [el, er]

/-! ### The product `dot_S5000x128_S128x128_S5000x128_1_0_0_1_n_n` read at an index -/

theorem lhs_mm1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into a zero accumulator the product at `(r, j)` is row `r` of the left operand against column `j` of the right. -/
theorem mm1_apply (h : FVec Ideal S5000x128 .bf16) (W : FVec Ideal S128x128 .bf16) (r : Fin 5000) (j : Fin 128) :
    matmul dot_S5000x128_S128x128_S5000x128_1_0_0_1_n_n none h W (constant (F := Ideal) S5000x128 .f32 0x00000000#32) (ix2 r j)
      = ∑ k : Fin 128, h (ix2 r k) * W (ix2 k j) := by
  refine (Ideal.matmul_constant_zero_apply dot_S5000x128_S128x128_S5000x128_1_0_0_1_n_n none h W (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_mm1_0 _ _
    | ⟨1, _⟩ => exact (lhs_mm1_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_mm1_0 _ _).trans hk
    | ⟨1, _⟩ => exact rhs_mm1_1 _ _)
  rw [el, er]

/-! ### The product `dot_S5000x128_S128x1_S5000x1_1_0_0_1_n_n` read at an index -/

theorem lhs_mm3_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_mm3_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_mm3_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_mm3_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Into a zero accumulator the product at `(r, j)` is row `r` of the left operand against column `j` of the right. -/
theorem mm3_apply (h : FVec Ideal S5000x128 .bf16) (W : FVec Ideal S128x1 .bf16) (r : Fin 5000) (j : Fin 1) :
    matmul dot_S5000x128_S128x1_S5000x1_1_0_0_1_n_n none h W (constant (F := Ideal) S5000x1 .f32 0x00000000#32) (ix2 r j)
      = ∑ k : Fin 128, h (ix2 r k) * W (ix2 k j) := by
  refine (Ideal.matmul_constant_zero_apply dot_S5000x128_S128x1_S5000x1_1_0_0_1_n_n none h W (ix2 r j)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 r j) ((ValueIdx.contrEquiv1 dot_S5000x128_S128x1_S5000x1_1_0_0_1_n_n 128 rfl rfl).symm k) = ix2 r k := funext fun a => Fin.ext (by
    match a with
    | ⟨0, _⟩ => exact lhs_mm3_0 _ _
    | ⟨1, _⟩ => exact (lhs_mm3_1 _ _).trans hk)
  have er : dot_S5000x128_S128x1_S5000x1_1_0_0_1_n_n.rhsIdx (ix2 r j) ((ValueIdx.contrEquiv1 dot_S5000x128_S128x1_S5000x1_1_0_0_1_n_n 128 rfl rfl).symm k) = ix2 k j := funext fun a => Fin.ext (by
    match a with
    | ⟨0, _⟩ => exact (rhs_mm3_0 _ _).trans hk
    | ⟨1, _⟩ => exact rhs_mm3_1 _ _)
  rw [el, er]

/-! ### A lane sum read at a row -/

/-- The sum over the lanes of a block, at row `r`, is the sum of that row's 128 entries. -/
theorem rowSum_apply (v : FVec Ideal S5000x128 .f32) (h : S5000x128.Reduces [1] S5000) (hφ : FKind.Formats .f32)
    (hacc : (0x00000000#32 : BitVec 32) = 0x00000000#32) (r : Fin 5000) :
    multiReduction (F := Ideal) .add [1] S5000 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-! ### The pieces of one layer, as the body writes them -/

/-- The column of row means of a block: each row's lane sum, made a column, divided by 128. -/
def rowMean (z : FVec Ideal S5000x128 .f32) : FVec Ideal S5000x1 .f32 :=
  divf (shapeCast S5000x1 (multiReduction (F := Ideal) .add [1] S5000 z 0x00000000#32 reduces_S5000x128_S5000 (.inl rfl) rfl)
    shapeCasts_S5000_S5000x1) (broadcast S5000x1 (Scalar.ofBits (F := Ideal) .f32 0x43000000#32))

theorem rowMean_apply (z : FVec Ideal S5000x128 .f32) (r : Fin 5000) (u : Fin 1) :
    rowMean z (ix2 r u) = mean128 (fun k => z (ix2 r k)) := by
  unfold rowMean mean128
  rw [divf_apply, shapeCast_a_a1_apply, rowSum_apply]
  rfl

/-- A block with each row's mean taken off that row. -/
def cen (z : FVec Ideal S5000x128 .f32) : FVec Ideal S5000x128 .f32 :=
  subf z (broadcastTo S5000x128 (rowMean z) broadcasts_S5000x1_S5000x128)

theorem cen_apply (z : FVec Ideal S5000x128 .f32) (r : Fin 5000) (j : Fin 128) :
    cen z (ix2 r j) = centred (fun k => z (ix2 r k)) j := by
  unfold cen centred
  rw [subf_apply, broadcastTo_a1_ab_apply, rowMean_apply]

/-- The normalised block times the scale row: the centred block times the reciprocal root of (the row means of its
    squares plus epsilon), times the scale row spread over the rows. -/
def lnS (z : FVec Ideal S5000x128 .f32) (g : FVec Ideal S1x128 .f32) : FVec Ideal S5000x128 .f32 :=
  mulf (mulf (cen z) (broadcastTo S5000x128
      (rsqrt (addf (rowMean (mulf (cen z) (cen z))) (broadcast S5000x1 (Scalar.ofBits (F := Ideal) .f32 0x3727C5AC#32))))
      broadcasts_S5000x1_S5000x128))
    (broadcastTo S5000x128 g broadcasts_S1x128_S5000x128)

/-- The sum of a block and a second one, rectified. -/
def relu0 (a b : FVec Ideal S5000x128 .f32) : FVec Ideal S5000x128 .f32 :=
  maximumf (addf a b) (broadcast S5000x128 (Scalar.ofBits (F := Ideal) .f32 0x00000000#32))

/-- The whole normalisation of a block: scaled, shifted by the shift row spread over the rows, rectified. -/
def lnR (z : FVec Ideal S5000x128 .f32) (g be : FVec Ideal S1x128 .f32) : FVec Ideal S5000x128 .f32 :=
  relu0 (lnS z g) (broadcastTo S5000x128 be broadcasts_S1x128_S5000x128)

theorem lnR_apply (z : FVec Ideal S5000x128 .f32) (g be : FVec Ideal S1x128 .f32) (r : Fin 5000) (j : Fin 128) :
    lnR z g be (ix2 r j)
      = lnRelu (fun j => g (ix2 (0 : Fin 1) j)) (fun j => be (ix2 (0 : Fin 1) j)) (fun k => z (ix2 r k)) j := by
  unfold lnR relu0 lnS lnRelu
  rw [maximumf_apply, addf_apply, mulf_apply, mulf_apply, broadcastTo_1b_ab_apply, broadcastTo_1b_ab_apply,
    broadcastTo_a1_ab_apply, cen_apply, broadcast_apply]
  have hm : rowMean (mulf (cen z) (cen z)) (ix2 r (0 : Fin 1))
      = mean128 (fun k => centred (fun k => z (ix2 r k)) k * centred (fun k => z (ix2 r k)) k) := by
    rw [rowMean_apply]
    refine congrArg mean128 (funext fun k => ?_)
    rw [mulf_apply, cen_apply]
  have hr : rsqrt (addf (rowMean (mulf (cen z) (cen z))) (broadcast S5000x1 (Scalar.ofBits (F := Ideal) .f32 0x3727C5AC#32)))
        (ix2 r (0 : Fin 1))
      = Ideal.rsqrt (mean128 (fun k => centred (fun k => z (ix2 r k)) k * centred (fun k => z (ix2 r k)) k) + cEps) := by
    show Ideal.rsqrt (rowMean (mulf (cen z) (cen z)) (ix2 r (0 : Fin 1)) + cEps) = _
    rw [hm]
  rw [hr]
  show max _ (Ideal.ofBits .f32 0x00000000#32) = _
  rw [Ideal.ofBits_zero_f32]

/-- Row `r` of the normalised block is the normalisation of row `r`. -/
theorem lnR_row (z : FVec Ideal S5000x128 .f32) (g be : FVec Ideal S1x128 .f32) (r : Fin 5000) :
    (fun j => lnR z g be (ix2 r j))
      = lnRelu (fun j => g (ix2 (0 : Fin 1) j)) (fun j => be (ix2 (0 : Fin 1) j)) (fun k => z (ix2 r k)) :=
  funext fun j => lnR_apply z g be r j

/-! ### The affine maps, as the body writes them -/

/-- The first map of a block: the three feature blocks side by side, against the weights, plus the bias row. -/
def aff0 (x0 x1 x2 : FVec Ideal S5000x128 .f32) (W : FVec Ideal S384x128 .bf16) (b : FVec Ideal S1x128 .f32) :
    FVec Ideal S5000x128 .f32 :=
  addf (matmul dot_S5000x384_S384x128_S5000x128_1_0_0_1_n_n none
      (truncf .bf16 (concatenate S5000x384 1 [⟨S5000x128, x0⟩, ⟨S5000x128, x1⟩, ⟨S5000x128, x2⟩]
        concatenates_S5000x128_S5000x128_S5000x128_S5000x384_d1) bitsLt_bf16_f32)
      W (constant (F := Ideal) S5000x128 .f32 0x00000000#32))
    (broadcastTo S5000x128 b broadcasts_S1x128_S5000x128)

/-- Row `r` of the first map is the affine map of the three rows side by side. -/
theorem aff0_row (x0 x1 x2 : FVec Ideal S5000x128 .f32) (W : FVec Ideal S384x128 .bf16) (b : FVec Ideal S1x128 .f32)
    (r : Fin 5000) :
    (fun j => aff0 x0 x1 x2 W b (ix2 r j))
      = affine (fun k j => W (ix2 k j)) (fun j => b (ix2 (0 : Fin 1) j))
          (cat3 (fun k => x0 (ix2 r k)) (fun k => x1 (ix2 r k)) (fun k => x2 (ix2 r k))) := by
  funext j
  unfold aff0 affine
  rw [addf_apply, mm0_apply, broadcastTo_1b_ab_apply]
  refine congrArg (· + b (ix2 (0 : Fin 1) j)) (Finset.sum_congr rfl fun k _ => ?_)
  refine congrArg (· * W (ix2 k j)) ?_
  rw [truncf_apply, concat3_128_apply]
  unfold cat3
  rfl

/-- A middle map of a block: the block against the weights, plus the bias row. -/
def aff1 (h : FVec Ideal S5000x128 .f32) (W : FVec Ideal S128x128 .bf16) (b : FVec Ideal S1x128 .f32) :
    FVec Ideal S5000x128 .f32 :=
  addf (matmul dot_S5000x128_S128x128_S5000x128_1_0_0_1_n_n none (truncf .bf16 h bitsLt_bf16_f32) W
      (constant (F := Ideal) S5000x128 .f32 0x00000000#32))
    (broadcastTo S5000x128 b broadcasts_S1x128_S5000x128)

theorem aff1_row (h : FVec Ideal S5000x128 .f32) (W : FVec Ideal S128x128 .bf16) (b : FVec Ideal S1x128 .f32) (r : Fin 5000) :
    (fun j => aff1 h W b (ix2 r j))
      = affine (fun k j => W (ix2 k j)) (fun j => b (ix2 (0 : Fin 1) j)) (fun k => h (ix2 r k)) := by
  funext j
  unfold aff1 affine
  rw [addf_apply, mm1_apply, broadcastTo_1b_ab_apply]
  rfl

/-- The last map of a block: the block against the one column of weights, plus the one bias. -/
def aff3 (h : FVec Ideal S5000x128 .f32) (W : FVec Ideal S128x1 .bf16) (b : FVec Ideal S1x1 .f32) :
    FVec Ideal S5000x1 .f32 :=
  addf (matmul dot_S5000x128_S128x1_S5000x1_1_0_0_1_n_n none (truncf .bf16 h bitsLt_bf16_f32) W
      (constant (F := Ideal) S5000x1 .f32 0x00000000#32))
    (broadcastTo S5000x1 b broadcasts_S1x1_S5000x1)

theorem aff3_apply (h : FVec Ideal S5000x128 .f32) (W : FVec Ideal S128x1 .bf16) (b : FVec Ideal S1x1 .f32) (r : Fin 5000)
    (u : Fin 1) :
    aff3 h W b (ix2 r u)
      = affine (fun k j => W (ix2 k j)) (fun j => b (ix2 (0 : Fin 1) j)) (fun k => h (ix2 r k)) u := by
  unfold aff3 affine
  rw [addf_apply, mm3_apply, broadcastTo_1b_ab_apply]
  rfl

/-! ### The body's terms are these pieces -/

theorem pay1_eq (x0 x1 x2 : FVec Ideal S5000x128 .f32) (x3 : FVec Ideal S384x128 .bf16) (x4 x5 : FVec Ideal S1x128 .f32) :
    k0_pay1 (F := Ideal) x0 x1 x2 x3 x4 x5 = lnS (aff0 x0 x1 x2 x3 x4) x5 := by
  have e : k0_pay1 (F := Ideal) x0 x1 x2 x3 x4 x5
      = lnS (aff0 (shapeCast S5000x128 x0 shapeCasts_S5000x128_S5000x128) (shapeCast S5000x128 x1 shapeCasts_S5000x128_S5000x128) x2
          (shapeCast S384x128 x3 shapeCasts_S384x128_S384x128) (shapeCast S1x128 x4 shapeCasts_S1x128_S1x128))
          (shapeCast S1x128 x5 shapeCasts_S1x128_S1x128) := rfl
  rw [e]
  simp only [shapeCast_self]

theorem pay2_eq (x6 : FVec Ideal S1x128 .f32) :
    k0_pay2 (F := Ideal) x6 = broadcastTo S5000x128 x6 broadcasts_S1x128_S5000x128 := by
  unfold k0_pay2
  simp only [shapeCast_self]

theorem pay3_eq (a b : FVec Ideal S5000x128 .f32) (x7 : FVec Ideal S128x128 .bf16) (x8 x9 x10 : FVec Ideal S1x128 .f32) :
    k0_pay3 (F := Ideal) a b x7 x8 x9 x10 = truncf .bf16 (lnR (aff1 (relu0 a b) x7 x8) x9 x10) bitsLt_bf16_f32 := by
  unfold k0_pay3
  simp only [shapeCast_self]
  rfl

theorem pay4_eq (x11 : FVec Ideal S128x128 .bf16) : k0_pay4 (F := Ideal) x11 = x11 := by
  unfold k0_pay4
  simp only [shapeCast_self]

theorem pay5_eq (h : FVec Ideal S5000x128 .f32) (x11 : FVec Ideal S128x128 .bf16) (x12 x13 x14 : FVec Ideal S1x128 .f32)
    (x15 : FVec Ideal S128x1 .bf16) (x16 : FVec Ideal S1x1 .f32) :
    k0_pay5 (F := Ideal) (truncf .bf16 h bitsLt_bf16_f32) x11 x12 x13 x14 x15 x16
      = aff3 (lnR (aff1 h x11 x12) x13 x14) x15 x16 := by
  unfold k0_pay5
  simp only [shapeCast_self]
  rfl

/-- The body's result block at row `r` is the edge's number of that row of the blocks. -/
theorem body_apply (x0 x1 x2 : FVec Ideal S5000x128 .f32) (x3 : FVec Ideal S384x128 .bf16) (x4 x5 x6 : FVec Ideal S1x128 .f32)
    (x7 : FVec Ideal S128x128 .bf16) (x8 x9 x10 : FVec Ideal S1x128 .f32)
    (x11 : FVec Ideal S128x128 .bf16) (x12 x13 x14 : FVec Ideal S1x128 .f32)
    (x15 : FVec Ideal S128x1 .bf16) (x16 : FVec Ideal S1x1 .f32) (r : Fin 5000) :
    k0_pay5 (F := Ideal) (k0_pay3 (k0_pay1 x0 x1 x2 x3 x4 x5) (k0_pay2 x6) x7 x8 x9 x10) (k0_pay4 x11) x12 x13 x14 x15 x16
        (ix2 r (0 : Fin 1))
      = edgeOut (blockParams x3 x4 x5 x6 x7 x8 x9 x10 x11 x12 x13 x14 x15 x16)
          (fun k => x0 (ix2 r k)) (fun k => x1 (ix2 r k)) (fun k => x2 (ix2 r k)) := by
  rw [pay1_eq, pay2_eq, pay3_eq, pay4_eq, pay5_eq]
  show aff3 (lnR (aff1 (lnR (aff1 (lnR (aff0 x0 x1 x2 x3 x4) x5 x6) x7 x8) x9 x10) x11 x12) x13 x14) x15 x16 (ix2 r (0 : Fin 1)) = _
  rw [aff3_apply, lnR_row, aff1_row, lnR_row, aff1_row, lnR_row, aff0_row]
  rfl

end Cert.KernelIdeal.Layers

end
-- ==== Proof.LibTRef.lean ====
/-
  Typed references of a host program's inlined functions.

  An operation of an inlined function reads its operand out of the buffer's own contents type into the type of the
  tensor value, and puts its result back, along the reference's type equation. Moving contents to the buffer's type
  and back again is the identity, and so is the other way round, for EVERY typed reference: substitute the type
  equation and both moves are the identity. A chain of such operations read back as one term therefore loses every
  inner pair of moves, and only the one at its result and the ones at its inputs remain.
-/
import Idealize.ShloMosaic.Lib.StableHlo

namespace Cert.Lib.TRef

open Idealize.ShloMosaic Idealize.ShloMosaic.StableHlo

variable {sig : RefSig} {Val : EltTy → Type} {T : BufTy}

/-- Contents of the value's type moved to the buffer's type and back are the contents. -/
theorem ofBuf_toBuf (x : TRef sig T) (v : T.Contents Val) : x.ofBuf (x.toBuf v) = v := by
  obtain ⟨r, rfl, hd, hs⟩ := x
  rfl

/-- Contents of the buffer's type moved to the value's type and back are the contents. -/
theorem toBuf_ofBuf (x : TRef sig T) (v : x.ref.ty.Contents Val) : x.toBuf (x.ofBuf v) = v := by
  obtain ⟨r, rfl, hd, hs⟩ := x
  rfl

end Cert.Lib.TRef
-- ==== Proof.KEntry.lean ====
/-
  The arrays the kernel's region finds when it is entered, read at an index: the two gathered node-feature arrays (where every
  index is in range the in-range test passes everywhere, so each row is the node table's row the wrapped index names), and
  the parameters (each vector re-laid as a `[1, 128]` row, each weight matrix a change of float format, which is the
  identity on the extended reals).
-/
import proofs.«400990_j30305289240589_1_alg».proof.Proof.Gen.KernelIdeal.Frame
import proofs.«400990_j30305289240589_1_alg».proof.Proof.Spec
import proofs.«400990_j30305289240589_1_alg».proof.Proof.LibMatrixRead
import proofs.«400990_j30305289240589_1_alg».proof.Proof.LibTRef
import Idealize.ShloMosaic.Lib.StableHlo.Run
import Idealize.ShloMosaic.Lib.StableHlo.Predicate
import Idealize.ShloMosaic.Lib.ValueIdx
import Idealize.ShloMosaic.Lib.ValueLayout

noncomputable section

namespace Cert.KernelIdeal.Entry

open Idealize.ShloMosaic Idealize.ShloMosaic.TcCoe Idealize.ShloMosaic.ValueIdx Idealize.SL.Sem
open Cert.KernelIdeal Cert.KernelIdeal.Gen Cert.EdgeMlp Cert.MatrixRead

/-! ## General readings -/

section General

variable {α : Type}

/-- A vector laid down the rows of a matrix (`v[:, None]` spread over the columns, or the column `[n, 1]` itself)
    reads, at `(p, q)`, the vector at `p`. -/
theorem bcast_vec_rows_apply {n k : ℕ} (h : (⟨1, ![n]⟩ : Shape).BroadcastsInDim ⟨2, ![n, k]⟩ ![0])
    (v : (⟨1, ![n]⟩ : Shape).Idx → α) (p : Fin n) (q : Fin k) :
    broadcastInDim ⟨2, ![n, k]⟩ ![0] h v (ix2 p q) = v (ix1 p) := by
  refine broadcastInDim_apply _ h v (ix2 p q) (ix1 p) fun a => ?_
  match a with
  | ⟨0, _⟩ =>
    show p.val = if n = 1 then 0 else p.val
    split
    · have := p.isLt; omega
    · rfl

/-- Row `r` of a two-row matrix, cut out and re-laid as a vector, reads at `e` the matrix at `(r, e)`. -/
theorem row_of_pair_apply {n : ℕ} (r : ℕ) (r' : Fin 2) (hr : r'.val = r) (a : (⟨2, ![2, n]⟩ : Shape).Idx → α)
    (hs : (⟨2, ![2, n]⟩ : Shape).Slices ![r, 0] ⟨2, ![1, n]⟩) (hc : (⟨2, ![1, n]⟩ : Shape).ShapeCasts ⟨1, ![n]⟩) (e : Fin n) :
    shapeCast ⟨1, ![n]⟩ (extractStridedSlice ⟨2, ![1, n]⟩ ![r, 0] a hs) hc (ix1 e) = a (ix2 r' e) := by
  rw [shapeCast_1a_a_apply]
  exact slice2_axis0_apply r a hs (0 : Fin 1) e r' (by rw [hr]; rfl)

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and`, started at 1, of an array of ones is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x _ fun n _ => hx n

end General

/-! ## The wrapped index -/

/-- An index in NumPy's range wraps to a position of the table. -/
theorem wrap_range (i : BitVec 32) (h : InRange i) : 0 ≤ (wrap i).toInt ∧ (wrap i).toInt ≤ 99999 := by
  obtain ⟨h1, h2⟩ := h
  have e0 : (0#32 : BitVec 32).toInt = 0 := by decide
  unfold wrap
  by_cases hn : i.toInt < 0
  · have hc : IntOp.cmpi .slt i 0#32 = 1#1 := IntOp.cmpi_slt.2 (by rw [e0]; exact hn)
    rw [hc, select_one]
    have e : (IntOp.addi i 100000#32).toInt = i.toInt + 100000 := by
      show (i + 100000#32).toInt = _
      rw [BitVec.toInt_add, show (100000#32 : BitVec 32).toInt = 100000 from by decide]
      exact Int.bmod_eq_of_le (by omega) (by omega)
    rw [e]
    omega
  · have hc : IntOp.cmpi .slt i 0#32 = 0#1 := eq_zero_of_ne_one fun hc => hn (by have := IntOp.cmpi_slt.1 hc; rwa [e0] at this)
    rw [hc, select_zero]
    omega

/-! ## The rows of the node table taken by an index vector -/

/-- `jnp.take` of the node table's rows by a vector of 500000 indices, as printed: the wrap of a negative index, the
    wrapped indices as a column, the test that each lies in `0 … 99999`, the rows gathered, and the not-a-number word
    where the test fails. -/
def takeRows {F : FTy → Type} [FloatOps F] (x : FVec F S100000x128 .f32) (idx : IVec S500000 32) : FVec F S500000x128 .f32 :=
  let w : IVec S500000 32 :=
    select (cmpi .slt idx (broadcastInDim S500000 ![] bcast_S_S500000 (constantI S_ 32 0#32)))
      (addi idx (broadcastInDim S500000 ![] bcast_S_S500000 (constantI S_ 32 100000#32))) idx
  let col : IVec S500000x1 32 := broadcastInDim S500000x1 ![0] bcast_S500000_S500000x1_0 w
  let ge : IVec S500000x1 1 := cmpi .sge col (broadcastInDim S500000x1 ![] bcast_S_S500000x1 (constantI S_ 32 0#32))
  let le : IVec S500000x1 1 := cmpi .sle col
    (broadcastInDim S500000x1 ![0, 1] bcast_S1x1_S500000x1_0_1 (broadcastInDim S1x1 ![1] bcast_S1_S1x1_1 (constantI S1 32 99999#32)))
  let ok : IVec S500000 1 := Host.reduce IntOp.andi (andi ge le) (constantI S_ 1 1#1) reducesTo_S500000x1_S500000_d1 h_S_
  select (broadcastInDim S500000x128 ![0] bcast_S500000_S500000x128_0 ok)
    (Host.gather gather_S100000x128_S500000x1_S500000x128_1_0_n_n_0_1_1128 x col)
    (broadcastInDim S500000x128 ![] bcast_S_S500000x128 (constant (F := F) S_ .f32 0x7FC00000#32))

/-- Where every index is in range the test passes at every row, and row `e` of the result is the table's row the wrapped
    index names. -/
theorem takeRows_apply (x : FVec Ideal S100000x128 .f32) (idx : IVec S500000 32) (hr : ∀ p : Fin 500000, InRange (idx (ix1 p)))
    (e : Fin 500000) (k : Fin 128) :
    takeRows x idx (ix2 e k) = x (ix2 (rowOf (wrap (idx (ix1 e)))) k) := by
  -- the wrapped indices as a column, read at a row
  have hcol : ∀ (p : Fin 500000) (u : Fin 1),
      (broadcastInDim S500000x1 ![0] bcast_S500000_S500000x1_0
        (select (cmpi .slt idx (broadcastInDim S500000 ![] bcast_S_S500000 (constantI S_ 32 0#32)))
          (addi idx (broadcastInDim S500000 ![] bcast_S_S500000 (constantI S_ 32 100000#32))) idx) : IVec S500000x1 32) (ix2 p u)
        = wrap (idx (ix1 p)) := fun p u => by
    rw [bcast_vec_rows_apply]; rfl
  unfold takeRows
  dsimp only
  rw [select_apply, bcast_vec_rows_apply]
  -- the test passes at every row
  rw [reduce_andi_of_all _ (constantI S_ 1 1#1) _ _ (fun i => ?_) (fun _ => rfl), select_one]
  · rw [gather_rows_apply _ rfl rfl rfl rfl rfl x _ e k (by decide)]
    refine congrArg (fun r => x (ix2 r k)) (Fin.ext ?_)
    show min (_ : BitVec 32).toInt.toNat (100000 - 1) = min (wrap (idx (ix1 e))).toInt.toNat 99999
    rw [hcol]
  · obtain ⟨p, u, rfl⟩ : ∃ (p : Fin 500000) (u : Fin 1), i = ix2 p u := ⟨i 0, i 1, eq_ix2 i⟩
    obtain ⟨h0, h1⟩ := wrap_range _ (hr p)
    show IntOp.andi (IntOp.cmpi .sge _ 0#32) (IntOp.cmpi .sle _ 99999#32) = 1#1
    rw [hcol]
    rw [IntOp.andi_eq_one, IntOp.cmpi_sge, IntOp.cmpi_sle, show (0#32 : BitVec 32).toInt = 0 from by decide,
      show (99999#32 : BitVec 32).toInt = 99999 from by decide]
    exact ⟨h0, h1⟩

/-! ## The arrays at the region's entry, as terms -/

/-- What a buffer holds at the region's entry, as the term of the host operations before it. -/
local macro "read_entry" : tactic => `(tactic| (
  dsimp only [Gen.V, Gen.V0]
  simp only [Gen.hostOps0, Gen.hostOps0_1, Gen.hostOps0_2, Gen.hostOps0_3, List.flatten_cons, List.flatten_nil, List.append_nil,
    List.cons_append, List.nil_append]
  after_results_simp))

section Terms

variable {F : FTy → Type} [FloatOps F] (m : (ℓ : Loc nD τ sig) → Buf (Elt F) ℓ) (c : Dev nD)

set_option maxRecDepth 16384 in
/-- The source rows are the rows taken by the first index row; -/
theorem src_term : @Eq (S500000x128.Idx → F .f32) (V m c main_v4)
    (takeRows (m ((c : Thread nD τ).loc main_arg0))
      (shapeCast S500000 (extractStridedSlice S1x500000 ![0, 0] (m ((c : Thread nD τ).loc main_arg1) : IVec S2x500000 32) slices_S2x500000_S1x500000_0_0) shapeCasts_S1x500000_S500000)) := by
  read_entry
  simp only [Cert.Lib.TRef.ofBuf_toBuf, Cert.Lib.TRef.toBuf_ofBuf]
  simp only [StableHlo.TRef.ofBuf, StableHlo.TRef.toBuf, cast_eq]
  rfl

set_option maxRecDepth 16384 in
/-- the destination rows those taken by the second. -/
theorem dst_term : @Eq (S500000x128.Idx → F .f32) (V m c main_v5)
    (takeRows (m ((c : Thread nD τ).loc main_arg0))
      (shapeCast S500000 (extractStridedSlice S1x500000 ![1, 0] (m ((c : Thread nD τ).loc main_arg1) : IVec S2x500000 32) slices_S2x500000_S1x500000_1_0) shapeCasts_S1x500000_S500000)) := by
  read_entry
  simp only [Cert.Lib.TRef.ofBuf_toBuf, Cert.Lib.TRef.toBuf_ofBuf]
  simp only [StableHlo.TRef.ofBuf, StableHlo.TRef.toBuf, cast_eq]
  rfl

end Terms

/-! ## The arrays at the region's entry, read at an index -/

variable (m : (ℓ : Loc nD τ sig) → Buf (Elt Ideal) ℓ) (c : Dev nD)

/-- The node table, the index rows and the edges' rows as the memory holds them. -/
abbrev nodes : FVec Ideal S100000x128 .f32 := m ((c : Thread nD τ).loc main_arg0)
abbrev indices : IVec S2x500000 32 := m ((c : Thread nD τ).loc main_arg1)

/-- The source rows as the region finds them: row `e` is the node table's row that edge `e`'s source index names. -/
theorem entry_src (hr : ∀ i, InRange (indices m c i)) (e : Fin 500000) (k : Fin 128) :
    (V m c main_v4 : FVec Ideal S500000x128 .f32) (ix2 e k)
      = nodes m c (ix2 (rowOf (wrap (indices m c (ix2 (0 : Fin 2) e)))) k) := by
  have hrow : ∀ p : Fin 500000, (shapeCast S500000 (extractStridedSlice S1x500000 ![0, 0] (indices m c) slices_S2x500000_S1x500000_0_0)
      shapeCasts_S1x500000_S500000 : IVec S500000 32) (ix1 p) = indices m c (ix2 (0 : Fin 2) p) :=
    fun p => row_of_pair_apply 0 (0 : Fin 2) rfl _ _ _ p
  refine (congrFun (src_term m c) (ix2 e k)).trans ?_
  rw [takeRows_apply _ _ (fun p => by rw [hrow]; exact hr _) e k, hrow]

/-- The destination rows likewise, from the second index row. -/
theorem entry_dst (hr : ∀ i, InRange (indices m c i)) (e : Fin 500000) (k : Fin 128) :
    (V m c main_v5 : FVec Ideal S500000x128 .f32) (ix2 e k)
      = nodes m c (ix2 (rowOf (wrap (indices m c (ix2 (1 : Fin 2) e)))) k) := by
  have hrow : ∀ p : Fin 500000, (shapeCast S500000 (extractStridedSlice S1x500000 ![1, 0] (indices m c) slices_S2x500000_S1x500000_1_0)
      shapeCasts_S1x500000_S500000 : IVec S500000 32) (ix1 p) = indices m c (ix2 (1 : Fin 2) p) :=
    fun p => row_of_pair_apply 1 (1 : Fin 2) rfl _ _ _ p
  refine (congrFun (dst_term m c) (ix2 e k)).trans ?_
  rw [takeRows_apply _ _ (fun p => by rw [hrow]; exact hr _) e k, hrow]

/-! ## The parameters -/

theorem row_main_v6 (j : Fin 128) : (V m c main_v6 : FVec Ideal S1x128 .f32) (ix2 (0 : Fin 1) j) = m ((c : Thread nD τ).loc main_arg4) (ix1 j) := by
  have e : @Eq (S1x128.Idx → EReal) (V m c main_v6) (shapeCast S1x128 (m ((c : Thread nD τ).loc main_arg4) : FVec Ideal S128 .f32) shapeCasts_S128_S1x128) := by
    read_entry
    rfl
  exact (congrFun e _).trans (shapeCast_a_1a_apply _ _ _ _)

theorem row_main_v7 (j : Fin 128) : (V m c main_v7 : FVec Ideal S1x128 .f32) (ix2 (0 : Fin 1) j) = m ((c : Thread nD τ).loc main_arg5) (ix1 j) := by
  have e : @Eq (S1x128.Idx → EReal) (V m c main_v7) (shapeCast S1x128 (m ((c : Thread nD τ).loc main_arg5) : FVec Ideal S128 .f32) shapeCasts_S128_S1x128) := by
    read_entry
    rfl
  exact (congrFun e _).trans (shapeCast_a_1a_apply _ _ _ _)

theorem row_main_v8 (j : Fin 128) : (V m c main_v8 : FVec Ideal S1x128 .f32) (ix2 (0 : Fin 1) j) = m ((c : Thread nD τ).loc main_arg6) (ix1 j) := by
  have e : @Eq (S1x128.Idx → EReal) (V m c main_v8) (shapeCast S1x128 (m ((c : Thread nD τ).loc main_arg6) : FVec Ideal S128 .f32) shapeCasts_S128_S1x128) := by
    read_entry
    rfl
  exact (congrFun e _).trans (shapeCast_a_1a_apply _ _ _ _)

theorem row_main_v9 (j : Fin 128) : (V m c main_v9 : FVec Ideal S1x128 .f32) (ix2 (0 : Fin 1) j) = m ((c : Thread nD τ).loc main_arg8) (ix1 j) := by
  have e : @Eq (S1x128.Idx → EReal) (V m c main_v9) (shapeCast S1x128 (m ((c : Thread nD τ).loc main_arg8) : FVec Ideal S128 .f32) shapeCasts_S128_S1x128) := by
    read_entry
    rfl
  exact (congrFun e _).trans (shapeCast_a_1a_apply _ _ _ _)

theorem row_main_v10 (j : Fin 128) : (V m c main_v10 : FVec Ideal S1x128 .f32) (ix2 (0 : Fin 1) j) = m ((c : Thread nD τ).loc main_arg9) (ix1 j) := by
  have e : @Eq (S1x128.Idx → EReal) (V m c main_v10) (shapeCast S1x128 (m ((c : Thread nD τ).loc main_arg9) : FVec Ideal S128 .f32) shapeCasts_S128_S1x128) := by
    read_entry
    rfl
  exact (congrFun e _).trans (shapeCast_a_1a_apply _ _ _ _)

theorem row_main_v11 (j : Fin 128) : (V m c main_v11 : FVec Ideal S1x128 .f32) (ix2 (0 : Fin 1) j) = m ((c : Thread nD τ).loc main_arg10) (ix1 j) := by
  have e : @Eq (S1x128.Idx → EReal) (V m c main_v11) (shapeCast S1x128 (m ((c : Thread nD τ).loc main_arg10) : FVec Ideal S128 .f32) shapeCasts_S128_S1x128) := by
    read_entry
    rfl
  exact (congrFun e _).trans (shapeCast_a_1a_apply _ _ _ _)

theorem row_main_v12 (j : Fin 128) : (V m c main_v12 : FVec Ideal S1x128 .f32) (ix2 (0 : Fin 1) j) = m ((c : Thread nD τ).loc main_arg12) (ix1 j) := by
  have e : @Eq (S1x128.Idx → EReal) (V m c main_v12) (shapeCast S1x128 (m ((c : Thread nD τ).loc main_arg12) : FVec Ideal S128 .f32) shapeCasts_S128_S1x128) := by
    read_entry
    rfl
  exact (congrFun e _).trans (shapeCast_a_1a_apply _ _ _ _)

theorem row_main_v13 (j : Fin 128) : (V m c main_v13 : FVec Ideal S1x128 .f32) (ix2 (0 : Fin 1) j) = m ((c : Thread nD τ).loc main_arg13) (ix1 j) := by
  have e : @Eq (S1x128.Idx → EReal) (V m c main_v13) (shapeCast S1x128 (m ((c : Thread nD τ).loc main_arg13) : FVec Ideal S128 .f32) shapeCasts_S128_S1x128) := by
    read_entry
    rfl
  exact (congrFun e _).trans (shapeCast_a_1a_apply _ _ _ _)

theorem row_main_v14 (j : Fin 128) : (V m c main_v14 : FVec Ideal S1x128 .f32) (ix2 (0 : Fin 1) j) = m ((c : Thread nD τ).loc main_arg14) (ix1 j) := by
  have e : @Eq (S1x128.Idx → EReal) (V m c main_v14) (shapeCast S1x128 (m ((c : Thread nD τ).loc main_arg14) : FVec Ideal S128 .f32) shapeCasts_S128_S1x128) := by
    read_entry
    rfl
  exact (congrFun e _).trans (shapeCast_a_1a_apply _ _ _ _)

theorem row_main_v15 (j : Fin 1) : (V m c main_v15 : FVec Ideal S1x1 .f32) (ix2 (0 : Fin 1) j) = m ((c : Thread nD τ).loc main_arg16) (ix1 j) := by
  have e : @Eq (S1x1.Idx → EReal) (V m c main_v15) (shapeCast S1x1 (m ((c : Thread nD τ).loc main_arg16) : FVec Ideal S1 .f32) shapeCasts_S1_S1x1) := by
    read_entry
    rfl
  exact (congrFun e _).trans (shapeCast_a_1a_apply _ _ _ _)

theorem mat_main_v16 : @Eq (S384x128.Idx → EReal) (V m c main_v16) (m ((c : Thread nD τ).loc main_arg3)) := by
  read_entry
  rfl

theorem mat_main_v17 : @Eq (S128x128.Idx → EReal) (V m c main_v17) (m ((c : Thread nD τ).loc main_arg7)) := by
  read_entry
  rfl

theorem mat_main_v18 : @Eq (S128x128.Idx → EReal) (V m c main_v18) (m ((c : Thread nD τ).loc main_arg11)) := by
  read_entry
  rfl

theorem mat_main_v19 : @Eq (S128x1.Idx → EReal) (V m c main_v19) (m ((c : Thread nD τ).loc main_arg15)) := by
  read_entry
  rfl

/-- The parameter arrays as the region finds them are the argument arrays' parameters. -/
theorem entry_params :
    blockParams (V m c main_v16 : FVec Ideal S384x128 .bf16) (V m c main_v6 : FVec Ideal S1x128 .f32) (V m c main_v7 : FVec Ideal S1x128 .f32) (V m c main_v8 : FVec Ideal S1x128 .f32)
        (V m c main_v17 : FVec Ideal S128x128 .bf16) (V m c main_v9 : FVec Ideal S1x128 .f32) (V m c main_v10 : FVec Ideal S1x128 .f32) (V m c main_v11 : FVec Ideal S1x128 .f32)
        (V m c main_v18 : FVec Ideal S128x128 .bf16) (V m c main_v12 : FVec Ideal S1x128 .f32) (V m c main_v13 : FVec Ideal S1x128 .f32) (V m c main_v14 : FVec Ideal S1x128 .f32)
        (V m c main_v19 : FVec Ideal S128x1 .bf16) (V m c main_v15 : FVec Ideal S1x1 .f32)
      = paramsOf (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) := by
  unfold blockParams paramsOf
  rw [Params.mk.injEq]
  refine ⟨?_, ?_, ?_, ?_, ?_, ?_, ?_, ?_, ?_, ?_, ?_, ?_, ?_, ?_⟩
  · funext k j; exact congrFun (mat_main_v16 m c) _
  · funext j; exact row_main_v6 m c j
  · funext j; exact row_main_v7 m c j
  · funext j; exact row_main_v8 m c j
  · funext k j; exact congrFun (mat_main_v17 m c) _
  · funext j; exact row_main_v9 m c j
  · funext j; exact row_main_v10 m c j
  · funext j; exact row_main_v11 m c j
  · funext k j; exact congrFun (mat_main_v18 m c) _
  · funext j; exact row_main_v12 m c j
  · funext j; exact row_main_v13 m c j
  · funext j; exact row_main_v14 m c j
  · funext k j; exact congrFun (mat_main_v19 m c) _
  · funext j; exact row_main_v15 m c j

end Cert.KernelIdeal.Entry

end
-- ==== Proof.KValue.lean ====
/-
  The kernel program's result, from its frame run. Grid point `t` of the 100 stages rows `5000·t … 5000·t + 4999` of the two
  gathered node-feature arrays and of the edges' own rows, together with every parameter array whole, and writes back a
  `[5000, 1]` column: by the body's arithmetic, row `r` of it is edge `5000·t + r`'s number. The hundred columns tile the
  `[500000, 1]` result array, so it ends holding every edge's number, and the program's last line re-lays that column as a vector.
-/
import proofs.«400990_j30305289240589_1_alg».proof.Proof.Gen.KernelIdeal.Frame
import proofs.«400990_j30305289240589_1_alg».proof.Proof.Spec
import proofs.«400990_j30305289240589_1_alg».proof.Proof.LibMatrixRead
import proofs.«400990_j30305289240589_1_alg».proof.Proof.KLayers
import proofs.«400990_j30305289240589_1_alg».proof.Proof.KEntry
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.ValueRun

open Cert.KernelIdeal Cert.KernelIdeal.Gen Cert.KernelIdeal.Layers Cert.KernelIdeal.Entry Cert.EdgeMlp Cert.MatrixRead

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the three row-blocked inputs and the output move with the point along the
    rows, every parameter window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_17.index t (0 : Fin 2) = t.val ∧ win0_17.index t (1 : Fin 2) = 0) :=
  (by decide +kernel : ∀ t : Fin grid0.N, _)

theorem idx_params : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-- Row `r`, lane `k` of the source window's block at point `t` is row `5000·t + r` of the window's array, whatever the array holds. -/
theorem rows_blk0 (A : FVec Ideal S500000x128 .f32) (t : Fin cfg0.N) (r : Fin 5000) (k : Fin 128) (e : Fin 500000)
    (he : e.val = 5000 * t.val + r.val) :
    (((cfg0.win 0).blk t).view.read (Elt Ideal) A : FVec Ideal S5000x128 .f32) (ix2 r k) = A (ix2 e k) := by
  obtain ⟨⟨h0, h1⟩, -⟩ := idx_facts t
  rw [View.read_apply]
  refine congrArg A (funext fun a => Fin.ext ?_)
  match a with
  | ⟨0, _⟩ => show win0_0.index t (0 : Fin 2) * 5000 + 1 * r.val = e.val; rw [h0, he]; omega
  | ⟨1, _⟩ => show win0_0.index t (1 : Fin 2) * 128 + 1 * k.val = k.val; rw [h1]; omega

/-- Row `r`, lane `k` of the destination window's block at point `t` is row `5000·t + r` of the window's array, whatever the array holds. -/
theorem rows_blk1 (A : FVec Ideal S500000x128 .f32) (t : Fin cfg0.N) (r : Fin 5000) (k : Fin 128) (e : Fin 500000)
    (he : e.val = 5000 * t.val + r.val) :
    (((cfg0.win 1).blk t).view.read (Elt Ideal) A : FVec Ideal S5000x128 .f32) (ix2 r k) = A (ix2 e k) := by
  obtain ⟨-, ⟨h0, h1⟩, -⟩ := idx_facts t
  rw [View.read_apply]
  refine congrArg A (funext fun a => Fin.ext ?_)
  match a with
  | ⟨0, _⟩ => show win0_1.index t (0 : Fin 2) * 5000 + 1 * r.val = e.val; rw [h0, he]; omega
  | ⟨1, _⟩ => show win0_1.index t (1 : Fin 2) * 128 + 1 * k.val = k.val; rw [h1]; omega

/-- Row `r`, lane `k` of the edges' own rows' window's block at point `t` is row `5000·t + r` of the window's array, whatever the array holds. -/
theorem rows_blk2 (A : FVec Ideal S500000x128 .f32) (t : Fin cfg0.N) (r : Fin 5000) (k : Fin 128) (e : Fin 500000)
    (he : e.val = 5000 * t.val + r.val) :
    (((cfg0.win 2).blk t).view.read (Elt Ideal) A : FVec Ideal S5000x128 .f32) (ix2 r k) = A (ix2 e k) := by
  obtain ⟨-, -, ⟨h0, h1⟩, -⟩ := idx_facts t
  rw [View.read_apply]
  refine congrArg A (funext fun a => Fin.ext ?_)
  match a with
  | ⟨0, _⟩ => show win0_2.index t (0 : Fin 2) * 5000 + 1 * r.val = e.val; rw [h0, he]; omega
  | ⟨1, _⟩ => show win0_2.index t (1 : Fin 2) * 128 + 1 * k.val = k.val; rw [h1]; omega

/-- So the source block's rows are rows of the gathered source array as the region finds it, -/
theorem src_blk (c : Dev nD) (t : Fin cfg0.N) (r : Fin 5000) (k : Fin 128) (e : Fin 500000) (he : e.val = 5000 * t.val + r.val) :
    (iblk m c 0 t : FVec Ideal S5000x128 .f32) (ix2 r k) = (V m c main_v4 : FVec Ideal S500000x128 .f32) (ix2 e k) :=
  rows_blk0 (V m c main_v4) t r k e he

/-- the destination block's of the gathered destination array, -/
theorem dst_blk (c : Dev nD) (t : Fin cfg0.N) (r : Fin 5000) (k : Fin 128) (e : Fin 500000) (he : e.val = 5000 * t.val + r.val) :
    (iblk m c 1 t : FVec Ideal S5000x128 .f32) (ix2 r k) = (V m c main_v5 : FVec Ideal S500000x128 .f32) (ix2 e k) :=
  rows_blk1 (V m c main_v5) t r k e he

/-- and the third block's of the edges' own rows, an argument array the host lines before the region leave as it was. -/
theorem edge_blk (c : Dev nD) (t : Fin cfg0.N) (r : Fin 5000) (k : Fin 128) (e : Fin 500000) (he : e.val = 5000 * t.val + r.val) :
    (iblk m c 2 t : FVec Ideal S5000x128 .f32) (ix2 r k) = (m ((c : Thread nD τ).loc main_arg2) : FVec Ideal S500000x128 .f32) (ix2 e k) :=
  (rows_blk2 (V m c main_arg2) t r k e he).trans (congrFun (V_main_arg2 m c) (ix2 e k))

/-- Parameter window 3 stays at block (0, 0), which is its whole array, whatever the array holds. -/
theorem whole_blk3 (A : FVec Ideal S384x128 .bf16) (t : Fin cfg0.N) :
    (((cfg0.win 3).blk t).view.read (Elt Ideal) A : FVec Ideal S384x128 .bf16) = A := by
  obtain ⟨⟨h0, h1⟩, -, -, -, -, -, -, -, -, -, -, -, -, -⟩ := idx_params t
  funext y
  rw [View.read_apply]
  refine congrArg A (funext fun a => Fin.ext ?_)
  match a with
  | ⟨0, _⟩ => show win0_3.index t (0 : Fin 2) * 384 + 1 * (y 0).val = (y 0).val; rw [h0]; omega
  | ⟨1, _⟩ => show win0_3.index t (1 : Fin 2) * 128 + 1 * (y 1).val = (y 1).val; rw [h1]; omega

theorem blk3 (c : Dev nD) (t : Fin cfg0.N) : (iblk m c 3 t : FVec Ideal S384x128 .bf16) = (V m c main_v16 : FVec Ideal S384x128 .bf16) :=
  whole_blk3 (V m c main_v16) t

/-- Parameter window 4 stays at block (0, 0), which is its whole array, whatever the array holds. -/
theorem whole_blk4 (A : FVec Ideal S1x128 .f32) (t : Fin cfg0.N) :
    (((cfg0.win 4).blk t).view.read (Elt Ideal) A : FVec Ideal S1x128 .f32) = A := by
  obtain ⟨-, ⟨h0, h1⟩, -, -, -, -, -, -, -, -, -, -, -, -⟩ := idx_params t
  funext y
  rw [View.read_apply]
  refine congrArg A (funext fun a => Fin.ext ?_)
  match a with
  | ⟨0, _⟩ => show win0_4.index t (0 : Fin 2) * 1 + 1 * (y 0).val = (y 0).val; rw [h0]; omega
  | ⟨1, _⟩ => show win0_4.index t (1 : Fin 2) * 128 + 1 * (y 1).val = (y 1).val; rw [h1]; omega

theorem blk4 (c : Dev nD) (t : Fin cfg0.N) : (iblk m c 4 t : FVec Ideal S1x128 .f32) = (V m c main_v6 : FVec Ideal S1x128 .f32) :=
  whole_blk4 (V m c main_v6) t

/-- Parameter window 5 stays at block (0, 0), which is its whole array, whatever the array holds. -/
theorem whole_blk5 (A : FVec Ideal S1x128 .f32) (t : Fin cfg0.N) :
    (((cfg0.win 5).blk t).view.read (Elt Ideal) A : FVec Ideal S1x128 .f32) = A := by
  obtain ⟨-, -, ⟨h0, h1⟩, -, -, -, -, -, -, -, -, -, -, -⟩ := idx_params t
  funext y
  rw [View.read_apply]
  refine congrArg A (funext fun a => Fin.ext ?_)
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega

theorem blk5 (c : Dev nD) (t : Fin cfg0.N) : (iblk m c 5 t : FVec Ideal S1x128 .f32) = (V m c main_v7 : FVec Ideal S1x128 .f32) :=
  whole_blk5 (V m c main_v7) t

/-- Parameter window 6 stays at block (0, 0), which is its whole array, whatever the array holds. -/
theorem whole_blk6 (A : FVec Ideal S1x128 .f32) (t : Fin cfg0.N) :
    (((cfg0.win 6).blk t).view.read (Elt Ideal) A : FVec Ideal S1x128 .f32) = A := by
  obtain ⟨-, -, -, ⟨h0, h1⟩, -, -, -, -, -, -, -, -, -, -⟩ := idx_params t
  funext y
  rw [View.read_apply]
  refine congrArg A (funext fun a => Fin.ext ?_)
  match a with
  | ⟨0, _⟩ => show win0_6.index t (0 : Fin 2) * 1 + 1 * (y 0).val = (y 0).val; rw [h0]; omega
  | ⟨1, _⟩ => show win0_6.index t (1 : Fin 2) * 128 + 1 * (y 1).val = (y 1).val; rw [h1]; omega

theorem blk6 (c : Dev nD) (t : Fin cfg0.N) : (iblk m c 6 t : FVec Ideal S1x128 .f32) = (V m c main_v8 : FVec Ideal S1x128 .f32) :=
  whole_blk6 (V m c main_v8) t

/-- Parameter window 7 stays at block (0, 0), which is its whole array, whatever the array holds. -/
theorem whole_blk7 (A : FVec Ideal S128x128 .bf16) (t : Fin cfg0.N) :
    (((cfg0.win 7).blk t).view.read (Elt Ideal) A : FVec Ideal S128x128 .bf16) = A := by
  obtain ⟨-, -, -, -, ⟨h0, h1⟩, -, -, -, -, -, -, -, -, -⟩ := idx_params t
  funext y
  rw [View.read_apply]
  refine congrArg A (funext fun a => Fin.ext ?_)
  match a with
  | ⟨0, _⟩ => show win0_7.index t (0 : Fin 2) * 128 + 1 * (y 0).val = (y 0).val; rw [h0]; omega
  | ⟨1, _⟩ => show win0_7.index t (1 : Fin 2) * 128 + 1 * (y 1).val = (y 1).val; rw [h1]; omega

theorem blk7 (c : Dev nD) (t : Fin cfg0.N) : (iblk m c 7 t : FVec Ideal S128x128 .bf16) = (V m c main_v17 : FVec Ideal S128x128 .bf16) :=
  whole_blk7 (V m c main_v17) t

/-- Parameter window 8 stays at block (0, 0), which is its whole array, whatever the array holds. -/
theorem whole_blk8 (A : FVec Ideal S1x128 .f32) (t : Fin cfg0.N) :
    (((cfg0.win 8).blk t).view.read (Elt Ideal) A : FVec Ideal S1x128 .f32) = A := by
  obtain ⟨-, -, -, -, -, ⟨h0, h1⟩, -, -, -, -, -, -, -, -⟩ := idx_params t
  funext y
  rw [View.read_apply]
  refine congrArg A (funext fun a => Fin.ext ?_)
  match a with
  | ⟨0, _⟩ => show win0_8.index t (0 : Fin 2) * 1 + 1 * (y 0).val = (y 0).val; rw [h0]; omega
  | ⟨1, _⟩ => show win0_8.index t (1 : Fin 2) * 128 + 1 * (y 1).val = (y 1).val; rw [h1]; omega

theorem blk8 (c : Dev nD) (t : Fin cfg0.N) : (iblk m c 8 t : FVec Ideal S1x128 .f32) = (V m c main_v9 : FVec Ideal S1x128 .f32) :=
  whole_blk8 (V m c main_v9) t

/-- Parameter window 9 stays at block (0, 0), which is its whole array, whatever the array holds. -/
theorem whole_blk9 (A : FVec Ideal S1x128 .f32) (t : Fin cfg0.N) :
    (((cfg0.win 9).blk t).view.read (Elt Ideal) A : FVec Ideal S1x128 .f32) = A := by
  obtain ⟨-, -, -, -, -, -, ⟨h0, h1⟩, -, -, -, -, -, -, -⟩ := idx_params t
  funext y
  rw [View.read_apply]
  refine congrArg A (funext fun a => Fin.ext ?_)
  match a with
  | ⟨0, _⟩ => show win0_9.index t (0 : Fin 2) * 1 + 1 * (y 0).val = (y 0).val; rw [h0]; omega
  | ⟨1, _⟩ => show win0_9.index t (1 : Fin 2) * 128 + 1 * (y 1).val = (y 1).val; rw [h1]; omega

theorem blk9 (c : Dev nD) (t : Fin cfg0.N) : (iblk m c 9 t : FVec Ideal S1x128 .f32) = (V m c main_v10 : FVec Ideal S1x128 .f32) :=
  whole_blk9 (V m c main_v10) t

/-- Parameter window 10 stays at block (0, 0), which is its whole array, whatever the array holds. -/
theorem whole_blk10 (A : FVec Ideal S1x128 .f32) (t : Fin cfg0.N) :
    (((cfg0.win 10).blk t).view.read (Elt Ideal) A : FVec Ideal S1x128 .f32) = A := by
  obtain ⟨-, -, -, -, -, -, -, ⟨h0, h1⟩, -, -, -, -, -, -⟩ := idx_params t
  funext y
  rw [View.read_apply]
  refine congrArg A (funext fun a => Fin.ext ?_)
  match a with
  | ⟨0, _⟩ => show win0_10.index t (0 : Fin 2) * 1 + 1 * (y 0).val = (y 0).val; rw [h0]; omega
  | ⟨1, _⟩ => show win0_10.index t (1 : Fin 2) * 128 + 1 * (y 1).val = (y 1).val; rw [h1]; omega

theorem blk10 (c : Dev nD) (t : Fin cfg0.N) : (iblk m c 10 t : FVec Ideal S1x128 .f32) = (V m c main_v11 : FVec Ideal S1x128 .f32) :=
  whole_blk10 (V m c main_v11) t

/-- Parameter window 11 stays at block (0, 0), which is its whole array, whatever the array holds. -/
theorem whole_blk11 (A : FVec Ideal S128x128 .bf16) (t : Fin cfg0.N) :
    (((cfg0.win 11).blk t).view.read (Elt Ideal) A : FVec Ideal S128x128 .bf16) = A := by
  obtain ⟨-, -, -, -, -, -, -, -, ⟨h0, h1⟩, -, -, -, -, -⟩ := idx_params t
  funext y
  rw [View.read_apply]
  refine congrArg A (funext fun a => Fin.ext ?_)
  match a with
  | ⟨0, _⟩ => show win0_11.index t (0 : Fin 2) * 128 + 1 * (y 0).val = (y 0).val; rw [h0]; omega
  | ⟨1, _⟩ => show win0_11.index t (1 : Fin 2) * 128 + 1 * (y 1).val = (y 1).val; rw [h1]; omega

theorem blk11 (c : Dev nD) (t : Fin cfg0.N) : (iblk m c 11 t : FVec Ideal S128x128 .bf16) = (V m c main_v18 : FVec Ideal S128x128 .bf16) :=
  whole_blk11 (V m c main_v18) t

/-- Parameter window 12 stays at block (0, 0), which is its whole array, whatever the array holds. -/
theorem whole_blk12 (A : FVec Ideal S1x128 .f32) (t : Fin cfg0.N) :
    (((cfg0.win 12).blk t).view.read (Elt Ideal) A : FVec Ideal S1x128 .f32) = A := by
  obtain ⟨-, -, -, -, -, -, -, -, -, ⟨h0, h1⟩, -, -, -, -⟩ := idx_params t
  funext y
  rw [View.read_apply]
  refine congrArg A (funext fun a => Fin.ext ?_)
  match a with
  | ⟨0, _⟩ => show win0_12.index t (0 : Fin 2) * 1 + 1 * (y 0).val = (y 0).val; rw [h0]; omega
  | ⟨1, _⟩ => show win0_12.index t (1 : Fin 2) * 128 + 1 * (y 1).val = (y 1).val; rw [h1]; omega

theorem blk12 (c : Dev nD) (t : Fin cfg0.N) : (iblk m c 12 t : FVec Ideal S1x128 .f32) = (V m c main_v12 : FVec Ideal S1x128 .f32) :=
  whole_blk12 (V m c main_v12) t

/-- Parameter window 13 stays at block (0, 0), which is its whole array, whatever the array holds. -/
theorem whole_blk13 (A : FVec Ideal S1x128 .f32) (t : Fin cfg0.N) :
    (((cfg0.win 13).blk t).view.read (Elt Ideal) A : FVec Ideal S1x128 .f32) = A := by
  obtain ⟨-, -, -, -, -, -, -, -, -, -, ⟨h0, h1⟩, -, -, -⟩ := idx_params t
  funext y
  rw [View.read_apply]
  refine congrArg A (funext fun a => Fin.ext ?_)
  match a with
  | ⟨0, _⟩ => show win0_13.index t (0 : Fin 2) * 1 + 1 * (y 0).val = (y 0).val; rw [h0]; omega
  | ⟨1, _⟩ => show win0_13.index t (1 : Fin 2) * 128 + 1 * (y 1).val = (y 1).val; rw [h1]; omega

theorem blk13 (c : Dev nD) (t : Fin cfg0.N) : (iblk m c 13 t : FVec Ideal S1x128 .f32) = (V m c main_v13 : FVec Ideal S1x128 .f32) :=
  whole_blk13 (V m c main_v13) t

/-- Parameter window 14 stays at block (0, 0), which is its whole array, whatever the array holds. -/
theorem whole_blk14 (A : FVec Ideal S1x128 .f32) (t : Fin cfg0.N) :
    (((cfg0.win 14).blk t).view.read (Elt Ideal) A : FVec Ideal S1x128 .f32) = A := by
  obtain ⟨-, -, -, -, -, -, -, -, -, -, -, ⟨h0, h1⟩, -, -⟩ := idx_params t
  funext y
  rw [View.read_apply]
  refine congrArg A (funext fun a => Fin.ext ?_)
  match a with
  | ⟨0, _⟩ => show win0_14.index t (0 : Fin 2) * 1 + 1 * (y 0).val = (y 0).val; rw [h0]; omega
  | ⟨1, _⟩ => show win0_14.index t (1 : Fin 2) * 128 + 1 * (y 1).val = (y 1).val; rw [h1]; omega

theorem blk14 (c : Dev nD) (t : Fin cfg0.N) : (iblk m c 14 t : FVec Ideal S1x128 .f32) = (V m c main_v14 : FVec Ideal S1x128 .f32) :=
  whole_blk14 (V m c main_v14) t

/-- Parameter window 15 stays at block (0, 0), which is its whole array, whatever the array holds. -/
theorem whole_blk15 (A : FVec Ideal S128x1 .bf16) (t : Fin cfg0.N) :
    (((cfg0.win 15).blk t).view.read (Elt Ideal) A : FVec Ideal S128x1 .bf16) = A := by
  obtain ⟨-, -, -, -, -, -, -, -, -, -, -, -, ⟨h0, h1⟩, -⟩ := idx_params t
  funext y
  rw [View.read_apply]
  refine congrArg A (funext fun a => Fin.ext ?_)
  match a with
  | ⟨0, _⟩ => show win0_15.index t (0 : Fin 2) * 128 + 1 * (y 0).val = (y 0).val; rw [h0]; omega
  | ⟨1, _⟩ => show win0_15.index t (1 : Fin 2) * 1 + 1 * (y 1).val = (y 1).val; rw [h1]; omega

theorem blk15 (c : Dev nD) (t : Fin cfg0.N) : (iblk m c 15 t : FVec Ideal S128x1 .bf16) = (V m c main_v19 : FVec Ideal S128x1 .bf16) :=
  whole_blk15 (V m c main_v19) t

/-- Parameter window 16 stays at block (0, 0), which is its whole array, whatever the array holds. -/
theorem whole_blk16 (A : FVec Ideal S1x1 .f32) (t : Fin cfg0.N) :
    (((cfg0.win 16).blk t).view.read (Elt Ideal) A : FVec Ideal S1x1 .f32) = A := by
  obtain ⟨-, -, -, -, -, -, -, -, -, -, -, -, -, ⟨h0, h1⟩⟩ := idx_params t
  funext y
  rw [View.read_apply]
  refine congrArg A (funext fun a => Fin.ext ?_)
  match a with
  | ⟨0, _⟩ => show win0_16.index t (0 : Fin 2) * 1 + 1 * (y 0).val = (y 0).val; rw [h0]; omega
  | ⟨1, _⟩ => show win0_16.index t (1 : Fin 2) * 1 + 1 * (y 1).val = (y 1).val; rw [h1]; omega

theorem blk16 (c : Dev nD) (t : Fin cfg0.N) : (iblk m c 16 t : FVec Ideal S1x1 .f32) = (V m c main_v15 : FVec Ideal S1x1 .f32) :=
  whole_blk16 (V m c main_v15) t

/-- The parameters as the memory's argument arrays hold them. -/
abbrev memParams (c : Dev nD) : Params :=
  paramsOf (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16))

/-- At every point the parameter blocks are the memory's parameters. -/
theorem params_blk (c : Dev nD) (t : Fin cfg0.N) :
    blockParams (iblk m c 3 t) (iblk m c 4 t) (iblk m c 5 t) (iblk m c 6 t) (iblk m c 7 t) (iblk m c 8 t) (iblk m c 9 t) (iblk m c 10 t)
        (iblk m c 11 t) (iblk m c 12 t) (iblk m c 13 t) (iblk m c 14 t) (iblk m c 15 t) (iblk m c 16 t)
      = memParams m c := by
  rw [blk3 m c t, blk4 m c t, blk5 m c t, blk6 m c t, blk7 m c t, blk8 m c t, blk9 m c t, blk10 m c t, blk11 m c t, blk12 m c t,
    blk13 m c t, blk14 m c t, blk15 m c t, blk16 m c t]
  exact entry_params m c

/-- The column the region's result array ends holding: row `e` is edge `e`'s number. -/
def column (c : Dev nD) : FVec Ideal S500000x1 .f32 := fun i =>
  edgeValue (memParams m c) (nodes m c) (indices m c) (m ((c : Thread nD τ).loc main_arg2)) ⟨(i 0).val, idx2_lt0 i⟩

/-- WHAT POINT `t` WRITES BACK is block `t` of that column. -/
theorem flushed_eq (hr : ∀ c i, InRange (indices m c i)) (c : Dev nD) (t : Fin cfg0.N) :
    (dats m 0 c).flushed 17 t = ((cfg0.win 17).blk t).view.read (Elt Ideal) (column m c) := by
  show (cfg0.win 17).cut (grid0.coords t) ((dats m 0 c).after 17 t) = _
  rw [after0_17]
  unfold out0_17
  rw [View.canon_unit_zero hz]
  simp only [View.ld_unit_zero (S := S5000x128) hz, View.ld_unit_zero (S := S384x128) hz, View.ld_unit_zero (S := S1x128) hz,
    View.ld_unit_zero (S := S128x128) hz, View.ld_unit_zero (S := S128x1) hz, View.ld_unit_zero (S := S1x1) hz]
  funext y
  obtain ⟨r, u, rfl⟩ : ∃ (r : Fin 5000) (u : Fin 1), y = ix2 r u := ⟨y 0, y 1, eq_ix2 y⟩
  obtain rfl : u = 0 := Subsingleton.elim _ _
  have ht : t.val < 100 := by have h1 := t.isLt; have hN : cfg0.N = 100 := N_0; omega
  obtain ⟨e, he⟩ : ∃ e : Fin 500000, e.val = 5000 * t.val + r.val := ⟨⟨5000 * t.val + r.val, by have := r.isLt; omega⟩, rfl⟩
  refine (body_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) r).trans ?_
  rw [View.read_apply, params_blk m c t]
  obtain ⟨-, -, -, ⟨h0, h1⟩⟩ := idx_facts t
  have hemb : ((cfg0.win 17).blk t).view.emb (ix2 r (0 : Fin 1)) = (ix2 e (0 : Fin 1) : S500000x1.Idx) := by
    funext a
    apply Fin.ext
    match a with
    | ⟨0, _⟩ => show win0_17.index t (0 : Fin 2) * 5000 + 1 * r.val = e.val; rw [h0, he]; omega
    | ⟨1, _⟩ => show win0_17.index t (1 : Fin 2) * 1 + 1 * 0 = 0; rw [h1]
  rw [hemb]
  show _ = edgeValue (memParams m c) (nodes m c) (indices m c) (m ((c : Thread nD τ).loc main_arg2)) e
  unfold edgeValue
  have hs : (fun k => (iblk m c 0 t : FVec Ideal S5000x128 .f32) (ix2 r k))
      = fun k => nodes m c (ix2 (rowOf (wrap (indices m c (ix2 (0 : Fin 2) e)))) k) :=
    funext fun k => (src_blk m c t r k e he).trans (entry_src m c (hr c) e k)
  have hd : (fun k => (iblk m c 1 t : FVec Ideal S5000x128 .f32) (ix2 r k))
      = fun k => nodes m c (ix2 (rowOf (wrap (indices m c (ix2 (1 : Fin 2) e)))) k) :=
    funext fun k => (dst_blk m c t r k e he).trans (entry_dst m c (hr c) e k)
  have hed : (fun k => (iblk m c 2 t : FVec Ideal S5000x128 .f32) (ix2 r k))
      = fun k => (m ((c : Thread nD τ).loc main_arg2) : FVec Ideal S500000x128 .f32) (ix2 e k) :=
    funext fun k => edge_blk m c t r k e he
  exact congr (congr (congrArg (edgeOut (memParams m c)) hs) hd) hed

/-- An index of the column is in point `t`'s block iff each coordinate is in the block's range on its axis. -/
theorem mem_blk (t : Fin cfg0.N) (i : S500000x1.Idx) :
    i ∈ ((cfg0.win 17).blk t).view.set ↔ ∀ a : Fin 2, win0_17.index t a * S5000x1.size a ≤ (i a).val ∧ (i a).val < win0_17.index t a * S5000x1.size a + S5000x1.size a := by
  show i ∈ ((View.whole main_v20).slice (win0_17.rect t)).set ↔ _
  rw [View.set_slice_whole, Rect.mem_set_unit]
  exact Iff.rfl

/-- The hundred blocks of 5000 rows cover the column: row `i` is in the block of point `i / 5000`. -/
theorem cover (i : S500000x1.Idx) : ∃ t : Fin cfg0.N, (cfg0.win 17).flush t = true ∧ i ∈ ((cfg0.win 17).blk t).view.set := by
  have hi0 : (i 0).val < 500000 := (i 0).isLt
  have hi1 : (i 1).val < 1 := (i 1).isLt
  have hN : cfg0.N = 100 := N_0
  let t : Fin cfg0.N := ⟨(i 0).val / 5000, by rw [hN]; omega⟩
  obtain ⟨-, -, -, ⟨h0, h1⟩⟩ := idx_facts t
  refine ⟨t, flush0_17 t, ?_⟩
  rw [mem_blk]
  intro a
  match a with
  | ⟨0, _⟩ =>
    show win0_17.index t (0 : Fin 2) * 5000 ≤ (i 0).val ∧ (i 0).val < win0_17.index t (0 : Fin 2) * 5000 + 5000
    rw [h0]; show (i 0).val / 5000 * 5000 ≤ (i 0).val ∧ (i 0).val < (i 0).val / 5000 * 5000 + 5000; omega
  | ⟨1, _⟩ =>
    show win0_17.index t (1 : Fin 2) * 1 ≤ (i 1).val ∧ (i 1).val < win0_17.index t (1 : Fin 2) * 1 + 1
    rw [h1]; omega

/-- THE ARRAY after the run: every edge's number, as a column. -/
theorem final (hr : ∀ c i, InRange (indices m c i)) (c : Dev nD) : (dats m 0 c).arrAt 17 cfg0.N = column m c :=
  (dats m 0 c).arrAt_eq_of_cover 17 (column m c) (fun t _ => flushed_eq m hr c t) cover

/-- The program's last line re-lays the column as a vector: the result array holds every edge's number. -/
theorem tail_eq (hr : ∀ c i, InRange (indices m c i)) (c : Dev nD) :
    Pipeline.afterTail₀ cfgs (dats m) 0 (V0 m) [hostOps1] c main_v21
      = result (memParams m c) (nodes m c) (indices m c) (m ((c : Thread nD τ).loc main_arg2)) := by
  unfold Pipeline.afterTail₀
  show StableHlo.after hostOps1 _ (Proc.devRef .tc main_v21) = _
  after_results
  rw [(Pipeline.withArrays_arr spec0 launch0.win.arr_inj c _ _ 17).trans (final m hr c)]
  funext i
  obtain ⟨e, rfl⟩ : ∃ e : Fin 500000, i = ix1 e := ⟨i 0, eq_ix1 i⟩
  rw [result_ix1]
  exact shapeCast_a1_a_apply (column m c) shapeCasts_S500000x1_S500000 e

/-- THE RUN, READ: where every node index is in range, every weakly fair execution of the kernel's program terminates with the
    result buffer at every edge's number and the arguments unchanged. -/
theorem run (hr : ∀ c i, InRange (indices m c i)) :
    θ_run defs (onTc (τ := τ) (main (F := Ideal))) ⟨m, fun _ => 0, ρ⟩ fun r => ∀ c : Dev nD,
      r.2.mem ((c : Thread nD τ).loc main_v21) = result (memParams m c) (nodes m c) (indices m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun _ h c => ⟨((h c).2 main_v21 (Pipeline.mem_restRefs_of main_v21 (by decide) (by decide))).trans (tail_eq m hr c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩)
    (run_main m ρ)

end Cert.KernelIdeal.ValueRun

end
-- ==== Proof.PreRange.lean ====
/-
  What the precondition says about the two rows of node indices: every index lies in NumPy's range for a table of 100000
  rows, `-100000 ≤ i < 100000`.
-/
import proofs.«400990_j30305289240589_1_alg».proof.Pre_finite_inputs
import proofs.«400990_j30305289240589_1_alg».proof.Proof.Spec
import Idealize.ShloMosaic.PureOps.Ideal
import Idealize.ShloMosaic.Lib.ReduceAll
import Idealize.ShloMosaic.Lib.StableHlo.Predicate

noncomputable section

namespace Cert.Pre_finite_inputs.Range

open Idealize.ShloMosaic Cert.Pre_finite_inputs Cert.EdgeMlp

/-- The rank-0 shape has one index. -/
instance : Subsingleton S_.Idx := ⟨fun a b => funext fun d => d.elim0⟩

/-- The last part: where it is one, the conjunction carried so far is one and the last test holds at every index. -/
theorem of_part5 [Cert.Pre_finite_inputs.Facts] (v82 : IVec S_ 1) (v84 : IVec S2x500000 1)
    (h : fn_part5 (F := Ideal) v82 v84 ValueIdx.ix0 = 1#1) : v82 ValueIdx.ix0 = 1#1 ∧ ∀ i, v84 i = 1#1 := by
  obtain ⟨h1, h2⟩ := IntOp.andi_eq_one.1 h
  exact ⟨h1, fun i => Host.reduce_andi_all _ _ _ _ _ h2 i⟩

/-- The two range tests sit in the fourth part: where it is one, every index is in range. -/
theorem of_part4 [Cert.Pre_finite_inputs.Facts] (x1 : IVec S2x500000 32) (x15 : FVec Ideal S128x1 .f32) (x16 : FVec Ideal S1 .f32) (v63 v67 : IVec S_ 1)
    (h : fn_part4 (F := Ideal) x1 x15 x16 v63 v67 ValueIdx.ix0 = 1#1) : ∀ i : S2x500000.Idx, InRange (x1 i) := by
  obtain ⟨h82, h84⟩ := of_part5 _ _ h
  obtain ⟨-, h81⟩ := IntOp.andi_eq_one.1 h82
  intro i
  have hge := Host.reduce_andi_all _ _ _ _ _ h81 i
  have hlt := h84 i
  have hge' : IntOp.cmpi .sge (x1 i) 4294867296#32 = 1#1 := hge
  have hlt' : IntOp.cmpi .slt (x1 i) 100000#32 = 1#1 := hlt
  rw [IntOp.cmpi_sge] at hge'
  rw [IntOp.cmpi_slt] at hlt'
  have e1 : (4294867296#32 : BitVec 32).toInt = -100000 := by decide
  have e2 : (100000#32 : BitVec 32).toInt = 100000 := by decide
  rw [e1] at hge'
  rw [e2] at hlt'
  exact ⟨hge', hlt'⟩

/-- Where the printed precondition is all ones, every node index is in range. -/
theorem inRange_of_pre [Cert.Pre_finite_inputs.Facts] (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 x13 x14 : FVec Ideal S128 .f32) (x15 : FVec Ideal S128x1 .f32) (x16 : FVec Ideal S1 .f32)
    (h : Cert.Pre_finite_inputs.fn (F := Ideal) x0 x1 x2 x3 x4 x5 x6 x7 x8 x9 x10 x11 x12 x13 x14 x15 x16 = fun _ => 1#1) :
    ∀ i : S2x500000.Idx, InRange (x1 i) := by
  have h0 := congrFun h ValueIdx.ix0
  unfold fn fn_part1 fn_part2 fn_part3 at h0
  exact of_part4 _ _ _ _ _ h0

end Cert.Pre_finite_inputs.Range

end
-- ==== Proof.RefValue.lean ====
/-
  The reference program's result, read one edge at a time: its result array is `Cert.EdgeMlp.result` of its arguments —
  for each edge the edge's number of the two node rows its indices name (a negative index counted from the end, the position
  held inside the table) and the edge's own row.
-/
import proofs.«400990_j30305289240589_1_alg».proof.Proof.RefRead
import proofs.«400990_j30305289240589_1_alg».proof.Proof.Spec
import proofs.«400990_j30305289240589_1_alg».proof.Proof.LibMatrixRead
import Idealize.ShloMosaic.PureOps.Ideal.Laws
import Idealize.ShloMosaic.Lib.ValueIdx
import Idealize.ShloMosaic.Lib.ValueLayout
import Idealize.ShloMosaic.Lib.IdealHost

noncomputable section

namespace Cert.ReferenceIdeal.RefValue

open Idealize.ShloMosaic Idealize.ShloMosaic.ValueIdx
open Cert.ReferenceIdeal Cert.ReferenceIdeal.Gen Cert.ReferenceIdeal.ReadP Cert.EdgeMlp Cert.MatrixRead

/-! ## One layer's normalisation and rectifier, as the operations on arrays -/

/-- A vector of 128 lanes made a row and spread over every row of the array. -/
def rowOps (g : FVec Ideal S128 .f32) : FVec Ideal S500000x128 .f32 :=
  broadcastInDim S500000x128 ![0, 1] bcast_S1x128_S500000x128_0_1 (broadcastInDim S1x128 ![1] bcast_S128_S1x128_1 g)

theorem rowOps_apply (g : FVec Ideal S128 .f32) (e : Fin 500000) (j : Fin 128) : rowOps g (ix2 e j) = g (ix1 j) := by
  unfold rowOps
  refine (broadcastInDim_apply _ bcast_S1x128_S500000x128_0_1 _ (ix2 e j) (ix2 (0 : Fin 1) j) (fun a => ?_)).trans ?_
  · match a with
    | ⟨0, _⟩ => show 0 = if (1 : Nat) = 1 then 0 else e.val; rw [if_pos rfl]
    | ⟨1, _⟩ => show j.val = if (128 : Nat) = 1 then 0 else j.val; rw [if_neg (by decide)]
  · exact broadcastInDim_apply _ bcast_S128_S1x128_1 g (ix2 (0 : Fin 1) j) (ix1 j) (fun a => match a with
      | ⟨0, _⟩ => by show j.val = if (128 : Nat) = 1 then 0 else j.val; rw [if_neg (by decide)])

/-- A column spread over the 128 lanes reads, at `(e, j)`, the column's entry of row `e`. -/
theorem colOps_apply (c : FVec Ideal S500000x1 .f32) (e : Fin 500000) (j : Fin 128) :
    broadcastInDim S500000x128 ![0, 1] bcast_S500000x1_S500000x128_0_1 c (ix2 e j) = c (ix2 e (0 : Fin 1)) :=
  broadcastInDim_apply _ bcast_S500000x1_S500000x128_0_1 c (ix2 e j) (ix2 e (0 : Fin 1)) (fun a => match a with
    | ⟨0, _⟩ => by show e.val = if (500000 : Nat) = 1 then 0 else e.val; rw [if_neg (by decide)]
    | ⟨1, _⟩ => by show 0 = if (1 : Nat) = 1 then 0 else j.val; rw [if_pos rfl])

/-- The rows' means as a column: the sum over the lanes from the zero word, made a column, divided by a column of the word 128. -/
def meanOps (y : FVec Ideal S500000x128 .f32) : FVec Ideal S500000x1 .f32 :=
  Host.divf
    (broadcastInDim S500000x1 ![0] bcast_S500000_S500000x1_0
      (Host.reduceAdd y (constant (F := Ideal) S_ .f32 0x00000000#32) reducesTo_S500000x128_S500000_d1 h_S_))
    (broadcastInDim S500000x1 ![] bcast_S_S500000x1 (constant (F := Ideal) S_ .f32 0x43000000#32))

theorem meanOps_apply (y : FVec Ideal S500000x128 .f32) (e : Fin 500000) (u : Fin 1) :
    meanOps y (ix2 e u) = mean128 (fun k => y (ix2 e k)) := by
  unfold meanOps mean128
  rw [hostDivf_apply]
  refine congrArg₂ Ideal.div ?_ ?_
  · refine (broadcastInDim_apply _ bcast_S500000_S500000x1_0 _ (ix2 e u) (ix1 e) (fun a => match a with
      | ⟨0, _⟩ => by show e.val = if (500000 : Nat) = 1 then 0 else e.val; rw [if_neg (by decide)])).trans ?_
    rw [hostReduceAdd_apply, Ideal.hostReduceAdd_single reducesTo_S500000x128_S500000_d1 (by decide), constant_apply,
      Ideal.ofBits_zero_f32, zero_add]
    refine Finset.sum_congr rfl fun k _ => ?_
    exact congrArg y (funext fun a => Fin.ext (by match a with | ⟨0, _⟩ => rfl | ⟨1, _⟩ => rfl))
  · exact broadcastInDim_scalar_apply bcast_S_S500000x1 _ (ix2 e u)

/-- The array with each row's mean taken off its lanes. -/
def centredOps (y : FVec Ideal S500000x128 .f32) : FVec Ideal S500000x128 .f32 :=
  subf y (broadcastInDim S500000x128 ![0, 1] bcast_S500000x1_S500000x128_0_1 (meanOps y))

theorem centredOps_apply (y : FVec Ideal S500000x128 .f32) (e : Fin 500000) (j : Fin 128) :
    centredOps y (ix2 e j) = centred (fun k => y (ix2 e k)) j := by
  unfold centredOps centred
  rw [subf_apply, colOps_apply, meanOps_apply]

/-- The layer's normalisation, scale, shift and rectifier: the centred array times the column of reciprocal roots of
    (mean of its squares + epsilon), times the scale row, plus the shift row, the larger of that and zero. -/
def lnOps (y : FVec Ideal S500000x128 .f32) (g be : FVec Ideal S128 .f32) : FVec Ideal S500000x128 .f32 :=
  maximumf
    (addf
      (mulf
        (mulf (centredOps y)
          (broadcastInDim S500000x128 ![0, 1] bcast_S500000x1_S500000x128_0_1
            (Host.rsqrt (addf (meanOps (mulf (centredOps y) (centredOps y)))
              (broadcastInDim S500000x1 ![] bcast_S_S500000x1 (constant (F := Ideal) S_ .f32 0x3727C5AC#32))))))
        (rowOps g))
      (rowOps be))
    (broadcastInDim S500000x128 ![] bcast_S_S500000x128 (constant (F := Ideal) S_ .f32 0x00000000#32))

theorem lnOps_apply (y : FVec Ideal S500000x128 .f32) (g be : FVec Ideal S128 .f32) (e : Fin 500000) (j : Fin 128) :
    lnOps y g be (ix2 e j) = lnRelu (fun k => g (ix1 k)) (fun k => be (ix1 k)) (fun k => y (ix2 e k)) j := by
  unfold lnOps lnRelu
  rw [maximumf_apply, addf_apply, mulf_apply, mulf_apply, rowOps_apply, rowOps_apply, centredOps_apply, colOps_apply]
  have hsq : (fun k => mulf (centredOps y) (centredOps y) (ix2 e k))
      = fun k => centred (fun k => y (ix2 e k)) k * centred (fun k => y (ix2 e k)) k :=
    funext fun k => by rw [mulf_apply, centredOps_apply]
  have hr : Host.rsqrt (addf (meanOps (mulf (centredOps y) (centredOps y)))
        (broadcastInDim S500000x1 ![] bcast_S_S500000x1 (constant (F := Ideal) S_ .f32 0x3727C5AC#32))) (ix2 e (0 : Fin 1))
      = Ideal.rsqrt (mean128 (fun k => centred (fun k => y (ix2 e k)) k * centred (fun k => y (ix2 e k)) k) + cEps) := by
    show Ideal.rsqrt (meanOps (mulf (centredOps y) (centredOps y)) (ix2 e (0 : Fin 1))
      + broadcastInDim S500000x1 ![] bcast_S_S500000x1 (constant (F := Ideal) S_ .f32 0x3727C5AC#32) (ix2 e (0 : Fin 1))) = _
    rw [meanOps_apply, hsq, broadcastInDim_scalar_apply, constant_apply]
  rw [hr, broadcastInDim_scalar_apply, constant_apply, Ideal.ofBits_zero_f32]

/-! ## The two node rows: the wrapped index column and the rows it takes -/

/-- The source index column at row `e` is the wrapped first index of edge `e`. -/
theorem srcCol_apply (x1 : IVec S2x500000 32) (e : Fin 500000) (u : Fin 1) :
    val_main_v9 (F := Ideal) x1 (ix2 e u) = wrap (x1 (ix2 (0 : Fin 2) e)) := by
  rw [val_main_v9_apply, val_main_v8_apply, val_main_v5_apply, val_main_v7_apply, val_main_v4_apply, val_main_v6_apply,
    val_main_c_apply, val_main_c_0_apply, val_main_v1_apply, val_main_v0_apply]
  have hi : idx_main_v0 (idx_main_v1 (idx_main_v9 (ix2 e u))) = ix2 (0 : Fin 2) e := funext fun a => Fin.ext (by
    match a with
    | ⟨0, _⟩ => rfl
    | ⟨1, _⟩ => show e.val % 500000 = e.val; omega)
  rw [hi]
  rfl

/-- The destination index column at row `e` is the wrapped second index of edge `e`. -/
theorem dstCol_apply (x1 : IVec S2x500000 32) (e : Fin 500000) (u : Fin 1) :
    val_main_v16 (F := Ideal) x1 (ix2 e u) = wrap (x1 (ix2 (1 : Fin 2) e)) := by
  rw [val_main_v16_apply, val_main_v15_apply, val_main_v12_apply, val_main_v14_apply, val_main_v11_apply, val_main_v13_apply,
    val_main_c_1_apply, val_main_c_2_apply, val_main_v3_apply, val_main_v2_apply]
  have hi : idx_main_v2 (idx_main_v3 (idx_main_v16 (ix2 e u))) = ix2 (1 : Fin 2) e := funext fun a => Fin.ext (by
    match a with
    | ⟨0, _⟩ => rfl
    | ⟨1, _⟩ => show e.val % 500000 = e.val; omega)
  rw [hi]
  rfl

/-- The gathered source rows at `(e, c)`: the table's row the wrapped first index names, at lane `c`. -/
theorem srcRows_apply (x0 : FVec Ideal S100000x128 .f32) (x1 : IVec S2x500000 32) (e : Fin 500000) (c : Fin 128) :
    val_main_v10 (F := Ideal) x0 x1 (ix2 e c) = x0 (ix2 (rowOf (wrap (x1 (ix2 (0 : Fin 2) e)))) c) := by
  unfold val_main_v10
  refine (gather_rows_apply (N := 100000) (C := 128) (n := 500000) (w := 32) _ rfl rfl rfl rfl rfl x0 _ e c (by decide)).trans ?_
  refine congrArg x0 (congrArg (fun r => ix2 r c) (Fin.ext ?_))
  show min (val_main_v9 (F := Ideal) x1 (ix2 e (0 : Fin 1))).toInt.toNat (100000 - 1)
    = min (wrap (x1 (ix2 (0 : Fin 2) e))).toInt.toNat 99999
  rw [srcCol_apply]

/-- The gathered destination rows at `(e, c)`: the table's row the wrapped second index names, at lane `c`. -/
theorem dstRows_apply (x0 : FVec Ideal S100000x128 .f32) (x1 : IVec S2x500000 32) (e : Fin 500000) (c : Fin 128) :
    val_main_v17 (F := Ideal) x0 x1 (ix2 e c) = x0 (ix2 (rowOf (wrap (x1 (ix2 (1 : Fin 2) e)))) c) := by
  unfold val_main_v17
  refine (gather_rows_apply (N := 100000) (C := 128) (n := 500000) (w := 32) _ rfl rfl rfl rfl rfl x0 _ e c (by decide)).trans ?_
  refine congrArg x0 (congrArg (fun r => ix2 r c) (Fin.ext ?_))
  show min (val_main_v16 (F := Ideal) x1 (ix2 e (0 : Fin 1))).toInt.toNat (100000 - 1)
    = min (wrap (x1 (ix2 (1 : Fin 2) e))).toInt.toNat 99999
  rw [dstCol_apply]

/-- The three rows laid side by side, at `(e, k)`. -/
theorem cat_apply (x0 : FVec Ideal S100000x128 .f32) (x1 : IVec S2x500000 32) (x2 : FVec Ideal S500000x128 .f32)
    (e : Fin 500000) (k : Fin 384) :
    val_main_v18 (F := Ideal) x0 x1 x2 (ix2 e k)
      = cat3 (fun c => x0 (ix2 (rowOf (wrap (x1 (ix2 (0 : Fin 2) e)))) c))
          (fun c => x0 (ix2 (rowOf (wrap (x1 (ix2 (1 : Fin 2) e)))) c)) (fun c => x2 (ix2 e c)) k := by
  unfold val_main_v18
  refine (concat3_128_apply (n := 500000) _ _ _ concatenates_S500000x128_S500000x128_S500000x128_S500000x384_d1 e k).trans ?_
  unfold cat3
  by_cases h1 : k.val < 128
  · rw [dif_pos h1, dif_pos h1, srcRows_apply]
  · rw [dif_neg h1, dif_neg h1]
    by_cases h2 : k.val < 256
    · rw [dif_pos h2, dif_pos h2, dstRows_apply]
    · rw [dif_neg h2, dif_neg h2]

/-! ## The four affine maps -/

/-- The first map's result at `(e, j)`: the laid-out row of edge `e` against column `j` of the weights, plus the bias. -/
theorem pre0_apply (x0 : FVec Ideal S100000x128 .f32) (x1 : IVec S2x500000 32) (x2 : FVec Ideal S500000x128 .f32)
    (x3 : FVec Ideal S384x128 .f32) (x4 : FVec Ideal S128 .f32) (e : Fin 500000) (j : Fin 128) :
    val_main_v22 (F := Ideal) x0 x1 x2 x3 x4 (ix2 e j)
      = affine (fun k j => x3 (ix2 k j)) (fun j => x4 (ix1 j))
          (cat3 (fun c => x0 (ix2 (rowOf (wrap (x1 (ix2 (0 : Fin 2) e)))) c))
            (fun c => x0 (ix2 (rowOf (wrap (x1 (ix2 (1 : Fin 2) e)))) c)) (fun c => x2 (ix2 e c))) j := by
  rw [val_main_v22_apply, val_main_v19_apply, val_main_v21_apply, val_main_v20_apply]
  have hl : ∀ k : Fin 384, lidx_main_v19 (ix2 e j) k = ix2 e k := fun k =>
    funext fun a => Fin.ext (by match a with | ⟨0, _⟩ => rfl | ⟨1, _⟩ => rfl)
  have hr : ∀ k : Fin 384, ridx_main_v19 (ix2 e j) k = ix2 k j := fun k =>
    funext fun a => Fin.ext (by match a with | ⟨0, _⟩ => rfl | ⟨1, _⟩ => rfl)
  have hb : idx_main_v20 (idx_main_v21 (ix2 e j)) = ix1 j :=
    funext fun a => Fin.ext (by match a with | ⟨0, _⟩ => rfl)
  rw [hb]
  unfold affine
  refine congrArg₂ (· + ·) (Finset.sum_congr rfl fun k _ => ?_) rfl
  rw [hl, hr, cat_apply]

/-- The second map's result at `(e, j)`, from the first hidden array's row `e`. -/
theorem pre1_apply (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 : FVec Ideal S128 .f32) (e : Fin 500000) (j : Fin 128) :
    val_main_v51 (F := Ideal) x0 x1 x2 x3 x4 x5 x6 x7 x8 (ix2 e j)
      = affine (fun k j => x7 (ix2 k j)) (fun j => x8 (ix1 j))
          (fun k => val_main_v47 (F := Ideal) x0 x1 x2 x3 x4 x5 x6 (ix2 e k)) j := by
  rw [val_main_v51_apply, val_main_v48_apply, val_main_v50_apply, val_main_v49_apply]
  have hl : ∀ k : Fin 128, lidx_main_v48 (ix2 e j) k = ix2 e k := fun k =>
    funext fun a => Fin.ext (by match a with | ⟨0, _⟩ => rfl | ⟨1, _⟩ => rfl)
  have hr : ∀ k : Fin 128, ridx_main_v48 (ix2 e j) k = ix2 k j := fun k =>
    funext fun a => Fin.ext (by match a with | ⟨0, _⟩ => rfl | ⟨1, _⟩ => rfl)
  have hb : idx_main_v49 (idx_main_v50 (ix2 e j)) = ix1 j :=
    funext fun a => Fin.ext (by match a with | ⟨0, _⟩ => rfl)
  rw [hb]
  unfold affine
  refine congrArg₂ (· + ·) (Finset.sum_congr rfl fun k _ => ?_) rfl
  rw [hl, hr]

/-- The third map's result at `(e, j)`, from the second hidden array's row `e`. -/
theorem pre2_apply (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 : FVec Ideal S128 .f32) (e : Fin 500000) (j : Fin 128) :
    val_main_v80 (F := Ideal) x0 x1 x2 x3 x4 x5 x6 x7 x8 x9 x10 x11 x12 (ix2 e j)
      = affine (fun k j => x11 (ix2 k j)) (fun j => x12 (ix1 j))
          (fun k => val_main_v76 (F := Ideal) x0 x1 x2 x3 x4 x5 x6 x7 x8 x9 x10 (ix2 e k)) j := by
  rw [val_main_v80_apply, val_main_v77_apply, val_main_v79_apply, val_main_v78_apply]
  have hl : ∀ k : Fin 128, lidx_main_v77 (ix2 e j) k = ix2 e k := fun k =>
    funext fun a => Fin.ext (by match a with | ⟨0, _⟩ => rfl | ⟨1, _⟩ => rfl)
  have hr : ∀ k : Fin 128, ridx_main_v77 (ix2 e j) k = ix2 k j := fun k =>
    funext fun a => Fin.ext (by match a with | ⟨0, _⟩ => rfl | ⟨1, _⟩ => rfl)
  have hb : idx_main_v78 (idx_main_v79 (ix2 e j)) = ix1 j :=
    funext fun a => Fin.ext (by match a with | ⟨0, _⟩ => rfl)
  rw [hb]
  unfold affine
  refine congrArg₂ (· + ·) (Finset.sum_congr rfl fun k _ => ?_) rfl
  rw [hl, hr]

/-- The last map's one number for edge `e`, from the third hidden array's row `e`. -/
theorem out_apply (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 x13 x14 : FVec Ideal S128 .f32) (x15 : FVec Ideal S128x1 .f32) (x16 : FVec Ideal S1 .f32) (e : Fin 500000) :
    val_main_v110 (F := Ideal) x0 x1 x2 x3 x4 x5 x6 x7 x8 x9 x10 x11 x12 x13 x14 x15 x16 (ix1 e)
      = affine (fun k j => x15 (ix2 k j)) (fun j => x16 (ix1 j))
          (fun k => val_main_v105 (F := Ideal) x0 x1 x2 x3 x4 x5 x6 x7 x8 x9 x10 x11 x12 x13 x14 (ix2 e k)) (0 : Fin 1) := by
  rw [val_main_v110_apply, val_main_v109_apply, val_main_v106_apply, val_main_v108_apply, val_main_v107_apply]
  have hl : ∀ k : Fin 128, lidx_main_v106 (idx_main_v110 (ix1 e)) k = ix2 e k := fun k =>
    funext fun a => Fin.ext (by
      match a with
      | ⟨0, _⟩ => show e.val / 1 = e.val; omega
      | ⟨1, _⟩ => rfl)
  have hr : ∀ k : Fin 128, ridx_main_v106 (idx_main_v110 (ix1 e)) k = ix2 k (0 : Fin 1) := fun k =>
    funext fun a => Fin.ext (by match a with | ⟨0, _⟩ => rfl | ⟨1, _⟩ => rfl)
  have hb : idx_main_v107 (idx_main_v108 (idx_main_v110 (ix1 e))) = ix1 (0 : Fin 1) :=
    funext fun a => Fin.ext (by match a with | ⟨0, _⟩ => rfl)
  rw [hb]
  unfold affine
  refine congrArg₂ (· + ·) (Finset.sum_congr rfl fun k _ => ?_) rfl
  rw [hl, hr]

/-! ## Each normalised and rectified stage is the layer's operations on the stage before it -/

theorem hid0_ops (x0 : FVec Ideal S100000x128 .f32) (x1 : IVec S2x500000 32) (x2 : FVec Ideal S500000x128 .f32)
    (x3 : FVec Ideal S384x128 .f32) (x4 x5 x6 : FVec Ideal S128 .f32) :
    val_main_v47 (F := Ideal) x0 x1 x2 x3 x4 x5 x6 = lnOps (val_main_v22 (F := Ideal) x0 x1 x2 x3 x4) x5 x6 := rfl

theorem hid1_ops (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32) :
    val_main_v76 (F := Ideal) x0 x1 x2 x3 x4 x5 x6 x7 x8 x9 x10 = lnOps (val_main_v51 (F := Ideal) x0 x1 x2 x3 x4 x5 x6 x7 x8) x9 x10 := rfl

theorem hid2_ops (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 x13 x14 : FVec Ideal S128 .f32) :
    val_main_v105 (F := Ideal) x0 x1 x2 x3 x4 x5 x6 x7 x8 x9 x10 x11 x12 x13 x14 = lnOps (val_main_v80 (F := Ideal) x0 x1 x2 x3 x4 x5 x6 x7 x8 x9 x10 x11 x12) x13 x14 := rfl

/-! ## The three hidden rows of an edge -/

theorem hid0_apply (x0 : FVec Ideal S100000x128 .f32) (x1 : IVec S2x500000 32) (x2 : FVec Ideal S500000x128 .f32)
    (x3 : FVec Ideal S384x128 .f32) (x4 x5 x6 : FVec Ideal S128 .f32) (e : Fin 500000) (j : Fin 128) :
    val_main_v47 (F := Ideal) x0 x1 x2 x3 x4 x5 x6 (ix2 e j)
      = lnRelu (fun k => x5 (ix1 k)) (fun k => x6 (ix1 k))
          (affine (fun k j => x3 (ix2 k j)) (fun j => x4 (ix1 j))
            (cat3 (fun c => x0 (ix2 (rowOf (wrap (x1 (ix2 (0 : Fin 2) e)))) c))
              (fun c => x0 (ix2 (rowOf (wrap (x1 (ix2 (1 : Fin 2) e)))) c)) (fun c => x2 (ix2 e c)))) j := by
  rw [hid0_ops, lnOps_apply]
  exact congrArg (fun z => lnRelu (fun k => x5 (ix1 k)) (fun k => x6 (ix1 k)) z j)
    (funext fun k => pre0_apply x0 x1 x2 x3 x4 e k)

theorem hid1_apply (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32) (e : Fin 500000) (j : Fin 128) :
    val_main_v76 (F := Ideal) x0 x1 x2 x3 x4 x5 x6 x7 x8 x9 x10 (ix2 e j)
      = lnRelu (fun k => x9 (ix1 k)) (fun k => x10 (ix1 k))
          (affine (fun k j => x7 (ix2 k j)) (fun j => x8 (ix1 j))
            (fun k => val_main_v47 (F := Ideal) x0 x1 x2 x3 x4 x5 x6 (ix2 e k))) j := by
  rw [hid1_ops, lnOps_apply]
  exact congrArg (fun z => lnRelu (fun k => x9 (ix1 k)) (fun k => x10 (ix1 k)) z j)
    (funext fun k => pre1_apply x0 x1 x2 x3 x4 x5 x6 x7 x8 e k)

theorem hid2_apply (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 x13 x14 : FVec Ideal S128 .f32) (e : Fin 500000) (j : Fin 128) :
    val_main_v105 (F := Ideal) x0 x1 x2 x3 x4 x5 x6 x7 x8 x9 x10 x11 x12 x13 x14 (ix2 e j)
      = lnRelu (fun k => x13 (ix1 k)) (fun k => x14 (ix1 k))
          (affine (fun k j => x11 (ix2 k j)) (fun j => x12 (ix1 j))
            (fun k => val_main_v76 (F := Ideal) x0 x1 x2 x3 x4 x5 x6 x7 x8 x9 x10 (ix2 e k))) j := by
  rw [hid2_ops, lnOps_apply]
  exact congrArg (fun z => lnRelu (fun k => x13 (ix1 k)) (fun k => x14 (ix1 k)) z j)
    (funext fun k => pre2_apply x0 x1 x2 x3 x4 x5 x6 x7 x8 x9 x10 x11 x12 e k)

/-- The reference's last stage, as a function of the argument arrays, is the result array of the specification. -/
theorem ref_is_result (x0 : FVec Ideal S100000x128 .f32) (x1 : IVec S2x500000 32) (x2 : FVec Ideal S500000x128 .f32)
    (x3 : FVec Ideal S384x128 .f32) (x4 x5 x6 : FVec Ideal S128 .f32) (x7 : FVec Ideal S128x128 .f32) (x8 x9 x10 : FVec Ideal S128 .f32)
    (x11 : FVec Ideal S128x128 .f32) (x12 x13 x14 : FVec Ideal S128 .f32) (x15 : FVec Ideal S128x1 .f32) (x16 : FVec Ideal S1 .f32) :
    val_main_v110 (F := Ideal) x0 x1 x2 x3 x4 x5 x6 x7 x8 x9 x10 x11 x12 x13 x14 x15 x16
      = result (paramsOf x3 x4 x5 x6 x7 x8 x9 x10 x11 x12 x13 x14 x15 x16) x0 x1 x2 := by
  funext i
  obtain ⟨e, rfl⟩ : ∃ e : Fin 500000, i = ValueIdx.ix1 e := ⟨i 0, ValueIdx.eq_ix1 i⟩
  rw [Cert.EdgeMlp.result_ix1, out_apply]
  have h0 : (fun k => val_main_v47 (F := Ideal) x0 x1 x2 x3 x4 x5 x6 (ix2 e k))
      = hidden0 (paramsOf x3 x4 x5 x6 x7 x8 x9 x10 x11 x12 x13 x14 x15 x16)
          (fun c => x0 (ix2 (rowOf (wrap (x1 (ix2 (0 : Fin 2) e)))) c))
          (fun c => x0 (ix2 (rowOf (wrap (x1 (ix2 (1 : Fin 2) e)))) c)) (fun c => x2 (ix2 e c)) :=
    funext fun k => hid0_apply x0 x1 x2 x3 x4 x5 x6 e k
  have h1 : (fun k => val_main_v76 (F := Ideal) x0 x1 x2 x3 x4 x5 x6 x7 x8 x9 x10 (ix2 e k))
      = hidden1 (paramsOf x3 x4 x5 x6 x7 x8 x9 x10 x11 x12 x13 x14 x15 x16)
          (fun k => val_main_v47 (F := Ideal) x0 x1 x2 x3 x4 x5 x6 (ix2 e k)) :=
    funext fun k => hid1_apply x0 x1 x2 x3 x4 x5 x6 x7 x8 x9 x10 e k
  have h2 : (fun k => val_main_v105 (F := Ideal) x0 x1 x2 x3 x4 x5 x6 x7 x8 x9 x10 x11 x12 x13 x14 (ix2 e k))
      = hidden2 (paramsOf x3 x4 x5 x6 x7 x8 x9 x10 x11 x12 x13 x14 x15 x16)
          (fun k => val_main_v76 (F := Ideal) x0 x1 x2 x3 x4 x5 x6 x7 x8 x9 x10 (ix2 e k)) :=
    funext fun k => hid2_apply x0 x1 x2 x3 x4 x5 x6 x7 x8 x9 x10 x11 x12 x13 x14 e k
  rw [h2, h1, h0]
  rfl

end Cert.ReferenceIdeal.RefValue

end
-- ==== Proof.RefRun.lean ====
/-
  The reference program's run, stated over its stages: every weakly fair execution of the reference's straight line of
  136 host operations terminates with the result buffer at the last stage's value of the arguments and the arguments
  unchanged. The line is walked stretch by stretch: the contents after each stretch, at the buffers later operations still
  read, are the stages' values; so no stage's term is ever written out in full.
-/
import proofs.«400990_j30305289240589_1_alg».proof.Proof.Gen.ReferenceIdeal
import proofs.«400990_j30305289240589_1_alg».proof.Proof.RefRead
import Idealize.ShloMosaic.Lib.StableHlo.Run

noncomputable section

namespace Cert.ReferenceIdeal.HandRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 136 operations, in order (a called function's operations stand in its call's place, spelt `TRef.…`). -/
abbrev ops : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v1 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v6 (broadcastInDim S500000 ![] bcast_S_S500000 : (⟨S_, .i32⟩ : BufTy).Contents (Elt F) → (⟨S500000, .i32⟩ : BufTy).Contents (Elt F)),
    binary main_v1 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg0 main_v9 main_v10 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v3 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v13 (broadcastInDim S500000 ![] bcast_S_S500000 : (⟨S_, .i32⟩ : BufTy).Contents (Elt F) → (⟨S500000, .i32⟩ : BufTy).Contents (Elt F)),
    binary main_v3 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v3 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg0 main_v16 main_v17 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nary ![main_v10, main_v17, main_arg2] main_v18 (fun u => concatenate S500000x384 1 [⟨S500000x128, u 0⟩, ⟨S500000x128, u 1⟩, ⟨S500000x128, u 2⟩] concatenates_S500000x128_S500000x128_S500000x128_S500000x384_d1),
    binary main_v18 main_arg3 main_v19 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S500000x128 ![0, 1] bcast_S1x128_S500000x128_0_1 : (⟨S1x128, .f32⟩ : BufTy).Contents (Elt F) → (⟨S500000x128, .f32⟩ : BufTy).Contents (Elt F)),
    binary main_v19 main_v21 main_v22 (addf : (⟨S500000x128, .f32⟩ : BufTy).Contents (Elt F) → (⟨S500000x128, .f32⟩ : BufTy).Contents (Elt F) → (⟨S500000x128, .f32⟩ : BufTy).Contents (Elt F)),
    nullary main_cst (constant S_ .f32 0x00000000#32),
    binary main_v22 main_cst main_v23 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v23 main_v24 (broadcastInDim S500000x1 ![0] bcast_S500000_S500000x1_0 : (⟨S500000, .f32⟩ : BufTy).Contents (Elt F) → (⟨S500000x1, .f32⟩ : BufTy).Contents (Elt F)),
    nullary main_cst_3 (constant S_ .f32 0x43000000#32),
    unary main_cst_3 main_v25 (broadcastInDim S500000x1 ![] bcast_S_S500000x1 : (⟨S_, .f32⟩ : BufTy).Contents (Elt F) → (⟨S500000x1, .f32⟩ : BufTy).Contents (Elt F)),
    binary main_v24 main_v25 main_v26 (Host.divf : (⟨S500000x1, .f32⟩ : BufTy).Contents (Elt F) → (⟨S500000x1, .f32⟩ : BufTy).Contents (Elt F) → (⟨S500000x1, .f32⟩ : BufTy).Contents (Elt F)),
    unary main_v26 main_v27 (broadcastInDim S500000x128 ![0, 1] bcast_S500000x1_S500000x128_0_1 : (⟨S500000x1, .f32⟩ : BufTy).Contents (Elt F) → (⟨S500000x128, .f32⟩ : BufTy).Contents (Elt F)),
    binary main_v22 main_v27 main_v28 (subf : (⟨S500000x128, .f32⟩ : BufTy).Contents (Elt F) → (⟨S500000x128, .f32⟩ : BufTy).Contents (Elt F) → (⟨S500000x128, .f32⟩ : BufTy).Contents (Elt F)),
    binary main_v28 main_v28 main_v29 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v29 main_cst_4 main_v30 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v30 main_v31 (broadcastInDim S500000x1 ![0] bcast_S500000_S500000x1_0 : (⟨S500000, .f32⟩ : BufTy).Contents (Elt F) → (⟨S500000x1, .f32⟩ : BufTy).Contents (Elt F)),
    nullary main_cst_5 (constant S_ .f32 0x43000000#32),
    unary main_cst_5 main_v32 (broadcastInDim S500000x1 ![] bcast_S_S500000x1 : (⟨S_, .f32⟩ : BufTy).Contents (Elt F) → (⟨S500000x1, .f32⟩ : BufTy).Contents (Elt F)),
    binary main_v31 main_v32 main_v33 (Host.divf : (⟨S500000x1, .f32⟩ : BufTy).Contents (Elt F) → (⟨S500000x1, .f32⟩ : BufTy).Contents (Elt F) → (⟨S500000x1, .f32⟩ : BufTy).Contents (Elt F)),
    unary main_v26 main_v34 (broadcastInDim S500000x128 ![0, 1] bcast_S500000x1_S500000x128_0_1 : (⟨S500000x1, .f32⟩ : BufTy).Contents (Elt F) → (⟨S500000x128, .f32⟩ : BufTy).Contents (Elt F)),
    binary main_v22 main_v34 main_v35 (subf : (⟨S500000x128, .f32⟩ : BufTy).Contents (Elt F) → (⟨S500000x128, .f32⟩ : BufTy).Contents (Elt F) → (⟨S500000x128, .f32⟩ : BufTy).Contents (Elt F)),
    nullary main_cst_6 (constant S_ .f32 0x3727C5AC#32),
    unary main_cst_6 main_v36 (broadcastInDim S500000x1 ![] bcast_S_S500000x1 : (⟨S_, .f32⟩ : BufTy).Contents (Elt F) → (⟨S500000x1, .f32⟩ : BufTy).Contents (Elt F)),
    binary main_v33 main_v36 main_v37 (addf : (⟨S500000x1, .f32⟩ : BufTy).Contents (Elt F) → (⟨S500000x1, .f32⟩ : BufTy).Contents (Elt F) → (⟨S500000x1, .f32⟩ : BufTy).Contents (Elt F)),
    unary main_v37 main_v38 (Host.rsqrt : (⟨S500000x1, .f32⟩ : BufTy).Contents (Elt F) → (⟨S500000x1, .f32⟩ : BufTy).Contents (Elt F)),
    unary main_v38 main_v39 (broadcastInDim S500000x128 ![0, 1] bcast_S500000x1_S500000x128_0_1 : (⟨S500000x1, .f32⟩ : BufTy).Contents (Elt F) → (⟨S500000x128, .f32⟩ : BufTy).Contents (Elt F)),
    binary main_v35 main_v39 main_v40 (mulf : (⟨S500000x128, .f32⟩ : BufTy).Contents (Elt F) → (⟨S500000x128, .f32⟩ : BufTy).Contents (Elt F) → (⟨S500000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S500000x128 ![0, 1] bcast_S1x128_S500000x128_0_1 : (⟨S1x128, .f32⟩ : BufTy).Contents (Elt F) → (⟨S500000x128, .f32⟩ : BufTy).Contents (Elt F)),
    binary main_v40 main_v42 main_v43 (mulf : (⟨S500000x128, .f32⟩ : BufTy).Contents (Elt F) → (⟨S500000x128, .f32⟩ : BufTy).Contents (Elt F) → (⟨S500000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S500000x128 ![0, 1] bcast_S1x128_S500000x128_0_1 : (⟨S1x128, .f32⟩ : BufTy).Contents (Elt F) → (⟨S500000x128, .f32⟩ : BufTy).Contents (Elt F)),
    binary main_v43 main_v45 main_v46 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x128, .f32⟩) main_call0_v0) (broadcastInDim S500000x128 ![] bcast_S_S500000x128),
    TRef.binary (TRef.of (T := ⟨S500000x128, .f32⟩) main_v46) (TRef.of (T := ⟨S500000x128, .f32⟩) main_call0_v0) (TRef.of (T := ⟨S500000x128, .f32⟩) main_v47) maximumf,
    binary main_v47 main_arg7 main_v48 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg8 main_v49 (broadcastInDim S1x128 ![1] bcast_S128_S1x128_1 : (⟨S128, .f32⟩ : BufTy).Contents (Elt F) → (⟨S1x128, .f32⟩ : BufTy).Contents (Elt F)),
    unary main_v49 main_v50 (broadcastInDim S500000x128 ![0, 1] bcast_S1x128_S500000x128_0_1 : (⟨S1x128, .f32⟩ : BufTy).Contents (Elt F) → (⟨S500000x128, .f32⟩ : BufTy).Contents (Elt F)),
    binary main_v48 main_v50 main_v51 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x00000000#32),
    binary main_v51 main_cst_7 main_v52 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v52 main_v53 (broadcastInDim S500000x1 ![0] bcast_S500000_S500000x1_0 : (⟨S500000, .f32⟩ : BufTy).Contents (Elt F) → (⟨S500000x1, .f32⟩ : BufTy).Contents (Elt F)),
    nullary main_cst_8 (constant S_ .f32 0x43000000#32),
    unary main_cst_8 main_v54 (broadcastInDim S500000x1 ![] bcast_S_S500000x1 : (⟨S_, .f32⟩ : BufTy).Contents (Elt F) → (⟨S500000x1, .f32⟩ : BufTy).Contents (Elt F)),
    binary main_v53 main_v54 main_v55 (Host.divf : (⟨S500000x1, .f32⟩ : BufTy).Contents (Elt F) → (⟨S500000x1, .f32⟩ : BufTy).Contents (Elt F) → (⟨S500000x1, .f32⟩ : BufTy).Contents (Elt F)),
    unary main_v55 main_v56 (broadcastInDim S500000x128 ![0, 1] bcast_S500000x1_S500000x128_0_1 : (⟨S500000x1, .f32⟩ : BufTy).Contents (Elt F) → (⟨S500000x128, .f32⟩ : BufTy).Contents (Elt F)),
    binary main_v51 main_v56 main_v57 (subf : (⟨S500000x128, .f32⟩ : BufTy).Contents (Elt F) → (⟨S500000x128, .f32⟩ : BufTy).Contents (Elt F) → (⟨S500000x128, .f32⟩ : BufTy).Contents (Elt F)),
    binary main_v57 main_v57 main_v58 (mulf : (⟨S500000x128, .f32⟩ : BufTy).Contents (Elt F) → (⟨S500000x128, .f32⟩ : BufTy).Contents (Elt F) → (⟨S500000x128, .f32⟩ : BufTy).Contents (Elt F)),
    nullary main_cst_9 (constant S_ .f32 0x00000000#32),
    binary main_v58 main_cst_9 main_v59 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v59 main_v60 (broadcastInDim S500000x1 ![0] bcast_S500000_S500000x1_0 : (⟨S500000, .f32⟩ : BufTy).Contents (Elt F) → (⟨S500000x1, .f32⟩ : BufTy).Contents (Elt F)),
    nullary main_cst_10 (constant S_ .f32 0x43000000#32),
    unary main_cst_10 main_v61 (broadcastInDim S500000x1 ![] bcast_S_S500000x1 : (⟨S_, .f32⟩ : BufTy).Contents (Elt F) → (⟨S500000x1, .f32⟩ : BufTy).Contents (Elt F)),
    binary main_v60 main_v61 main_v62 (Host.divf : (⟨S500000x1, .f32⟩ : BufTy).Contents (Elt F) → (⟨S500000x1, .f32⟩ : BufTy).Contents (Elt F) → (⟨S500000x1, .f32⟩ : BufTy).Contents (Elt F)),
    unary main_v55 main_v63 (broadcastInDim S500000x128 ![0, 1] bcast_S500000x1_S500000x128_0_1 : (⟨S500000x1, .f32⟩ : BufTy).Contents (Elt F) → (⟨S500000x128, .f32⟩ : BufTy).Contents (Elt F)),
    binary main_v51 main_v63 main_v64 (subf : (⟨S500000x128, .f32⟩ : BufTy).Contents (Elt F) → (⟨S500000x128, .f32⟩ : BufTy).Contents (Elt F) → (⟨S500000x128, .f32⟩ : BufTy).Contents (Elt F)),
    nullary main_cst_11 (constant S_ .f32 0x3727C5AC#32),
    unary main_cst_11 main_v65 (broadcastInDim S500000x1 ![] bcast_S_S500000x1 : (⟨S_, .f32⟩ : BufTy).Contents (Elt F) → (⟨S500000x1, .f32⟩ : BufTy).Contents (Elt F)),
    binary main_v62 main_v65 main_v66 (addf : (⟨S500000x1, .f32⟩ : BufTy).Contents (Elt F) → (⟨S500000x1, .f32⟩ : BufTy).Contents (Elt F) → (⟨S500000x1, .f32⟩ : BufTy).Contents (Elt F)),
    unary main_v66 main_v67 (Host.rsqrt : (⟨S500000x1, .f32⟩ : BufTy).Contents (Elt F) → (⟨S500000x1, .f32⟩ : BufTy).Contents (Elt F)),
    unary main_v67 main_v68 (broadcastInDim S500000x128 ![0, 1] bcast_S500000x1_S500000x128_0_1 : (⟨S500000x1, .f32⟩ : BufTy).Contents (Elt F) → (⟨S500000x128, .f32⟩ : BufTy).Contents (Elt F)),
    binary main_v64 main_v68 main_v69 (mulf : (⟨S500000x128, .f32⟩ : BufTy).Contents (Elt F) → (⟨S500000x128, .f32⟩ : BufTy).Contents (Elt F) → (⟨S500000x128, .f32⟩ : BufTy).Contents (Elt F)),
    unary main_arg9 main_v70 (broadcastInDim S1x128 ![1] bcast_S128_S1x128_1 : (⟨S128, .f32⟩ : BufTy).Contents (Elt F) → (⟨S1x128, .f32⟩ : BufTy).Contents (Elt F)),
    unary main_v70 main_v71 (broadcastInDim S500000x128 ![0, 1] bcast_S1x128_S500000x128_0_1 : (⟨S1x128, .f32⟩ : BufTy).Contents (Elt F) → (⟨S500000x128, .f32⟩ : BufTy).Contents (Elt F)),
    binary main_v69 main_v71 main_v72 (mulf : (⟨S500000x128, .f32⟩ : BufTy).Contents (Elt F) → (⟨S500000x128, .f32⟩ : BufTy).Contents (Elt F) → (⟨S500000x128, .f32⟩ : BufTy).Contents (Elt F)),
    unary main_arg10 main_v73 (broadcastInDim S1x128 ![1] bcast_S128_S1x128_1 : (⟨S128, .f32⟩ : BufTy).Contents (Elt F) → (⟨S1x128, .f32⟩ : BufTy).Contents (Elt F)),
    unary main_v73 main_v74 (broadcastInDim S500000x128 ![0, 1] bcast_S1x128_S500000x128_0_1 : (⟨S1x128, .f32⟩ : BufTy).Contents (Elt F) → (⟨S500000x128, .f32⟩ : BufTy).Contents (Elt F)),
    binary main_v72 main_v74 main_v75 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x128, .f32⟩) main_call1_v0) (broadcastInDim S500000x128 ![] bcast_S_S500000x128),
    TRef.binary (TRef.of (T := ⟨S500000x128, .f32⟩) main_v75) (TRef.of (T := ⟨S500000x128, .f32⟩) main_call1_v0) (TRef.of (T := ⟨S500000x128, .f32⟩) main_v76) maximumf,
    binary main_v76 main_arg11 main_v77 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg12 main_v78 (broadcastInDim S1x128 ![1] bcast_S128_S1x128_1 : (⟨S128, .f32⟩ : BufTy).Contents (Elt F) → (⟨S1x128, .f32⟩ : BufTy).Contents (Elt F)),
    unary main_v78 main_v79 (broadcastInDim S500000x128 ![0, 1] bcast_S1x128_S500000x128_0_1 : (⟨S1x128, .f32⟩ : BufTy).Contents (Elt F) → (⟨S500000x128, .f32⟩ : BufTy).Contents (Elt F)),
    binary main_v77 main_v79 main_v80 (addf : (⟨S500000x128, .f32⟩ : BufTy).Contents (Elt F) → (⟨S500000x128, .f32⟩ : BufTy).Contents (Elt F) → (⟨S500000x128, .f32⟩ : BufTy).Contents (Elt F)),
    nullary main_cst_12 (constant S_ .f32 0x00000000#32),
    binary main_v80 main_cst_12 main_v81 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v81 main_v82 (broadcastInDim S500000x1 ![0] bcast_S500000_S500000x1_0 : (⟨S500000, .f32⟩ : BufTy).Contents (Elt F) → (⟨S500000x1, .f32⟩ : BufTy).Contents (Elt F)),
    nullary main_cst_13 (constant S_ .f32 0x43000000#32),
    unary main_cst_13 main_v83 (broadcastInDim S500000x1 ![] bcast_S_S500000x1 : (⟨S_, .f32⟩ : BufTy).Contents (Elt F) → (⟨S500000x1, .f32⟩ : BufTy).Contents (Elt F)),
    binary main_v82 main_v83 main_v84 (Host.divf : (⟨S500000x1, .f32⟩ : BufTy).Contents (Elt F) → (⟨S500000x1, .f32⟩ : BufTy).Contents (Elt F) → (⟨S500000x1, .f32⟩ : BufTy).Contents (Elt F)),
    unary main_v84 main_v85 (broadcastInDim S500000x128 ![0, 1] bcast_S500000x1_S500000x128_0_1 : (⟨S500000x1, .f32⟩ : BufTy).Contents (Elt F) → (⟨S500000x128, .f32⟩ : BufTy).Contents (Elt F)),
    binary main_v80 main_v85 main_v86 (subf : (⟨S500000x128, .f32⟩ : BufTy).Contents (Elt F) → (⟨S500000x128, .f32⟩ : BufTy).Contents (Elt F) → (⟨S500000x128, .f32⟩ : BufTy).Contents (Elt F)),
    binary main_v86 main_v86 main_v87 (mulf : (⟨S500000x128, .f32⟩ : BufTy).Contents (Elt F) → (⟨S500000x128, .f32⟩ : BufTy).Contents (Elt F) → (⟨S500000x128, .f32⟩ : BufTy).Contents (Elt F)),
    nullary main_cst_14 (constant S_ .f32 0x00000000#32),
    binary main_v87 main_cst_14 main_v88 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v88 main_v89 (broadcastInDim S500000x1 ![0] bcast_S500000_S500000x1_0 : (⟨S500000, .f32⟩ : BufTy).Contents (Elt F) → (⟨S500000x1, .f32⟩ : BufTy).Contents (Elt F)),
    nullary main_cst_15 (constant S_ .f32 0x43000000#32),
    unary main_cst_15 main_v90 (broadcastInDim S500000x1 ![] bcast_S_S500000x1 : (⟨S_, .f32⟩ : BufTy).Contents (Elt F) → (⟨S500000x1, .f32⟩ : BufTy).Contents (Elt F)),
    binary main_v89 main_v90 main_v91 (Host.divf : (⟨S500000x1, .f32⟩ : BufTy).Contents (Elt F) → (⟨S500000x1, .f32⟩ : BufTy).Contents (Elt F) → (⟨S500000x1, .f32⟩ : BufTy).Contents (Elt F)),
    unary main_v84 main_v92 (broadcastInDim S500000x128 ![0, 1] bcast_S500000x1_S500000x128_0_1 : (⟨S500000x1, .f32⟩ : BufTy).Contents (Elt F) → (⟨S500000x128, .f32⟩ : BufTy).Contents (Elt F)),
    binary main_v80 main_v92 main_v93 (subf : (⟨S500000x128, .f32⟩ : BufTy).Contents (Elt F) → (⟨S500000x128, .f32⟩ : BufTy).Contents (Elt F) → (⟨S500000x128, .f32⟩ : BufTy).Contents (Elt F)),
    nullary main_cst_16 (constant S_ .f32 0x3727C5AC#32),
    unary main_cst_16 main_v94 (broadcastInDim S500000x1 ![] bcast_S_S500000x1 : (⟨S_, .f32⟩ : BufTy).Contents (Elt F) → (⟨S500000x1, .f32⟩ : BufTy).Contents (Elt F)),
    binary main_v91 main_v94 main_v95 (addf : (⟨S500000x1, .f32⟩ : BufTy).Contents (Elt F) → (⟨S500000x1, .f32⟩ : BufTy).Contents (Elt F) → (⟨S500000x1, .f32⟩ : BufTy).Contents (Elt F)),
    unary main_v95 main_v96 (Host.rsqrt : (⟨S500000x1, .f32⟩ : BufTy).Contents (Elt F) → (⟨S500000x1, .f32⟩ : BufTy).Contents (Elt F)),
    unary main_v96 main_v97 (broadcastInDim S500000x128 ![0, 1] bcast_S500000x1_S500000x128_0_1 : (⟨S500000x1, .f32⟩ : BufTy).Contents (Elt F) → (⟨S500000x128, .f32⟩ : BufTy).Contents (Elt F)),
    binary main_v93 main_v97 main_v98 (mulf : (⟨S500000x128, .f32⟩ : BufTy).Contents (Elt F) → (⟨S500000x128, .f32⟩ : BufTy).Contents (Elt F) → (⟨S500000x128, .f32⟩ : BufTy).Contents (Elt F)),
    unary main_arg13 main_v99 (broadcastInDim S1x128 ![1] bcast_S128_S1x128_1 : (⟨S128, .f32⟩ : BufTy).Contents (Elt F) → (⟨S1x128, .f32⟩ : BufTy).Contents (Elt F)),
    unary main_v99 main_v100 (broadcastInDim S500000x128 ![0, 1] bcast_S1x128_S500000x128_0_1 : (⟨S1x128, .f32⟩ : BufTy).Contents (Elt F) → (⟨S500000x128, .f32⟩ : BufTy).Contents (Elt F)),
    binary main_v98 main_v100 main_v101 (mulf : (⟨S500000x128, .f32⟩ : BufTy).Contents (Elt F) → (⟨S500000x128, .f32⟩ : BufTy).Contents (Elt F) → (⟨S500000x128, .f32⟩ : BufTy).Contents (Elt F)),
    unary main_arg14 main_v102 (broadcastInDim S1x128 ![1] bcast_S128_S1x128_1 : (⟨S128, .f32⟩ : BufTy).Contents (Elt F) → (⟨S1x128, .f32⟩ : BufTy).Contents (Elt F)),
    unary main_v102 main_v103 (broadcastInDim S500000x128 ![0, 1] bcast_S1x128_S500000x128_0_1 : (⟨S1x128, .f32⟩ : BufTy).Contents (Elt F) → (⟨S500000x128, .f32⟩ : BufTy).Contents (Elt F)),
    binary main_v101 main_v103 main_v104 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x128, .f32⟩) main_call2_v0) (broadcastInDim S500000x128 ![] bcast_S_S500000x128),
    TRef.binary (TRef.of (T := ⟨S500000x128, .f32⟩) main_v104) (TRef.of (T := ⟨S500000x128, .f32⟩) main_call2_v0) (TRef.of (T := ⟨S500000x128, .f32⟩) main_v105) maximumf,
    binary main_v105 main_arg15 main_v106 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg16 main_v107 (broadcastInDim S1x1 ![1] bcast_S1_S1x1_1 : (⟨S1, .f32⟩ : BufTy).Contents (Elt F) → (⟨S1x1, .f32⟩ : BufTy).Contents (Elt F)),
    unary main_v107 main_v108 (broadcastInDim S500000x1 ![0, 1] bcast_S1x1_S500000x1_0_1 : (⟨S1x1, .f32⟩ : BufTy).Contents (Elt F) → (⟨S500000x1, .f32⟩ : BufTy).Contents (Elt F)),
    binary main_v106 main_v108 main_v109 (addf : (⟨S500000x1, .f32⟩ : BufTy).Contents (Elt F) → (⟨S500000x1, .f32⟩ : BufTy).Contents (Elt F) → (⟨S500000x1, .f32⟩ : BufTy).Contents (Elt F)),
    reshape main_v109 main_v110 rfl shapeCasts_S500000x1_S500000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- The line's first stretch: the two index rows sliced, flattened and wrapped, and the two gathers of node rows. -/
def ops0 : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v1 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 100000#32),
    unary main_c_0 main_v6 (broadcastInDim S500000 ![] bcast_S_S500000 : (⟨S_, .i32⟩ : BufTy).Contents (Elt F) → (⟨S500000, .i32⟩ : BufTy).Contents (Elt F)),
    binary main_v1 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg0 main_v9 main_v10 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v3 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 100000#32),
    unary main_c_2 main_v13 (broadcastInDim S500000 ![] bcast_S_S500000 : (⟨S_, .i32⟩ : BufTy).Contents (Elt F) → (⟨S500000, .i32⟩ : BufTy).Contents (Elt F)),
    binary main_v3 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v3 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg0 main_v16 main_v17 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]

/-- The references `ops0` writes. -/
abbrev ops0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

theorem ops0_writes : (ops0 : List (HloOp τ sig (Elt F))).Forall fun op => op.writes ⊆ (ops0_W.map (Proc.devRef (τ := τ) .tc)).toFinset := by
  unfold ops0
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A reference `ops0` does not write keeps its contents through it. -/
theorem ops0_keep (W : Valuation τ sig (Elt F)) (r : Ref sig .tc) (h : r ∉ ops0_W) :
    after ops0 W (Proc.devRef .tc r) = W (Proc.devRef .tc r) :=
  after_of_writes_sub ops0 W ops0_writes h

theorem ops0_fresh : (ops0 : List (HloOp τ sig (Elt F))).Forall fun op => op.fresh = ∅ := by
  unfold ops0
  simp only [List.Forall]
  repeat' constructor

/-- From contents holding the node table and the index rows, the first stretch leaves the gathered source rows at `main_v10`. -/
theorem stage_v10 (W : Valuation τ sig (Elt F)) (x0 : (⟨S100000x128, .f32⟩ : BufTy).Contents (Elt F)) (x1 : (⟨S2x500000, .i32⟩ : BufTy).Contents (Elt F))
    (h0 : W (Proc.devRef .tc main_arg0) = x0)
    (h1 : W (Proc.devRef .tc main_arg1) = x1) :
    after ops0 W (Proc.devRef .tc main_v10) = val_main_v10 (F := F) x0 x1 := by
  unfold ops0
  after_results_simp
  rw [h0, h1]
  rfl

/-- … and the gathered destination rows at `main_v17`. -/
theorem stage_v17 (W : Valuation τ sig (Elt F)) (x0 : (⟨S100000x128, .f32⟩ : BufTy).Contents (Elt F)) (x1 : (⟨S2x500000, .i32⟩ : BufTy).Contents (Elt F))
    (h0 : W (Proc.devRef .tc main_arg0) = x0)
    (h1 : W (Proc.devRef .tc main_arg1) = x1) :
    after ops0 W (Proc.devRef .tc main_v17) = val_main_v17 (F := F) x0 x1 := by
  unfold ops0
  after_results_simp
  rw [h0, h1]
  rfl

/-- `nary` over a literal family of three references: the result with each operand's contents at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The concatenate of the two gathered matrices and the edges' own rows. -/
def opsC : List (HloOp τ sig (Elt F)) :=
  [ nary ![main_v10, main_v17, main_arg2] main_v18 (fun u => concatenate S500000x384 1 [⟨S500000x128, u 0⟩, ⟨S500000x128, u 1⟩, ⟨S500000x128, u 2⟩] concatenates_S500000x128_S500000x128_S500000x128_S500000x384_d1) ]

/-- The references `opsC` writes. -/
abbrev opsC_W : List (Ref sig .tc) := [main_v18]

theorem opsC_writes : (opsC : List (HloOp τ sig (Elt F))).Forall fun op => op.writes ⊆ (opsC_W.map (Proc.devRef (τ := τ) .tc)).toFinset := by
  unfold opsC
  simp only [List.Forall]
  exact (by simp only [nullary_writes, unary_writes, binary_writes, ternary_writes, quaternary_writes, reshape_writes, binaryIndexed_writes, unaryIndexed_writes, nary_writes, Finset.singleton_subset_iff, List.mem_toFinset]; exact List.mem_map_of_mem (by decide))

/-- A reference `opsC` does not write keeps its contents through it. -/
theorem opsC_keep (W : Valuation τ sig (Elt F)) (r : Ref sig .tc) (h : r ∉ opsC_W) :
    after opsC W (Proc.devRef .tc r) = W (Proc.devRef .tc r) :=
  after_of_writes_sub opsC W opsC_writes h

theorem opsC_fresh : (opsC : List (HloOp τ sig (Elt F))).Forall fun op => op.fresh = ∅ := by
  unfold opsC
  simp only [List.Forall]
  rfl

/-- From contents holding the two gathered matrices and the edges' rows, the concatenate leaves the stage `main_v18`. -/
theorem stage_v18 (W : Valuation τ sig (Elt F)) (x0 : (⟨S100000x128, .f32⟩ : BufTy).Contents (Elt F)) (x1 : (⟨S2x500000, .i32⟩ : BufTy).Contents (Elt F)) (x2 : (⟨S500000x128, .f32⟩ : BufTy).Contents (Elt F))
    (h10 : W (Proc.devRef .tc main_v10) = val_main_v10 (F := F) x0 x1)
    (h17 : W (Proc.devRef .tc main_v17) = val_main_v17 (F := F) x0 x1)
    (h2 : W (Proc.devRef .tc main_arg2) = x2) :
    after opsC W (Proc.devRef .tc main_v18) = val_main_v18 (F := F) x0 x1 x2 := by
  unfold opsC
  simp only [after_cons, after_nil]
  rw [nary3_result, h10, h17, h2]
  rfl

/-- Layer 0: the first affine map, its layer normalisation and the rectifier. -/
def ops1 : List (HloOp τ sig (Elt F)) :=
  [ binary main_v18 main_arg3 main_v19 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S500000x128 ![0, 1] bcast_S1x128_S500000x128_0_1 : (⟨S1x128, .f32⟩ : BufTy).Contents (Elt F) → (⟨S500000x128, .f32⟩ : BufTy).Contents (Elt F)),
    binary main_v19 main_v21 main_v22 (addf : (⟨S500000x128, .f32⟩ : BufTy).Contents (Elt F) → (⟨S500000x128, .f32⟩ : BufTy).Contents (Elt F) → (⟨S500000x128, .f32⟩ : BufTy).Contents (Elt F)),
    nullary main_cst (constant S_ .f32 0x00000000#32),
    binary main_v22 main_cst main_v23 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v23 main_v24 (broadcastInDim S500000x1 ![0] bcast_S500000_S500000x1_0 : (⟨S500000, .f32⟩ : BufTy).Contents (Elt F) → (⟨S500000x1, .f32⟩ : BufTy).Contents (Elt F)),
    nullary main_cst_3 (constant S_ .f32 0x43000000#32),
    unary main_cst_3 main_v25 (broadcastInDim S500000x1 ![] bcast_S_S500000x1 : (⟨S_, .f32⟩ : BufTy).Contents (Elt F) → (⟨S500000x1, .f32⟩ : BufTy).Contents (Elt F)),
    binary main_v24 main_v25 main_v26 (Host.divf : (⟨S500000x1, .f32⟩ : BufTy).Contents (Elt F) → (⟨S500000x1, .f32⟩ : BufTy).Contents (Elt F) → (⟨S500000x1, .f32⟩ : BufTy).Contents (Elt F)),
    unary main_v26 main_v27 (broadcastInDim S500000x128 ![0, 1] bcast_S500000x1_S500000x128_0_1 : (⟨S500000x1, .f32⟩ : BufTy).Contents (Elt F) → (⟨S500000x128, .f32⟩ : BufTy).Contents (Elt F)),
    binary main_v22 main_v27 main_v28 (subf : (⟨S500000x128, .f32⟩ : BufTy).Contents (Elt F) → (⟨S500000x128, .f32⟩ : BufTy).Contents (Elt F) → (⟨S500000x128, .f32⟩ : BufTy).Contents (Elt F)),
    binary main_v28 main_v28 main_v29 (mulf : (⟨S500000x128, .f32⟩ : BufTy).Contents (Elt F) → (⟨S500000x128, .f32⟩ : BufTy).Contents (Elt F) → (⟨S500000x128, .f32⟩ : BufTy).Contents (Elt F)),
    nullary main_cst_4 (constant S_ .f32 0x00000000#32),
    binary main_v29 main_cst_4 main_v30 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v30 main_v31 (broadcastInDim S500000x1 ![0] bcast_S500000_S500000x1_0 : (⟨S500000, .f32⟩ : BufTy).Contents (Elt F) → (⟨S500000x1, .f32⟩ : BufTy).Contents (Elt F)),
    nullary main_cst_5 (constant S_ .f32 0x43000000#32),
    unary main_cst_5 main_v32 (broadcastInDim S500000x1 ![] bcast_S_S500000x1 : (⟨S_, .f32⟩ : BufTy).Contents (Elt F) → (⟨S500000x1, .f32⟩ : BufTy).Contents (Elt F)),
    binary main_v31 main_v32 main_v33 (Host.divf : (⟨S500000x1, .f32⟩ : BufTy).Contents (Elt F) → (⟨S500000x1, .f32⟩ : BufTy).Contents (Elt F) → (⟨S500000x1, .f32⟩ : BufTy).Contents (Elt F)),
    unary main_v26 main_v34 (broadcastInDim S500000x128 ![0, 1] bcast_S500000x1_S500000x128_0_1 : (⟨S500000x1, .f32⟩ : BufTy).Contents (Elt F) → (⟨S500000x128, .f32⟩ : BufTy).Contents (Elt F)),
    binary main_v22 main_v34 main_v35 (subf : (⟨S500000x128, .f32⟩ : BufTy).Contents (Elt F) → (⟨S500000x128, .f32⟩ : BufTy).Contents (Elt F) → (⟨S500000x128, .f32⟩ : BufTy).Contents (Elt F)),
    nullary main_cst_6 (constant S_ .f32 0x3727C5AC#32),
    unary main_cst_6 main_v36 (broadcastInDim S500000x1 ![] bcast_S_S500000x1 : (⟨S_, .f32⟩ : BufTy).Contents (Elt F) → (⟨S500000x1, .f32⟩ : BufTy).Contents (Elt F)),
    binary main_v33 main_v36 main_v37 (addf : (⟨S500000x1, .f32⟩ : BufTy).Contents (Elt F) → (⟨S500000x1, .f32⟩ : BufTy).Contents (Elt F) → (⟨S500000x1, .f32⟩ : BufTy).Contents (Elt F)),
    unary main_v37 main_v38 (Host.rsqrt : (⟨S500000x1, .f32⟩ : BufTy).Contents (Elt F) → (⟨S500000x1, .f32⟩ : BufTy).Contents (Elt F)),
    unary main_v38 main_v39 (broadcastInDim S500000x128 ![0, 1] bcast_S500000x1_S500000x128_0_1 : (⟨S500000x1, .f32⟩ : BufTy).Contents (Elt F) → (⟨S500000x128, .f32⟩ : BufTy).Contents (Elt F)),
    binary main_v35 main_v39 main_v40 (mulf : (⟨S500000x128, .f32⟩ : BufTy).Contents (Elt F) → (⟨S500000x128, .f32⟩ : BufTy).Contents (Elt F) → (⟨S500000x128, .f32⟩ : BufTy).Contents (Elt F)),
    unary main_arg5 main_v41 (broadcastInDim S1x128 ![1] bcast_S128_S1x128_1 : (⟨S128, .f32⟩ : BufTy).Contents (Elt F) → (⟨S1x128, .f32⟩ : BufTy).Contents (Elt F)),
    unary main_v41 main_v42 (broadcastInDim S500000x128 ![0, 1] bcast_S1x128_S500000x128_0_1 : (⟨S1x128, .f32⟩ : BufTy).Contents (Elt F) → (⟨S500000x128, .f32⟩ : BufTy).Contents (Elt F)),
    binary main_v40 main_v42 main_v43 (mulf : (⟨S500000x128, .f32⟩ : BufTy).Contents (Elt F) → (⟨S500000x128, .f32⟩ : BufTy).Contents (Elt F) → (⟨S500000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S500000x128 ![0, 1] bcast_S1x128_S500000x128_0_1 : (⟨S1x128, .f32⟩ : BufTy).Contents (Elt F) → (⟨S500000x128, .f32⟩ : BufTy).Contents (Elt F)),
    binary main_v43 main_v45 main_v46 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S500000x128, .f32⟩) main_call0_v0) (broadcastInDim S500000x128 ![] bcast_S_S500000x128),
    TRef.binary (TRef.of (T := ⟨S500000x128, .f32⟩) main_v46) (TRef.of (T := ⟨S500000x128, .f32⟩) main_call0_v0) (TRef.of (T := ⟨S500000x128, .f32⟩) main_v47) maximumf ]

/-- The references `ops1` writes. -/
abbrev ops1_W : List (Ref sig .tc) := [main_v19, main_v20, main_v21, main_v22, main_cst, main_v23, main_v24, main_cst_3, main_v25, main_v26, main_v27, main_v28, main_v29, main_cst_4, main_v30, main_v31, main_cst_5, main_v32, main_v33, main_v34, main_v35, main_cst_6, main_v36, main_v37, main_v38, main_v39, main_v40, main_v41, main_v42, main_v43, main_v44, main_v45, main_v46, main_call0_cst, main_call0_v0, main_v47]

theorem ops1_writes : (ops1 : List (HloOp τ sig (Elt F))).Forall fun op => op.writes ⊆ (ops1_W.map (Proc.devRef (τ := τ) .tc)).toFinset := by
  unfold ops1
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A reference `ops1` does not write keeps its contents through it. -/
theorem ops1_keep (W : Valuation τ sig (Elt F)) (r : Ref sig .tc) (h : r ∉ ops1_W) :
    after ops1 W (Proc.devRef .tc r) = W (Proc.devRef .tc r) :=
  after_of_writes_sub ops1 W ops1_writes h

theorem ops1_fresh : (ops1 : List (HloOp τ sig (Elt F))).Forall fun op => op.fresh = ∅ := by
  unfold ops1
  simp only [List.Forall]
  repeat' constructor

/-- From contents holding the stage `main_v18` and the parameters it reads, this stretch leaves the stage `main_v47`. -/
theorem stage_v47 (W : Valuation τ sig (Elt F)) (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F))
    (hin : W (Proc.devRef .tc main_v18) = val_main_v18 (F := F) x0 x1 x2)
    (h3 : W (Proc.devRef .tc main_arg3) = x3)
    (h4 : W (Proc.devRef .tc main_arg4) = x4)
    (h5 : W (Proc.devRef .tc main_arg5) = x5)
    (h6 : W (Proc.devRef .tc main_arg6) = x6) :
    after ops1 W (Proc.devRef .tc main_v47) = val_main_v47 (F := F) x0 x1 x2 x3 x4 x5 x6 := by
  unfold ops1
  after_results_simp
  rw [hin, h3, h4, h5, h6]
  rfl

/-- Layer 1. -/
def ops2 : List (HloOp τ sig (Elt F)) :=
  [ binary main_v47 main_arg7 main_v48 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg8 main_v49 (broadcastInDim S1x128 ![1] bcast_S128_S1x128_1 : (⟨S128, .f32⟩ : BufTy).Contents (Elt F) → (⟨S1x128, .f32⟩ : BufTy).Contents (Elt F)),
    unary main_v49 main_v50 (broadcastInDim S500000x128 ![0, 1] bcast_S1x128_S500000x128_0_1 : (⟨S1x128, .f32⟩ : BufTy).Contents (Elt F) → (⟨S500000x128, .f32⟩ : BufTy).Contents (Elt F)),
    binary main_v48 main_v50 main_v51 (addf : (⟨S500000x128, .f32⟩ : BufTy).Contents (Elt F) → (⟨S500000x128, .f32⟩ : BufTy).Contents (Elt F) → (⟨S500000x128, .f32⟩ : BufTy).Contents (Elt F)),
    nullary main_cst_7 (constant S_ .f32 0x00000000#32),
    binary main_v51 main_cst_7 main_v52 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v52 main_v53 (broadcastInDim S500000x1 ![0] bcast_S500000_S500000x1_0 : (⟨S500000, .f32⟩ : BufTy).Contents (Elt F) → (⟨S500000x1, .f32⟩ : BufTy).Contents (Elt F)),
    nullary main_cst_8 (constant S_ .f32 0x43000000#32),
    unary main_cst_8 main_v54 (broadcastInDim S500000x1 ![] bcast_S_S500000x1 : (⟨S_, .f32⟩ : BufTy).Contents (Elt F) → (⟨S500000x1, .f32⟩ : BufTy).Contents (Elt F)),
    binary main_v53 main_v54 main_v55 (Host.divf : (⟨S500000x1, .f32⟩ : BufTy).Contents (Elt F) → (⟨S500000x1, .f32⟩ : BufTy).Contents (Elt F) → (⟨S500000x1, .f32⟩ : BufTy).Contents (Elt F)),
    unary main_v55 main_v56 (broadcastInDim S500000x128 ![0, 1] bcast_S500000x1_S500000x128_0_1 : (⟨S500000x1, .f32⟩ : BufTy).Contents (Elt F) → (⟨S500000x128, .f32⟩ : BufTy).Contents (Elt F)),
    binary main_v51 main_v56 main_v57 (subf : (⟨S500000x128, .f32⟩ : BufTy).Contents (Elt F) → (⟨S500000x128, .f32⟩ : BufTy).Contents (Elt F) → (⟨S500000x128, .f32⟩ : BufTy).Contents (Elt F)),
    binary main_v57 main_v57 main_v58 (mulf : (⟨S500000x128, .f32⟩ : BufTy).Contents (Elt F) → (⟨S500000x128, .f32⟩ : BufTy).Contents (Elt F) → (⟨S500000x128, .f32⟩ : BufTy).Contents (Elt F)),
    nullary main_cst_9 (constant S_ .f32 0x00000000#32),
    binary main_v58 main_cst_9 main_v59 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v59 main_v60 (broadcastInDim S500000x1 ![0] bcast_S500000_S500000x1_0 : (⟨S500000, .f32⟩ : BufTy).Contents (Elt F) → (⟨S500000x1, .f32⟩ : BufTy).Contents (Elt F)),
    nullary main_cst_10 (constant S_ .f32 0x43000000#32),
    unary main_cst_10 main_v61 (broadcastInDim S500000x1 ![] bcast_S_S500000x1 : (⟨S_, .f32⟩ : BufTy).Contents (Elt F) → (⟨S500000x1, .f32⟩ : BufTy).Contents (Elt F)),
    binary main_v60 main_v61 main_v62 (Host.divf : (⟨S500000x1, .f32⟩ : BufTy).Contents (Elt F) → (⟨S500000x1, .f32⟩ : BufTy).Contents (Elt F) → (⟨S500000x1, .f32⟩ : BufTy).Contents (Elt F)),
    unary main_v55 main_v63 (broadcastInDim S500000x128 ![0, 1] bcast_S500000x1_S500000x128_0_1 : (⟨S500000x1, .f32⟩ : BufTy).Contents (Elt F) → (⟨S500000x128, .f32⟩ : BufTy).Contents (Elt F)),
    binary main_v51 main_v63 main_v64 (subf : (⟨S500000x128, .f32⟩ : BufTy).Contents (Elt F) → (⟨S500000x128, .f32⟩ : BufTy).Contents (Elt F) → (⟨S500000x128, .f32⟩ : BufTy).Contents (Elt F)),
    nullary main_cst_11 (constant S_ .f32 0x3727C5AC#32),
    unary main_cst_11 main_v65 (broadcastInDim S500000x1 ![] bcast_S_S500000x1 : (⟨S_, .f32⟩ : BufTy).Contents (Elt F) → (⟨S500000x1, .f32⟩ : BufTy).Contents (Elt F)),
    binary main_v62 main_v65 main_v66 (addf : (⟨S500000x1, .f32⟩ : BufTy).Contents (Elt F) → (⟨S500000x1, .f32⟩ : BufTy).Contents (Elt F) → (⟨S500000x1, .f32⟩ : BufTy).Contents (Elt F)),
    unary main_v66 main_v67 (Host.rsqrt : (⟨S500000x1, .f32⟩ : BufTy).Contents (Elt F) → (⟨S500000x1, .f32⟩ : BufTy).Contents (Elt F)),
    unary main_v67 main_v68 (broadcastInDim S500000x128 ![0, 1] bcast_S500000x1_S500000x128_0_1 : (⟨S500000x1, .f32⟩ : BufTy).Contents (Elt F) → (⟨S500000x128, .f32⟩ : BufTy).Contents (Elt F)),
    binary main_v64 main_v68 main_v69 (mulf : (⟨S500000x128, .f32⟩ : BufTy).Contents (Elt F) → (⟨S500000x128, .f32⟩ : BufTy).Contents (Elt F) → (⟨S500000x128, .f32⟩ : BufTy).Contents (Elt F)),
    unary main_arg9 main_v70 (broadcastInDim S1x128 ![1] bcast_S128_S1x128_1 : (⟨S128, .f32⟩ : BufTy).Contents (Elt F) → (⟨S1x128, .f32⟩ : BufTy).Contents (Elt F)),
    unary main_v70 main_v71 (broadcastInDim S500000x128 ![0, 1] bcast_S1x128_S500000x128_0_1 : (⟨S1x128, .f32⟩ : BufTy).Contents (Elt F) → (⟨S500000x128, .f32⟩ : BufTy).Contents (Elt F)),
    binary main_v69 main_v71 main_v72 (mulf : (⟨S500000x128, .f32⟩ : BufTy).Contents (Elt F) → (⟨S500000x128, .f32⟩ : BufTy).Contents (Elt F) → (⟨S500000x128, .f32⟩ : BufTy).Contents (Elt F)),
    unary main_arg10 main_v73 (broadcastInDim S1x128 ![1] bcast_S128_S1x128_1 : (⟨S128, .f32⟩ : BufTy).Contents (Elt F) → (⟨S1x128, .f32⟩ : BufTy).Contents (Elt F)),
    unary main_v73 main_v74 (broadcastInDim S500000x128 ![0, 1] bcast_S1x128_S500000x128_0_1 : (⟨S1x128, .f32⟩ : BufTy).Contents (Elt F) → (⟨S500000x128, .f32⟩ : BufTy).Contents (Elt F)),
    binary main_v72 main_v74 main_v75 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x128, .f32⟩) main_call1_v0) (broadcastInDim S500000x128 ![] bcast_S_S500000x128),
    TRef.binary (TRef.of (T := ⟨S500000x128, .f32⟩) main_v75) (TRef.of (T := ⟨S500000x128, .f32⟩) main_call1_v0) (TRef.of (T := ⟨S500000x128, .f32⟩) main_v76) maximumf ]

/-- The references `ops2` writes. -/
abbrev ops2_W : List (Ref sig .tc) := [main_v48, main_v49, main_v50, main_v51, main_cst_7, main_v52, main_v53, main_cst_8, main_v54, main_v55, main_v56, main_v57, main_v58, main_cst_9, main_v59, main_v60, main_cst_10, main_v61, main_v62, main_v63, main_v64, main_cst_11, main_v65, main_v66, main_v67, main_v68, main_v69, main_v70, main_v71, main_v72, main_v73, main_v74, main_v75, main_call1_cst, main_call1_v0, main_v76]

theorem ops2_writes : (ops2 : List (HloOp τ sig (Elt F))).Forall fun op => op.writes ⊆ (ops2_W.map (Proc.devRef (τ := τ) .tc)).toFinset := by
  unfold ops2
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A reference `ops2` does not write keeps its contents through it. -/
theorem ops2_keep (W : Valuation τ sig (Elt F)) (r : Ref sig .tc) (h : r ∉ ops2_W) :
    after ops2 W (Proc.devRef .tc r) = W (Proc.devRef .tc r) :=
  after_of_writes_sub ops2 W ops2_writes h

theorem ops2_fresh : (ops2 : List (HloOp τ sig (Elt F))).Forall fun op => op.fresh = ∅ := by
  unfold ops2
  simp only [List.Forall]
  repeat' constructor

/-- From contents holding the stage `main_v47` and the parameters it reads, this stretch leaves the stage `main_v76`. -/
theorem stage_v76 (W : Valuation τ sig (Elt F)) (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F))
    (hin : W (Proc.devRef .tc main_v47) = val_main_v47 (F := F) x0 x1 x2 x3 x4 x5 x6)
    (h7 : W (Proc.devRef .tc main_arg7) = x7)
    (h8 : W (Proc.devRef .tc main_arg8) = x8)
    (h9 : W (Proc.devRef .tc main_arg9) = x9)
    (h10 : W (Proc.devRef .tc main_arg10) = x10) :
    after ops2 W (Proc.devRef .tc main_v76) = val_main_v76 (F := F) x0 x1 x2 x3 x4 x5 x6 x7 x8 x9 x10 := by
  unfold ops2
  after_results_simp
  rw [hin, h7, h8, h9, h10]
  rfl

/-- Layer 2. -/
def ops3 : List (HloOp τ sig (Elt F)) :=
  [ binary main_v76 main_arg11 main_v77 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg12 main_v78 (broadcastInDim S1x128 ![1] bcast_S128_S1x128_1 : (⟨S128, .f32⟩ : BufTy).Contents (Elt F) → (⟨S1x128, .f32⟩ : BufTy).Contents (Elt F)),
    unary main_v78 main_v79 (broadcastInDim S500000x128 ![0, 1] bcast_S1x128_S500000x128_0_1 : (⟨S1x128, .f32⟩ : BufTy).Contents (Elt F) → (⟨S500000x128, .f32⟩ : BufTy).Contents (Elt F)),
    binary main_v77 main_v79 main_v80 (addf : (⟨S500000x128, .f32⟩ : BufTy).Contents (Elt F) → (⟨S500000x128, .f32⟩ : BufTy).Contents (Elt F) → (⟨S500000x128, .f32⟩ : BufTy).Contents (Elt F)),
    nullary main_cst_12 (constant S_ .f32 0x00000000#32),
    binary main_v80 main_cst_12 main_v81 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v81 main_v82 (broadcastInDim S500000x1 ![0] bcast_S500000_S500000x1_0 : (⟨S500000, .f32⟩ : BufTy).Contents (Elt F) → (⟨S500000x1, .f32⟩ : BufTy).Contents (Elt F)),
    nullary main_cst_13 (constant S_ .f32 0x43000000#32),
    unary main_cst_13 main_v83 (broadcastInDim S500000x1 ![] bcast_S_S500000x1 : (⟨S_, .f32⟩ : BufTy).Contents (Elt F) → (⟨S500000x1, .f32⟩ : BufTy).Contents (Elt F)),
    binary main_v82 main_v83 main_v84 (Host.divf : (⟨S500000x1, .f32⟩ : BufTy).Contents (Elt F) → (⟨S500000x1, .f32⟩ : BufTy).Contents (Elt F) → (⟨S500000x1, .f32⟩ : BufTy).Contents (Elt F)),
    unary main_v84 main_v85 (broadcastInDim S500000x128 ![0, 1] bcast_S500000x1_S500000x128_0_1 : (⟨S500000x1, .f32⟩ : BufTy).Contents (Elt F) → (⟨S500000x128, .f32⟩ : BufTy).Contents (Elt F)),
    binary main_v80 main_v85 main_v86 (subf : (⟨S500000x128, .f32⟩ : BufTy).Contents (Elt F) → (⟨S500000x128, .f32⟩ : BufTy).Contents (Elt F) → (⟨S500000x128, .f32⟩ : BufTy).Contents (Elt F)),
    binary main_v86 main_v86 main_v87 (mulf : (⟨S500000x128, .f32⟩ : BufTy).Contents (Elt F) → (⟨S500000x128, .f32⟩ : BufTy).Contents (Elt F) → (⟨S500000x128, .f32⟩ : BufTy).Contents (Elt F)),
    nullary main_cst_14 (constant S_ .f32 0x00000000#32),
    binary main_v87 main_cst_14 main_v88 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v88 main_v89 (broadcastInDim S500000x1 ![0] bcast_S500000_S500000x1_0 : (⟨S500000, .f32⟩ : BufTy).Contents (Elt F) → (⟨S500000x1, .f32⟩ : BufTy).Contents (Elt F)),
    nullary main_cst_15 (constant S_ .f32 0x43000000#32),
    unary main_cst_15 main_v90 (broadcastInDim S500000x1 ![] bcast_S_S500000x1 : (⟨S_, .f32⟩ : BufTy).Contents (Elt F) → (⟨S500000x1, .f32⟩ : BufTy).Contents (Elt F)),
    binary main_v89 main_v90 main_v91 (Host.divf : (⟨S500000x1, .f32⟩ : BufTy).Contents (Elt F) → (⟨S500000x1, .f32⟩ : BufTy).Contents (Elt F) → (⟨S500000x1, .f32⟩ : BufTy).Contents (Elt F)),
    unary main_v84 main_v92 (broadcastInDim S500000x128 ![0, 1] bcast_S500000x1_S500000x128_0_1 : (⟨S500000x1, .f32⟩ : BufTy).Contents (Elt F) → (⟨S500000x128, .f32⟩ : BufTy).Contents (Elt F)),
    binary main_v80 main_v92 main_v93 (subf : (⟨S500000x128, .f32⟩ : BufTy).Contents (Elt F) → (⟨S500000x128, .f32⟩ : BufTy).Contents (Elt F) → (⟨S500000x128, .f32⟩ : BufTy).Contents (Elt F)),
    nullary main_cst_16 (constant S_ .f32 0x3727C5AC#32),
    unary main_cst_16 main_v94 (broadcastInDim S500000x1 ![] bcast_S_S500000x1 : (⟨S_, .f32⟩ : BufTy).Contents (Elt F) → (⟨S500000x1, .f32⟩ : BufTy).Contents (Elt F)),
    binary main_v91 main_v94 main_v95 (addf : (⟨S500000x1, .f32⟩ : BufTy).Contents (Elt F) → (⟨S500000x1, .f32⟩ : BufTy).Contents (Elt F) → (⟨S500000x1, .f32⟩ : BufTy).Contents (Elt F)),
    unary main_v95 main_v96 (Host.rsqrt : (⟨S500000x1, .f32⟩ : BufTy).Contents (Elt F) → (⟨S500000x1, .f32⟩ : BufTy).Contents (Elt F)),
    unary main_v96 main_v97 (broadcastInDim S500000x128 ![0, 1] bcast_S500000x1_S500000x128_0_1 : (⟨S500000x1, .f32⟩ : BufTy).Contents (Elt F) → (⟨S500000x128, .f32⟩ : BufTy).Contents (Elt F)),
    binary main_v93 main_v97 main_v98 (mulf : (⟨S500000x128, .f32⟩ : BufTy).Contents (Elt F) → (⟨S500000x128, .f32⟩ : BufTy).Contents (Elt F) → (⟨S500000x128, .f32⟩ : BufTy).Contents (Elt F)),
    unary main_arg13 main_v99 (broadcastInDim S1x128 ![1] bcast_S128_S1x128_1 : (⟨S128, .f32⟩ : BufTy).Contents (Elt F) → (⟨S1x128, .f32⟩ : BufTy).Contents (Elt F)),
    unary main_v99 main_v100 (broadcastInDim S500000x128 ![0, 1] bcast_S1x128_S500000x128_0_1 : (⟨S1x128, .f32⟩ : BufTy).Contents (Elt F) → (⟨S500000x128, .f32⟩ : BufTy).Contents (Elt F)),
    binary main_v98 main_v100 main_v101 (mulf : (⟨S500000x128, .f32⟩ : BufTy).Contents (Elt F) → (⟨S500000x128, .f32⟩ : BufTy).Contents (Elt F) → (⟨S500000x128, .f32⟩ : BufTy).Contents (Elt F)),
    unary main_arg14 main_v102 (broadcastInDim S1x128 ![1] bcast_S128_S1x128_1 : (⟨S128, .f32⟩ : BufTy).Contents (Elt F) → (⟨S1x128, .f32⟩ : BufTy).Contents (Elt F)),
    unary main_v102 main_v103 (broadcastInDim S500000x128 ![0, 1] bcast_S1x128_S500000x128_0_1 : (⟨S1x128, .f32⟩ : BufTy).Contents (Elt F) → (⟨S500000x128, .f32⟩ : BufTy).Contents (Elt F)),
    binary main_v101 main_v103 main_v104 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S500000x128, .f32⟩) main_call2_v0) (broadcastInDim S500000x128 ![] bcast_S_S500000x128),
    TRef.binary (TRef.of (T := ⟨S500000x128, .f32⟩) main_v104) (TRef.of (T := ⟨S500000x128, .f32⟩) main_call2_v0) (TRef.of (T := ⟨S500000x128, .f32⟩) main_v105) maximumf ]

/-- The references `ops3` writes. -/
abbrev ops3_W : List (Ref sig .tc) := [main_v77, main_v78, main_v79, main_v80, main_cst_12, main_v81, main_v82, main_cst_13, main_v83, main_v84, main_v85, main_v86, main_v87, main_cst_14, main_v88, main_v89, main_cst_15, main_v90, main_v91, main_v92, main_v93, main_cst_16, main_v94, main_v95, main_v96, main_v97, main_v98, main_v99, main_v100, main_v101, main_v102, main_v103, main_v104, main_call2_cst, main_call2_v0, main_v105]

theorem ops3_writes : (ops3 : List (HloOp τ sig (Elt F))).Forall fun op => op.writes ⊆ (ops3_W.map (Proc.devRef (τ := τ) .tc)).toFinset := by
  unfold ops3
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A reference `ops3` does not write keeps its contents through it. -/
theorem ops3_keep (W : Valuation τ sig (Elt F)) (r : Ref sig .tc) (h : r ∉ ops3_W) :
    after ops3 W (Proc.devRef .tc r) = W (Proc.devRef .tc r) :=
  after_of_writes_sub ops3 W ops3_writes h

theorem ops3_fresh : (ops3 : List (HloOp τ sig (Elt F))).Forall fun op => op.fresh = ∅ := by
  unfold ops3
  simp only [List.Forall]
  repeat' constructor

/-- From contents holding the stage `main_v76` and the parameters it reads, this stretch leaves the stage `main_v105`. -/
theorem stage_v105 (W : Valuation τ sig (Elt F)) (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F))
    (hin : W (Proc.devRef .tc main_v76) = val_main_v76 (F := F) x0 x1 x2 x3 x4 x5 x6 x7 x8 x9 x10)
    (h11 : W (Proc.devRef .tc main_arg11) = x11)
    (h12 : W (Proc.devRef .tc main_arg12) = x12)
    (h13 : W (Proc.devRef .tc main_arg13) = x13)
    (h14 : W (Proc.devRef .tc main_arg14) = x14) :
    after ops3 W (Proc.devRef .tc main_v105) = val_main_v105 (F := F) x0 x1 x2 x3 x4 x5 x6 x7 x8 x9 x10 x11 x12 x13 x14 := by
  unfold ops3
  after_results_simp
  rw [hin, h11, h12, h13, h14]
  rfl

/-- The last affine map and the flattening of its column. -/
def ops4 : List (HloOp τ sig (Elt F)) :=
  [ binary main_v105 main_arg15 main_v106 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg16 main_v107 (broadcastInDim S1x1 ![1] bcast_S1_S1x1_1 : (⟨S1, .f32⟩ : BufTy).Contents (Elt F) → (⟨S1x1, .f32⟩ : BufTy).Contents (Elt F)),
    unary main_v107 main_v108 (broadcastInDim S500000x1 ![0, 1] bcast_S1x1_S500000x1_0_1 : (⟨S1x1, .f32⟩ : BufTy).Contents (Elt F) → (⟨S500000x1, .f32⟩ : BufTy).Contents (Elt F)),
    binary main_v106 main_v108 main_v109 (addf : (⟨S500000x1, .f32⟩ : BufTy).Contents (Elt F) → (⟨S500000x1, .f32⟩ : BufTy).Contents (Elt F) → (⟨S500000x1, .f32⟩ : BufTy).Contents (Elt F)),
    reshape main_v109 main_v110 rfl shapeCasts_S500000x1_S500000 ]

/-- The references `ops4` writes. -/
abbrev ops4_W : List (Ref sig .tc) := [main_v106, main_v107, main_v108, main_v109, main_v110]

theorem ops4_writes : (ops4 : List (HloOp τ sig (Elt F))).Forall fun op => op.writes ⊆ (ops4_W.map (Proc.devRef (τ := τ) .tc)).toFinset := by
  unfold ops4
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩

/-- A reference `ops4` does not write keeps its contents through it. -/
theorem ops4_keep (W : Valuation τ sig (Elt F)) (r : Ref sig .tc) (h : r ∉ ops4_W) :
    after ops4 W (Proc.devRef .tc r) = W (Proc.devRef .tc r) :=
  after_of_writes_sub ops4 W ops4_writes h

theorem ops4_fresh : (ops4 : List (HloOp τ sig (Elt F))).Forall fun op => op.fresh = ∅ := by
  unfold ops4
  simp only [List.Forall]
  repeat' constructor

/-- From contents holding the stage `main_v105` and the parameters it reads, this stretch leaves the stage `main_v110`. -/
theorem stage_v110 (W : Valuation τ sig (Elt F)) (x0 : (⟨S100000x128, .f32⟩ : BufTy).Contents (Elt F)) (x1 : (⟨S2x500000, .i32⟩ : BufTy).Contents (Elt F)) (x2 : (⟨S500000x128, .f32⟩ : BufTy).Contents (Elt F)) (x3 : (⟨S384x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x1, .f32⟩ : BufTy).Contents (Elt F)) (x16 : (⟨S1, .f32⟩ : BufTy).Contents (Elt F))
    (hin : W (Proc.devRef .tc main_v105) = val_main_v105 (F := F) x0 x1 x2 x3 x4 x5 x6 x7 x8 x9 x10 x11 x12 x13 x14)
    (h15 : W (Proc.devRef .tc main_arg15) = x15)
    (h16 : W (Proc.devRef .tc main_arg16) = x16) :
    after ops4 W (Proc.devRef .tc main_v110) = val_main_v110 (F := F) x0 x1 x2 x3 x4 x5 x6 x7 x8 x9 x10 x11 x12 x13 x14 x15 x16 := by
  unfold ops4
  after_results_simp
  rw [hin, h15, h16]
  rfl

/-- A reference the first stretch does not write keeps its contents through it. -/
theorem keepTo1 (V : Valuation τ sig (Elt F)) (r : Ref sig .tc) (h0 : r ∉ ops0_W) :
    after ops0 V (Proc.devRef .tc r) = V (Proc.devRef .tc r) :=
  ops0_keep _ r h0

/-- A reference none of the first 2 stretches writes keeps its contents through them. -/
theorem keepTo2 (V : Valuation τ sig (Elt F)) (r : Ref sig .tc) (h0 : r ∉ ops0_W) (h1 : r ∉ opsC_W) :
    after opsC (after ops0 V) (Proc.devRef .tc r) = V (Proc.devRef .tc r) :=
  (opsC_keep _ r h1).trans (ops0_keep _ r h0)

/-- A reference none of the first 3 stretches writes keeps its contents through them. -/
theorem keepTo3 (V : Valuation τ sig (Elt F)) (r : Ref sig .tc) (h0 : r ∉ ops0_W) (h1 : r ∉ opsC_W) (h2 : r ∉ ops1_W) :
    after ops1 (after opsC (after ops0 V)) (Proc.devRef .tc r) = V (Proc.devRef .tc r) :=
  (ops1_keep _ r h2).trans ((opsC_keep _ r h1).trans (ops0_keep _ r h0))

/-- A reference none of the first 4 stretches writes keeps its contents through them. -/
theorem keepTo4 (V : Valuation τ sig (Elt F)) (r : Ref sig .tc) (h0 : r ∉ ops0_W) (h1 : r ∉ opsC_W) (h2 : r ∉ ops1_W) (h3 : r ∉ ops2_W) :
    after ops2 (after ops1 (after opsC (after ops0 V))) (Proc.devRef .tc r) = V (Proc.devRef .tc r) :=
  (ops2_keep _ r h3).trans ((ops1_keep _ r h2).trans ((opsC_keep _ r h1).trans (ops0_keep _ r h0)))

/-- A reference none of the first 5 stretches writes keeps its contents through them. -/
theorem keepTo5 (V : Valuation τ sig (Elt F)) (r : Ref sig .tc) (h0 : r ∉ ops0_W) (h1 : r ∉ opsC_W) (h2 : r ∉ ops1_W) (h3 : r ∉ ops2_W) (h4 : r ∉ ops3_W) :
    after ops3 (after ops2 (after ops1 (after opsC (after ops0 V)))) (Proc.devRef .tc r) = V (Proc.devRef .tc r) :=
  (ops3_keep _ r h4).trans ((ops2_keep _ r h3).trans ((ops1_keep _ r h2).trans ((opsC_keep _ r h1).trans (ops0_keep _ r h0))))

/-- A reference none of the first 6 stretches writes keeps its contents through them. -/
theorem keepTo6 (V : Valuation τ sig (Elt F)) (r : Ref sig .tc) (h0 : r ∉ ops0_W) (h1 : r ∉ opsC_W) (h2 : r ∉ ops1_W) (h3 : r ∉ ops2_W) (h4 : r ∉ ops3_W) (h5 : r ∉ ops4_W) :
    after ops4 (after ops3 (after ops2 (after ops1 (after opsC (after ops0 V))))) (Proc.devRef .tc r) = V (Proc.devRef .tc r) :=
  (ops4_keep _ r h5).trans ((ops3_keep _ r h4).trans ((ops2_keep _ r h3).trans ((ops1_keep _ r h2).trans ((opsC_keep _ r h1).trans (ops0_keep _ r h0)))))

/-- THE RESULT, stretch by stretch: after the six stretches the result buffer holds the last stage's value of the contents the
    arguments had at the start. Each stretch is fed the stage the one before left and the parameters, which no stretch writes. -/
theorem result_eq (V : Valuation τ sig (Elt F)) :
    after ops4 (after ops3 (after ops2 (after ops1 (after opsC (after ops0 V))))) (Proc.devRef .tc main_v110)
      = val_main_v110 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  have s10 := stage_v10 V (V (Proc.devRef .tc main_arg0)) (V (Proc.devRef .tc main_arg1)) rfl rfl
  have s17 := stage_v17 V (V (Proc.devRef .tc main_arg0)) (V (Proc.devRef .tc main_arg1)) rfl rfl
  have s18 := stage_v18 (after ops0 V) (V (Proc.devRef .tc main_arg0)) (V (Proc.devRef .tc main_arg1)) (V (Proc.devRef .tc main_arg2)) s10 s17 (keepTo1 V main_arg2 (by decide))
  have s47 := stage_v47 (after opsC (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) s18
    (keepTo2 V main_arg3 (by decide) (by decide)) (keepTo2 V main_arg4 (by decide) (by decide)) (keepTo2 V main_arg5 (by decide) (by decide)) (keepTo2 V main_arg6 (by decide) (by decide))
  have s76 := stage_v76 (after ops1 (after opsC (after ops0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) s47
    (keepTo3 V main_arg7 (by decide) (by decide) (by decide)) (keepTo3 V main_arg8 (by decide) (by decide) (by decide)) (keepTo3 V main_arg9 (by decide) (by decide) (by decide)) (keepTo3 V main_arg10 (by decide) (by decide) (by decide))
  have s105 := stage_v105 (after ops2 (after ops1 (after opsC (after ops0 V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) s76
    (keepTo4 V main_arg11 (by decide) (by decide) (by decide) (by decide)) (keepTo4 V main_arg12 (by decide) (by decide) (by decide) (by decide)) (keepTo4 V main_arg13 (by decide) (by decide) (by decide) (by decide)) (keepTo4 V main_arg14 (by decide) (by decide) (by decide) (by decide))
  exact stage_v110 (after ops3 (after ops2 (after ops1 (after opsC (after ops0 V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) s105
    (keepTo5 V main_arg15 (by decide) (by decide) (by decide) (by decide) (by decide)) (keepTo5 V main_arg16 (by decide) (by decide) (by decide) (by decide) (by decide))

/-- The line is its six stretches in a row. -/
theorem ops_split : (ops : List (HloOp τ sig (Elt F))) = ops0 ++ (opsC ++ (ops1 ++ (ops2 ++ (ops3 ++ ops4)))) := rfl

/-- So the contents after the line are the contents after the stretches, one after the other. -/
theorem after_ops (V : Valuation τ sig (Elt F)) :
    after ops V = after ops4 (after ops3 (after ops2 (after ops1 (after opsC (after ops0 V))))) := by
  rw [ops_split, after_append, after_append, after_append, after_append, after_append]

/-- Every operation of the line determines its results. -/
theorem ops_fresh : ∀ op ∈ (ops : List (HloOp τ sig (Elt F))), op.fresh = ∅ := by
  intro op h
  rw [ops_split] at h
  simp only [List.mem_append] at h
  rcases h with h | h | h | h | h | h
  · exact List.forall_iff_forall_mem.1 ops0_fresh op h
  · exact List.forall_iff_forall_mem.1 opsC_fresh op h
  · exact List.forall_iff_forall_mem.1 ops1_fresh op h
  · exact List.forall_iff_forall_mem.1 ops2_fresh op h
  · exact List.forall_iff_forall_mem.1 ops3_fresh op h
  · exact List.forall_iff_forall_mem.1 ops4_fresh op h

/-- THE RUN: the result buffer ends at the last stage's value of the arguments; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v110).trans ((congrFun (after_ops _) _).trans (result_eq _)),
      (h c main_arg0).trans ((congrFun (after_ops _) _).trans (keepTo6 _ main_arg0 (by decide) (by decide) (by decide) (by decide) (by decide) (by decide))),
      (h c main_arg1).trans ((congrFun (after_ops _) _).trans (keepTo6 _ main_arg1 (by decide) (by decide) (by decide) (by decide) (by decide) (by decide))),
      (h c main_arg2).trans ((congrFun (after_ops _) _).trans (keepTo6 _ main_arg2 (by decide) (by decide) (by decide) (by decide) (by decide) (by decide))),
      (h c main_arg3).trans ((congrFun (after_ops _) _).trans (keepTo6 _ main_arg3 (by decide) (by decide) (by decide) (by decide) (by decide) (by decide))),
      (h c main_arg4).trans ((congrFun (after_ops _) _).trans (keepTo6 _ main_arg4 (by decide) (by decide) (by decide) (by decide) (by decide) (by decide))),
      (h c main_arg5).trans ((congrFun (after_ops _) _).trans (keepTo6 _ main_arg5 (by decide) (by decide) (by decide) (by decide) (by decide) (by decide))),
      (h c main_arg6).trans ((congrFun (after_ops _) _).trans (keepTo6 _ main_arg6 (by decide) (by decide) (by decide) (by decide) (by decide) (by decide))),
      (h c main_arg7).trans ((congrFun (after_ops _) _).trans (keepTo6 _ main_arg7 (by decide) (by decide) (by decide) (by decide) (by decide) (by decide))),
      (h c main_arg8).trans ((congrFun (after_ops _) _).trans (keepTo6 _ main_arg8 (by decide) (by decide) (by decide) (by decide) (by decide) (by decide))),
      (h c main_arg9).trans ((congrFun (after_ops _) _).trans (keepTo6 _ main_arg9 (by decide) (by decide) (by decide) (by decide) (by decide) (by decide))),
      (h c main_arg10).trans ((congrFun (after_ops _) _).trans (keepTo6 _ main_arg10 (by decide) (by decide) (by decide) (by decide) (by decide) (by decide))),
      (h c main_arg11).trans ((congrFun (after_ops _) _).trans (keepTo6 _ main_arg11 (by decide) (by decide) (by decide) (by decide) (by decide) (by decide))),
      (h c main_arg12).trans ((congrFun (after_ops _) _).trans (keepTo6 _ main_arg12 (by decide) (by decide) (by decide) (by decide) (by decide) (by decide))),
      (h c main_arg13).trans ((congrFun (after_ops _) _).trans (keepTo6 _ main_arg13 (by decide) (by decide) (by decide) (by decide) (by decide) (by decide))),
      (h c main_arg14).trans ((congrFun (after_ops _) _).trans (keepTo6 _ main_arg14 (by decide) (by decide) (by decide) (by decide) (by decide) (by decide))),
      (h c main_arg15).trans ((congrFun (after_ops _) _).trans (keepTo6 _ main_arg15 (by decide) (by decide) (by decide) (by decide) (by decide) (by decide))),
      (h c main_arg16).trans ((congrFun (after_ops _) _).trans (keepTo6 _ main_arg16 (by decide) (by decide) (by decide) (by decide) (by decide) (by decide)))⟩)
    (run_seq scopedRefs_eq scopedSems_eq defs main (fun _ => ops) main_eq (fun _ => ops_sub) m ρ (fun _ => ops_fresh))

end Cert.ReferenceIdeal.HandRun

end
-- ==== Proof.lean ====
/-
  The certificate of the edge classifier. For each of 500000 edges the kernel's program and the reference compute the same number: the
  rows of the node table that the edge's source and destination indices name, laid beside the edge's own row, go through three
  layers (an affine map, a layer normalisation over the 128 lanes, a rectifier) and a last affine map to one value.
  The kernel's program takes the node rows with `jnp.take`, which fills a row with a not-a-number word where its index is out of
  range, the reference with NumPy indexing, which holds the position inside the table: the two agree exactly on NumPy's index range
  `-100000 ≤ i < 100000`, which the precondition states, and there the kernel's in-range test passes everywhere.
  At the extended reals the kernel's changes of float format are the identity, its matrix product into a zero accumulator is the
  reference's contraction, and its lane sums are the reference's reductions, so edge by edge both are `Cert.EdgeMlp.edgeOut` of
  the same three rows (Proof/Spec.lean). The kernel's side is read off its frame run block by block (Proof/KValue.lean over
  Proof/KLayers.lean and Proof/KEntry.lean), the reference's off its run stage by stage (Proof/RefRun.lean, Proof/RefValue.lean).
  The ideal pass rewrote nothing, so `preserves` is trivial.
-/
import proofs.«400990_j30305289240589_1_alg».proof.Defs
import proofs.«400990_j30305289240589_1_alg».proof.Proof.Gen.Kernel
import proofs.«400990_j30305289240589_1_alg».proof.Proof.Gen.Kernel.Frame
import proofs.«400990_j30305289240589_1_alg».proof.Proof.Gen.KernelIdeal
import proofs.«400990_j30305289240589_1_alg».proof.Proof.Gen.KernelIdeal.Frame
import proofs.«400990_j30305289240589_1_alg».proof.Proof.Gen.ReferenceIdeal
import proofs.«400990_j30305289240589_1_alg».proof.Proof.Gen.Pre_finite_inputs
import proofs.«400990_j30305289240589_1_alg».proof.Proof.Spec
import proofs.«400990_j30305289240589_1_alg».proof.Proof.KValue
import proofs.«400990_j30305289240589_1_alg».proof.Proof.PreRange
import proofs.«400990_j30305289240589_1_alg».proof.Proof.RefValue
import proofs.«400990_j30305289240589_1_alg».proof.Proof.RefRun
import Idealize.ShloMosaic.Adequacy
import Idealize.ShloMosaic.Init

noncomputable section

namespace Cert.Proof

open Idealize.ShloMosaic Idealize.ShloMosaic.TcCoe Idealize.SL.Sem Cert.EdgeMlp

/-- The word-level kernel and its idealization run, fault-free, and leave their arguments: the generated frames. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- Under the precondition every node index of the kernel's memory is in NumPy's range. -/
theorem inRange_of_pre (m : (ℓ : Loc Cert.KernelIdeal.nD Cert.KernelIdeal.τ Cert.KernelIdeal.sig) → Buf (Elt Ideal) ℓ)
    (hpre : Cert.Pre_KernelIdeal m) : ∀ c i, InRange (Cert.KernelIdeal.Entry.indices m c i) := fun c =>
  Cert.Pre_finite_inputs.Range.inRange_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (hpre c)

/-- From memories that agree on the arguments both programs end with every edge's number in their result arrays. -/
theorem algebraic : Cert.algebraic_KernelIdeal_ReferenceIdeal := by
  intro m ρ m' ρ' hpre hagree
  refine ⟨fun c => result (Cert.KernelIdeal.ValueRun.memParams m c) (Cert.KernelIdeal.Entry.nodes m c) (Cert.KernelIdeal.Entry.indices m c)
    (m ((c.tc : Thread Cert.KernelIdeal.nD Cert.KernelIdeal.τ).loc Cert.KernelIdeal.main_arg2)),
    Cert.KernelIdeal.ValueRun.run m ρ (inRange_of_pre m hpre), ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.ref_is_result]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
